-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S256x64 : Shape := ⟨2, ![256, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S4x16x4096x64 .f32) (main_arg1 : FVec F S4x16x4096x64 .f32) (main_arg2 : FVec F S4x16x4096x64 .f32) (main_arg3 : FVec F S256x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S4x16x4096x64 : Shape := ⟨4, ![4, 16, 4096, 64]⟩
abbrev S256x64 : Shape := ⟨2, ![256, 64]⟩
abbrev S64x4096x64 : Shape := ⟨3, ![64, 4096, 64]⟩
abbrev S1x1 : Shape := ⟨2, ![1, 1]⟩
abbrev S1x1024x64 : Shape := ⟨3, ![1, 1024, 64]⟩
abbrev S1024x64 : Shape := ⟨2, ![1024, 64]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S64x256x64 : Shape := ⟨3, ![64, 256, 64]⟩
abbrev S1x256x64 : Shape := ⟨3, ![1, 256, 64]⟩

abbrev nBuf : Space → Nat
  | .hbm => 11
  | .vmem => 20
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S256x64, .f32⟩
  | .hbm, ⟨4, _⟩ => ⟨S64x4096x64, .f32⟩
  | .hbm, ⟨5, _⟩ => ⟨S64x4096x64, .f32⟩
  | .hbm, ⟨6, _⟩ => ⟨S64x4096x64, .f32⟩
  | .hbm, ⟨7, _⟩ => ⟨S1x1, .f32⟩
  | .hbm, ⟨8, _⟩ => ⟨S64x256x64, .f32⟩
  | .hbm, ⟨9, _⟩ => ⟨S64x4096x64, .f32⟩
  | .hbm, ⟨10, _⟩ => ⟨S4x16x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S256x64, .f32⟩
  | .local _ .vmem, ⟨3, _⟩ => ⟨S1x1, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S256x64, .f32⟩
  | .local _ .vmem, ⟨9, _⟩ => ⟨S1x1, .f32⟩
  | .local _ .vmem, ⟨10, _⟩ => ⟨S1x256x64, .f32⟩
  | .local _ .vmem, ⟨11, _⟩ => ⟨S1x256x64, .f32⟩
  | .local _ .vmem, ⟨12, _⟩ => ⟨S256x64, .f32⟩
  | .local _ .vmem, ⟨13, _⟩ => ⟨S1x1024x64, .f32⟩
  | .local _ .vmem, ⟨14, _⟩ => ⟨S1x1024x64, .f32⟩
  | .local _ .vmem, ⟨15, _⟩ => ⟨S256x64, .f32⟩
  | .local _ .vmem, ⟨16, _⟩ => ⟨S1x256x64, .f32⟩
  | .local _ .vmem, ⟨17, _⟩ => ⟨S1x256x64, .f32⟩
  | .local _ .vmem, ⟨18, _⟩ => ⟨S1x1024x64, .f32⟩
  | .local _ .vmem, ⟨19, _⟩ => ⟨S1x1024x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![64, 4], ![false, false]⟩

def k1_cond2 (i : grid1.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_20 : BitVec 32 := 0#32
  let v39 : BitVec 1 := Scalar.cmpi .ne v38 c0_i32_20
  v39

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![64, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x16x4096x64_S64x4096x64 : S4x16x4096x64.ShapeCasts S64x4096x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S256x64_S256x64 : S256x64.ShapeCasts S256x64
  reduces_S1024x64_S1024 : S1024x64.Reduces [1] S1024
  broadcasts_S1024x1_S1024x256 : S1024x1.Broadcasts S1024x256
  broadcasts_S1x1_S1024x256 : S1x1.Broadcasts S1024x256
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  shapeCasts_S1024x64_S1x1024x64 : S1024x64.ShapeCasts S1x1024x64
  shapeCasts_S64x4096x64_S4x16x4096x64 : S64x4096x64.ShapeCasts S4x16x4096x64
  dot_S1024x64_S256x64_S1024x256_1_1_0_0_n_n_wf : DotDims.WF S1024x64 S256x64 S1024x256 [1] [1] [0] [0] [] []
  dot_S1024x256_S1024x64_S256x64_0_0_1_1_n_n_wf : DotDims.WF S1024x256 S1024x64 S256x64 [0] [0] [1] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x4096x64.size a
  hwx0_0 : ∀ i : grid0.Coords, EltTy.bits .f32 = 32 ∨ (Rect.block (s := S64x4096x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x4096x64.size a
  hwx1_0 : ∀ i : grid1.Coords, EltTy.bits .f32 = 32 ∨ (Rect.block (s := S64x4096x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S64x4096x64.size a
  hwx1_1 : ∀ i : grid1.Coords, EltTy.bits .f32 = 32 ∨ (Rect.block (s := S64x4096x64) S1x1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S64x256x64.size a
  hwx1_4 : ∀ i : grid1.Coords, EltTy.bits .f32 = 32 ∨ (Rect.block (s := S64x256x64) S1x256x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x64.size a ≤ S64x4096x64.size a
  hwx2_0 : ∀ i : grid2.Coords, EltTy.bits .f32 = 32 ∨ (Rect.block (s := S64x4096x64) S1x1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x64.size a ≤ S64x256x64.size a
  hwx2_2 : ∀ i : grid2.Coords, EltTy.bits .f32 = 32 ∨ (Rect.block (s := S64x256x64) S1x256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x64.size a ≤ S64x4096x64.size a
  hwx2_3 : ∀ i : grid2.Coords, EltTy.bits .f32 = 32 ∨ (Rect.block (s := S64x4096x64) S1x1024x64.size (cc2_transform_3 i) (hinb2_3 i)).WholeWords (EltTy.packing .f32)

variable [Facts₀]

def dot_S1024x64_S256x64_S1024x256_1_1_0_0_n_n : DotDims S1024x64 S256x64 S1024x256 where
  lhsContracting := [1]
  rhsContracting := [1]
  lhsNonContracting := [0]
  rhsNonContracting := [0]
  lhsBatch := []
  rhsBatch := []
  wf := dot_S1024x64_S256x64_S1024x256_1_1_0_0_n_n_wf
def dot_S1024x256_S1024x64_S256x64_0_0_1_1_n_n : DotDims S1024x256 S1024x64 S256x64 where
  lhsContracting := [0]
  rhsContracting := [0]
  lhsNonContracting := [1]
  rhsNonContracting := [1]
  lhsBatch := []
  rhsBatch := []
  wf := dot_S1024x256_S1024x64_S256x64_0_0_1_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v2) S1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x256x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x16x4096x64 : Shape := ⟨4, ![4, 16, 4096, 64]⟩
abbrev S256x64 : Shape := ⟨2, ![256, 64]⟩
abbrev S_ : Shape := ⟨0, ![]⟩
abbrev S4x16x4096x256 : Shape := ⟨4, ![4, 16, 4096, 256]⟩
abbrev S4x16x4096 : Shape := ⟨3, ![4, 16, 4096]⟩
abbrev S4x16x4096x1 : Shape := ⟨4, ![4, 16, 4096, 1]⟩
abbrev S4x16x256x64 : Shape := ⟨4, ![4, 16, 256, 64]⟩

abbrev nBuf : Space → Nat
  | .hbm => 61
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S256x64, .f32⟩
  | .hbm, ⟨4, _⟩ => ⟨S_, .f32⟩
  | .hbm, ⟨5, _⟩ => ⟨S4x16x4096x64, .f32⟩
  | .hbm, ⟨6, _⟩ => ⟨S4x16x4096x64, .f32⟩
  | .hbm, ⟨7, _⟩ => ⟨S4x16x4096x256, .f32⟩
  | .hbm, ⟨8, _⟩ => ⟨S4x16x4096x64, .f32⟩
  | .hbm, ⟨9, _⟩ => ⟨S_, .f32⟩
  | .hbm, ⟨10, _⟩ => ⟨S4x16x4096, .f32⟩
  | .hbm, ⟨11, _⟩ => ⟨S4x16x4096x1, .f32⟩
  | .hbm, ⟨12, _⟩ => ⟨S_, .f32⟩
  | .hbm, ⟨13, _⟩ => ⟨S4x16x4096x1, .f32⟩
  | .hbm, ⟨14, _⟩ => ⟨S4x16x4096x1, .f32⟩
  | .hbm, ⟨15, _⟩ => ⟨S_, .f32⟩
  | .hbm, ⟨16, _⟩ => ⟨S4x16x4096x1, .f32⟩
  | .hbm, ⟨17, _⟩ => ⟨S4x16x4096x1, .f32⟩
  | .hbm, ⟨18, _⟩ => ⟨S_, .f32⟩
  | .hbm, ⟨19, _⟩ => ⟨S4x16x4096, .f32⟩
  | .hbm, ⟨20, _⟩ => ⟨S4x16x4096x1, .f32⟩
  | .hbm, ⟨21, _⟩ => ⟨S4x16x4096x256, .f32⟩
  | .hbm, ⟨22, _⟩ => ⟨S4x16x4096x256, .f32⟩
  | .hbm, ⟨23, _⟩ => ⟨S4x16x4096x256, .f32⟩
  | .hbm, ⟨24, _⟩ => ⟨S4x16x4096x256, .f32⟩
  | .hbm, ⟨25, _⟩ => ⟨S4x16x4096x256, .f32⟩
  | .hbm, ⟨26, _⟩ => ⟨S_, .f32⟩
  | .hbm, ⟨27, _⟩ => ⟨S4x16x4096x256, .f32⟩
  | .hbm, ⟨28, _⟩ => ⟨S4x16x4096x256, .f32⟩
  | .hbm, ⟨29, _⟩ => ⟨S_, .f32⟩
  | .hbm, ⟨30, _⟩ => ⟨S4x16x4096x256, .f32⟩
  | .hbm, ⟨31, _⟩ => ⟨S4x16x4096x256, .f32⟩
  | .hbm, ⟨32, _⟩ => ⟨S_, .f32⟩
  | .hbm, ⟨33, _⟩ => ⟨S4x16x4096x64, .f32⟩
  | .hbm, ⟨34, _⟩ => ⟨S4x16x4096x64, .f32⟩
  | .hbm, ⟨35, _⟩ => ⟨S4x16x4096x256, .f32⟩
  | .hbm, ⟨36, _⟩ => ⟨S4x16x4096x64, .f32⟩
  | .hbm, ⟨37, _⟩ => ⟨S_, .f32⟩
  | .hbm, ⟨38, _⟩ => ⟨S4x16x4096, .f32⟩
  | .hbm, ⟨39, _⟩ => ⟨S4x16x4096x1, .f32⟩
  | .hbm, ⟨40, _⟩ => ⟨S_, .f32⟩
  | .hbm, ⟨41, _⟩ => ⟨S4x16x4096x1, .f32⟩
  | .hbm, ⟨42, _⟩ => ⟨S4x16x4096x1, .f32⟩
  | .hbm, ⟨43, _⟩ => ⟨S_, .f32⟩
  | .hbm, ⟨44, _⟩ => ⟨S4x16x4096x1, .f32⟩
  | .hbm, ⟨45, _⟩ => ⟨S4x16x4096x1, .f32⟩
  | .hbm, ⟨46, _⟩ => ⟨S_, .f32⟩
  | .hbm, ⟨47, _⟩ => ⟨S_, .f32⟩
  | .hbm, ⟨48, _⟩ => ⟨S4x16x4096x256, .f32⟩
  | .hbm, ⟨49, _⟩ => ⟨S4x16x4096x256, .f32⟩
  | .hbm, ⟨50, _⟩ => ⟨S4x16x4096x256, .f32⟩
  | .hbm, ⟨51, _⟩ => ⟨S4x16x4096x256, .f32⟩
  | .hbm, ⟨52, _⟩ => ⟨S4x16x4096x256, .f32⟩
  | .hbm, ⟨53, _⟩ => ⟨S_, .f32⟩
  | .hbm, ⟨54, _⟩ => ⟨S4x16x4096x256, .f32⟩
  | .hbm, ⟨55, _⟩ => ⟨S4x16x4096x256, .f32⟩
  | .hbm, ⟨56, _⟩ => ⟨S_, .f32⟩
  | .hbm, ⟨57, _⟩ => ⟨S4x16x4096x256, .f32⟩
  | .hbm, ⟨58, _⟩ => ⟨S4x16x4096x256, .f32⟩
  | .hbm, ⟨59, _⟩ => ⟨S4x16x256x64, .f32⟩
  | .hbm, ⟨60, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S4x16x4096x64 : S_.BroadcastsInDim S4x16x4096x64 (![] : Fin 0 → Fin S4x16x4096x64.rank)
  reducesTo_S4x16x4096x64_S4x16x4096_d3 : S4x16x4096x64.ReducesTo [3] S4x16x4096
  h_S_ : 0 < S_.numel
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  reducesTo_S4x16x4096x256_S4x16x4096_d3 : S4x16x4096x256.ReducesTo [3] S4x16x4096
  bcast_S4x16x4096x1_S4x16x4096x256_0_1_2_3 : S4x16x4096x1.BroadcastsInDim S4x16x4096x256 (![0, 1, 2, 3] : Fin 4 → Fin S4x16x4096x256.rank)
  bcast_S_S4x16x4096x256 : S_.BroadcastsInDim S4x16x4096x256 (![] : Fin 0 → Fin S4x16x4096x256.rank)
  reducesTo_S4x16x4096x256_S_d0_1_2_3 : S4x16x4096x256.ReducesTo [0, 1, 2, 3] S_
  dot_S4x16x4096x64_S256x64_S4x16x4096x256_3_1_012_0_n_n_wf : DotDims.WF S4x16x4096x64 S256x64 S4x16x4096x256 [3] [1] [0, 1, 2] [0] [] []
  dot_S4x16x4096x256_S4x16x4096x64_S4x16x256x64_2_2_3_3_01_01_wf : DotDims.WF S4x16x4096x256 S4x16x4096x64 S4x16x256x64 [2] [2] [3] [3] [0, 1] [0, 1]
  dot_S4x16x4096x256_S4x16x256x64_S4x16x4096x64_3_2_2_3_01_01_wf : DotDims.WF S4x16x4096x256 S4x16x256x64 S4x16x4096x64 [3] [2] [2] [3] [0, 1] [0, 1]

variable [Facts₀]

def dot_S4x16x4096x64_S256x64_S4x16x4096x256_3_1_012_0_n_n : DotDims S4x16x4096x64 S256x64 S4x16x4096x256 where
  lhsContracting := [3]
  rhsContracting := [1]
  lhsNonContracting := [0, 1, 2]
  rhsNonContracting := [0]
  lhsBatch := []
  rhsBatch := []
  wf := dot_S4x16x4096x64_S256x64_S4x16x4096x256_3_1_012_0_n_n_wf
def dot_S4x16x4096x256_S4x16x4096x64_S4x16x256x64_2_2_3_3_01_01 : DotDims S4x16x4096x256 S4x16x4096x64 S4x16x256x64 where
  lhsContracting := [2]
  rhsContracting := [2]
  lhsNonContracting := [3]
  rhsNonContracting := [3]
  lhsBatch := [0, 1]
  rhsBatch := [0, 1]
  wf := dot_S4x16x4096x256_S4x16x4096x64_S4x16x256x64_2_2_3_3_01_01_wf
def dot_S4x16x4096x256_S4x16x256x64_S4x16x4096x64_3_2_2_3_01_01 : DotDims S4x16x4096x256 S4x16x256x64 S4x16x4096x64 where
  lhsContracting := [3]
  rhsContracting := [2]
  lhsNonContracting := [2]
  rhsNonContracting := [3]
  lhsBatch := [0, 1]
  rhsBatch := [0, 1]
  wf := dot_S4x16x4096x256_S4x16x256x64_S4x16x4096x64_3_2_2_3_01_01_wf

class Facts : Prop extends Facts₀ where

variable [Facts]
-- ==== Proof.K.R0.lean ====
/-
  The first kernel region: the maximum of the keys' projected logits over every slice, row and feature.

  At grid point t = (bh, nt) the body reads a (1024 × 64) block of the keys and the whole projection matrix, computes
  the maximum M(t) of the block's (1024 × 256) logits, and keeps a RUNNING maximum in the (1 × 1) output buffer, which
  the pipeline writes back only after the last point: at the first point it stores M(0) — it also loads the buffer there,
  which nothing has written yet, but the select on "first point" discards what it loaded —, at every later point the
  larger of what the point before left and M(t). So what the buffer holds after the body is defined by recursion on
  the point (`gAt0`), and at the first point it does not depend on what the buffer held (`out0_2_first`).
-/
import proofs.«106060_j5274219839587_1_alg».proof.Proof.Gen.Kernel.Launch
import proofs.«106060_j5274219839587_1_alg».proof.Proof.Gen.Kernel.Skeleton
import proofs.«106060_j5274219839587_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0K : Rect S1x1024x64 := Rect.unit (s := S1x1024x64) ![0, 0, 0] S1x1024x64.size inb_S1x1024x64_S1x1024x64_0_0_0
abbrev r0P : Rect S256x64 := Rect.unit (s := S256x64) ![0, 0] S256x64.size inb_S256x64_S256x64_0_0
abbrev r0G : Rect S1x1 := Rect.unit (s := S1x1) ![0, 0] S1x1.size inb_S1x1_S1x1_0_0

/-- The running-maximum buffer after the body at grid coordinates `i`, from the two input blocks and what the buffer
    held before the body: its one store. -/
def out0_2 (i : grid0.Coords) (x0 : Vec F S1x1024x64 .f32) (x1 : Vec F S256x64 .f32) (xd : Vec F S1x1 .f32) : Vec F S1x1 .f32 :=
  View.canon [⟨r0G, k0_pay1 i (View.ld x0 r0K) (View.ld x1 r0P) (View.ld xd r0G)⟩]

/-- At the first grid point the stored value does not depend on what the buffer held: the select takes the block's own
    maximum. -/
theorem out0_2_first (i : grid0.Coords) (h0 : (i 0).val = 0) (h1 : (i 1).val = 0) (x0 : Vec F S1x1024x64 .f32) (x1 : Vec F S256x64 .f32)
    (d d' : Vec F S1x1 .f32) : out0_2 i x0 x1 d = out0_2 i x0 x1 d' := by
  unfold out0_2 k0_pay1
  simp only [h0, h1]
  rfl

/-- The one store covers the buffer. -/
theorem cover0_2 (p0 : Vec F S1x1 .f32) (y : S1x1.Idx) :
    ∃ pc ∈ ([⟨r0G, p0⟩] : List (View.Piece (Elt F) S1x1 .f32)), y ∈ pc.1.set :=
  View.cover_of_tiled [⟨r0G, p0⟩] S1x1.size (by rfl) y

set_option maxHeartbeats 1000000 in
/-- The body on whole staging memrefs: the inputs at their contents and the running-maximum buffer at contents `xd` run
    to the inputs as they were and the buffer at `out0_2` of them. -/
theorem sound_kernel0 (c : Dev nD) (E : Set ℕ) (i : grid0.Coords) (arg2 : Memref sig .tc .vmem S1x1024x64 .f32) (harg2 : arg2.IsWhole)
    (arg3 : Memref sig .tc .vmem S256x64 .f32) (harg3 : arg3.IsWhole) (arg4 : Memref sig .tc .vmem S1x1 .f32) (harg4 : arg4.IsWhole)
    (x0 : Vec F S1x1024x64 .f32) (x1 : Vec F S256x64 .f32) (xd : Vec F S1x1 .f32) (K : PUnit → sProp 𝕄) :
    iprop(owns (c : Thread nD τ) arg2 fullShare x0 ∗ owns (c : Thread nD τ) arg3 fullShare x1 ∗ owns (c : Thread nD τ) arg4 fullShare xd
        ∗ (iprop(owns (c : Thread nD τ) arg2 fullShare x0 ∗ owns (c : Thread nD τ) arg3 fullShare x1
            ∗ owns (c : Thread nD τ) arg4 fullShare (out0_2 i x0 x1 xd)) -∗ K ⟨⟩))
      ⊢ wp frame (wpE (defs₀ (F := F)) Variants.none c none) E (cc0__kmax_kernel i arg2 harg2 arg3 harg3 arg4 harg4) K := by
  simp only [cc0__kmax_kernel_eq_skeleton]; unfold cc0__kmax_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Contents nothing reads: what stands for the unwritten buffer at the first point. -/
def junk0 : Vec F S1x1 .f32 := View.canon []

/-- THE RUNNING MAXIMUM. What the (1 × 1) buffer holds after the body at position `n`: the body's store over what
    position `n - 1` left (at the first position over contents nothing reads). -/
def gAt0 (c : Dev nD) : (n : ℕ) → n < cfg0.N → Vec F S1x1 .f32
  | 0, hn => out0_2 (grid0.coords ⟨0, hn⟩) (iblk0 V c 0 ⟨0, hn⟩) (iblk0 V c 1 ⟨0, hn⟩) junk0
  | n + 1, hn => out0_2 (grid0.coords ⟨n + 1, hn⟩) (iblk0 V c 0 ⟨n + 1, hn⟩) (iblk0 V c 1 ⟨n + 1, hn⟩) (gAt0 c n (Nat.lt_of_succ_lt hn))

theorem gAt0_zero (c : Dev nD) (hn : 0 < cfg0.N) :
    gAt0 V c 0 hn = out0_2 (grid0.coords ⟨0, hn⟩) (iblk0 V c 0 ⟨0, hn⟩) (iblk0 V c 1 ⟨0, hn⟩) junk0 := rfl
theorem gAt0_succ (c : Dev nD) (n : ℕ) (hn : n + 1 < cfg0.N) :
    gAt0 V c (n + 1) hn = out0_2 (grid0.coords ⟨n + 1, hn⟩) (iblk0 V c 0 ⟨n + 1, hn⟩) (iblk0 V c 1 ⟨n + 1, hn⟩) (gAt0 V c n (Nat.lt_of_succ_lt hn)) := rfl

/-- The proof data of the region on core `c`: the arrays as the region finds them; after the body each input's buffer at
    its block and the running-maximum buffer at `gAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => gAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = gAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The running-maximum buffer at the first point holds whatever it held: nothing has written it. -/
theorem before0_2_zero (c : Dev nD) (t : Fin cfg0.N) (ht : t.val = 0) (d) : (dat0 V c).before 2 t d = d :=
  (dat0 V c).before_out_reset 2 rfl t (.inl ht) d

/-- At a later point it holds what the point before left: the pipeline writes it back only after the last point. -/
theorem before0_2_pos (c : Dev nD) (t : Fin cfg0.N) (ht : t.val ≠ 0) (d) :
    (dat0 V c).before 2 t d = gAt0 V c (t.val - 1) (Nat.lt_of_le_of_lt (Nat.sub_le _ _) t.isLt) := by
  have hN : t.val < 256 := lt_of_lt_of_eq t.isLt (show cfg0.N = 256 from N_0)
  have hfl : (cfg0.win 2).flush ⟨t.val - 1, Nat.lt_of_le_of_lt (Nat.sub_le _ _) t.isLt⟩ = false := by
    rw [Bool.eq_false_iff]; intro h
    have := (flush0_2 ⟨t.val - 1, Nat.lt_of_le_of_lt (Nat.sub_le _ _) t.isLt⟩).mp h
    dsimp only at this; omega
  rw [(dat0 V c).before_out_kept 2 rfl t ht hfl (fun _ => rfl) (fun _ _ => rfl) d, after0_2]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The grid's first point has both coordinates zero. -/
theorem coords0_zero : ∀ t : Fin cfg0.N, t.val = 0 → ((grid0.coords t) 0).val = 0 ∧ ((grid0.coords t) 1).val = 0 :=
  (by decide +kernel : ∀ t : Fin grid0.N, t.val = 0 → ((grid0.coords t) 0).val = 0 ∧ ((grid0.coords t) 1).val = 0)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases hz : t.val = 0
  · obtain ⟨n, hn⟩ := t
    dsimp only at hz; subst hz
    simp only [before0_2_zero V c ⟨0, hn⟩ rfl]
    rw [gAt0_zero]
    iintro ⟨HΦ, Ho, ⟨%d0, H0⟩, ⟨%d1, H1⟩, ⟨%d2, H2⟩⟩
    rw [out0_2_first (grid0.coords ⟨0, hn⟩) (coords0_zero ⟨0, hn⟩ rfl).1 (coords0_zero ⟨0, hn⟩ rfl).2 _ _ junk0 d2]
    iapply (sound_kernel0 c Set.univ _ _ _ _ _ _ _ (iblk0 V c 0 ⟨0, hn⟩) (iblk0 V c 1 ⟨0, hn⟩) d2 _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · obtain ⟨n, hn⟩ := t
    cases n with
    | zero => exact absurd rfl hz
    | succ n =>
      simp only [before0_2_pos V c ⟨n + 1, hn⟩ hz]
      rw [gAt0_succ]
      iintro ⟨HΦ, Ho, ⟨%d0, H0⟩, ⟨%d1, H1⟩, ⟨%d2, H2⟩⟩
      iapply (sound_kernel0 c Set.univ _ _ _ _ _ _ _ (iblk0 V c 0 ⟨n + 1, hn⟩) (iblk0 V c 1 ⟨n + 1, hn⟩) (gAt0 V c n (Nat.lt_of_succ_lt hn)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Defs.lean ====
/-
  The second kernel region: what its scratch accumulator and its output buffer hold, point by point.

  At grid point t = (bh, nt) the body reads a (1024 × 64) block of the keys, the matching block of the values, the whole
  projection matrix and the (1 × 1) global maximum, and keeps a (256 × 64) accumulator in a scratch buffer of its own:
  at nt = 0 it first stores zeros there; at every point it loads the accumulator, adds the block's contribution
  (features transposed times values) and stores the sum back; at nt = 3 it copies the accumulator into the output
  buffer, which the pipeline then writes back as slice bh of the context array. At the other points the output buffer
  is not touched and not written back.
-/
import proofs.«106060_j5274219839587_1_alg».proof.Proof.Gen.Kernel.Launch
import proofs.«106060_j5274219839587_1_alg».proof.Proof.Gen.Kernel.Skeleton
import proofs.«106060_j5274219839587_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1K : Rect S1x1024x64 := Rect.unit (s := S1x1024x64) ![0, 0, 0] S1x1024x64.size inb_S1x1024x64_S1x1024x64_0_0_0
abbrev r1P : Rect S256x64 := Rect.unit (s := S256x64) ![0, 0] S256x64.size inb_S256x64_S256x64_0_0
abbrev r1G : Rect S1x1 := Rect.unit (s := S1x1) ![0, 0] S1x1.size inb_S1x1_S1x1_0_0
abbrev r1C : Rect S1x256x64 := Rect.unit (s := S1x256x64) ![0, 0, 0] S1x256x64.size inb_S1x256x64_S1x256x64_0_0_0

/-- The accumulator after the reset: the one store of zeros read back. -/
def zero1 : Vec F S256x64 .f32 := View.canon [⟨r1P, k1_pay3⟩]

/-- The accumulator after the body's update, from the four input blocks and what the accumulator held when the body
    loaded it: the one store read back. -/
def acc1 (x0 x1 : Vec F S1x1024x64 .f32) (x2 : Vec F S256x64 .f32) (x3 : Vec F S1x1 .f32) (xs : Vec F S256x64 .f32) : Vec F S256x64 .f32 :=
  View.canon [⟨r1P, k1_pay1 (k1_pay4 (View.ld x0 r1K) (View.ld x1 r1K) (View.ld x2 r1P) (View.ld x3 r1G) (View.ld xs r1P))⟩]

/-- The output buffer after the copy, from the accumulator: the one store read back. -/
def emit1 (s : Vec F S256x64 .f32) : Vec F S1x256x64 .f32 := View.canon [⟨r1C, k1_pay2 (View.ld s r1P)⟩]

/-- THE ACCUMULATION. What the scratch holds after the body at position `n`: the update over zeros at a position
    ≡ 0 (mod 4), where the body resets it first, and over what position `n - 1` left elsewhere. -/
def sAt1 (c : Dev nD) : (n : ℕ) → n < cfg1.N → Vec F S256x64 .f32
  | 0, hn => acc1 (iblk1 V c 0 ⟨0, hn⟩) (iblk1 V c 1 ⟨0, hn⟩) (iblk1 V c 2 ⟨0, hn⟩) (iblk1 V c 3 ⟨0, hn⟩) zero1
  | n + 1, hn => acc1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then zero1 else sAt1 c n (Nat.lt_of_succ_lt hn))

theorem sAt1_zero (c : Dev nD) (hn : 0 < cfg1.N) :
    sAt1 V c 0 hn = acc1 (iblk1 V c 0 ⟨0, hn⟩) (iblk1 V c 1 ⟨0, hn⟩) (iblk1 V c 2 ⟨0, hn⟩) (iblk1 V c 3 ⟨0, hn⟩) zero1 := rfl
theorem sAt1_succ (c : Dev nD) (n : ℕ) (hn : n + 1 < cfg1.N) :
    sAt1 V c (n + 1) hn = acc1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then zero1 else sAt1 V c n (Nat.lt_of_succ_lt hn)) := rfl

/-- At a position ≡ 0 (mod 4) the update is over zeros. -/
theorem sAt1_reset (c : Dev nD) (t : Fin cfg1.N) (h0 : t.val % 4 = 0) :
    sAt1 V c t.val t.isLt = acc1 (iblk1 V c 0 t) (iblk1 V c 1 t) (iblk1 V c 2 t) (iblk1 V c 3 t) zero1 := by
  obtain ⟨n, hn⟩ := t
  cases n with
  | zero => rfl
  | succ n => rw [sAt1_succ]; dsimp only at h0; rw [if_pos h0]

/-- Elsewhere it is over what the position before left. -/
theorem sAt1_step (c : Dev nD) (t : Fin cfg1.N) (h0 : ¬t.val % 4 = 0) :
    sAt1 V c t.val t.isLt = acc1 (iblk1 V c 0 t) (iblk1 V c 1 t) (iblk1 V c 2 t) (iblk1 V c 3 t)
      (sAt1 V c (t.val - 1) (Nat.lt_of_le_of_lt (Nat.sub_le _ _) t.isLt)) := by
  obtain ⟨n, hn⟩ := t
  cases n with
  | zero => exact absurd (Nat.zero_mod _) h0
  | succ n => rw [sAt1_succ]; dsimp only at h0; rw [if_neg h0]; rfl

end Region1

end Cert.Kernel.Hand

end
-- ==== Proof.K.R1.lean ====
/-
  The second kernel region: its proof data and its body obligation.

  The grid's 256 points fall in three cases by t mod 4. At t ≡ 0 the body stores zeros in the scratch accumulator before
  it updates it, so what it leaves there is the update over zeros whatever the accumulator held; at t ≡ 1, 2 it updates
  what the point before left; at t ≡ 3 it does the same and then copies the accumulator into the output buffer. The
  invariant carries the accumulator from point to point at the accumulation's value (`sAt1`); the output window is
  idle, its buffer handed back as found, wherever the copy is not made, and those are exactly the points that do not
  write its block back.
-/
import proofs.«106060_j5274219839587_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The body's two branches over the grid -/

/-- The condition of the reset branch, from the grid coordinates. -/
abbrev cond1_0 (i : grid1.Coords) : Prop := (Scalar.cmpi .ne (Scalar.extui (Scalar.cmpi .eq (BitVec.ofNat 32 (i 1).val) 0#32)) 0#32) = 1#1
/-- The condition of the copy-out branch. -/
abbrev cond1_1 (i : grid1.Coords) : Prop := k1_cond2 i = 1#1

/-- The reset branch is taken exactly at the points ≡ 0 (mod 4), -/
theorem hcond1_0 : ∀ t : Fin cfg1.N, cond1_0 (grid1.coords t) ↔ t.val % 4 = 0 :=
  (by decide +kernel : ∀ t : Fin grid1.N, cond1_0 (grid1.coords t) ↔ t.val % 4 = 0)
/-- and the copy-out branch exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- Where the copy-out branch is not taken the output window is idle, -/
theorem idle1_4_of (i : grid1.Coords) (h : ¬cond1_1 i) : cfg1.idle 4 i = true := by
  show (!(k1_cond2 i == 1#1)) = true
  rw [Bool.not_eq_true', beq_eq_false_iff_ne]; exact h
/-- where it is taken, live; -/
theorem live1_4_of (i : grid1.Coords) (h : cond1_1 i) : cfg1.idle 4 i = false := by
  show (!(k1_cond2 i == 1#1)) = false
  rw [show k1_cond2 i = 1#1 from h]; rfl
/-- and off the points ≡ 3 (mod 4) its block is not written back. -/
theorem noFlush1_4 (t : Fin cfg1.N) (h : ¬t.val % 4 = 3) : (cfg1.win 4).flush t = false := by
  rw [Bool.eq_false_iff]; exact fun hf => h ((flush1_4 t).mp hf)

/-! ## The body on whole memrefs, case by case -/

/-- One store through the whole-buffer rectangle covers the accumulator, -/
theorem cover1_s (p0 : Vec F S256x64 .f32) (y : S256x64.Idx) :
    ∃ pc ∈ ([⟨r1P, p0⟩] : List (View.Piece (Elt F) S256x64 .f32)), y ∈ pc.1.set :=
  View.cover_of_tiled [⟨r1P, p0⟩] S256x64.size (by rfl) y
/-- and one through its own covers the output buffer. -/
theorem cover1_o (p0 : Vec F S1x256x64 .f32) (y : S1x256x64.Idx) :
    ∃ pc ∈ ([⟨r1C, p0⟩] : List (View.Piece (Elt F) S1x256x64 .f32)), y ∈ pc.1.set :=
  View.cover_of_tiled [⟨r1C, p0⟩] S1x256x64.size (by rfl) y

/-- A store through the whole-buffer rectangle over an earlier one: a reload between them reads the earlier payload, and
    what the two leave is what the later alone leaves, its payload taken at the canonical contents of the earlier. -/
theorem read_reset_update (v : View sig .tc .vmem S256x64 .f32) (f : v.ty.Contents (Elt F))
    (P : Vec F S256x64 .f32 → Vec F S256x64 .f32) (z : Vec F S256x64 .f32) :
    v.read (Elt F) (v.writes (Elt F) f [⟨r1P, P (v.readCov [⟨r1P, z⟩] r1P.toLoadRect)⟩, ⟨r1P, z⟩])
      = View.canon [⟨r1P, P (View.ld (View.canon [⟨r1P, z⟩]) r1P)⟩] := by
  rw [View.readCov_eq_canon_ld v [⟨r1P, z⟩] r1P (cover1_s z)]
  refine (congrArg (v.read (Elt F))
    (View.writes_cons_drop v f ⟨r1P, P (View.ld (View.canon [⟨r1P, z⟩]) r1P)⟩ r1P z [] (fun y hy => hy))).trans ?_
  exact View.read_writes_eq_canon v f _ (cover1_s _)

/-- The copy of what a covered reload reads is the copy of the canonical contents of the stores it reloads. -/
theorem emit1_readCov (v : View sig .tc .vmem S256x64 .f32) (L : List (View.Piece (Elt F) S256x64 .f32)) (h : ∀ y, ∃ pc ∈ L, y ∈ pc.1.set) :
    View.canon [⟨r1C, k1_pay2 (v.readCov L r1P.toLoadRect)⟩] = emit1 (View.canon L) := by
  unfold emit1
  rw [View.readCov_eq_canon_ld v L r1P h]

set_option maxHeartbeats 1000000 in
/-- The body where the reset branch is taken and the copy-out branch is not: the accumulator, whatever it held, ends at the
    update over zeros; the inputs and the output buffer are as they were. -/
theorem sound_kernel1_A (c : Dev nD) (E : Set ℕ) (i : grid1.Coords) (hc0 : cond1_0 i) (hc1 : ¬cond1_1 i)
    (arg2 : Memref sig .tc .vmem S1x1024x64 .f32) (harg2 : arg2.IsWhole)
    (arg3 : Memref sig .tc .vmem S1x1024x64 .f32) (harg3 : arg3.IsWhole) (arg4 : Memref sig .tc .vmem S256x64 .f32) (harg4 : arg4.IsWhole)
    (arg5 : Memref sig .tc .vmem S1x1 .f32) (harg5 : arg5.IsWhole) (arg6 : Memref sig .tc .vmem S1x256x64 .f32) (harg6 : arg6.IsWhole)
    (arg7 : Memref sig .tc .vmem S256x64 .f32) (harg7 : arg7.IsWhole)
    (x0 x1 : Vec F S1x1024x64 .f32) (x2 : Vec F S256x64 .f32) (x3 : Vec F S1x1 .f32) (xo : Vec F S1x256x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (acc1 x0 x1 x2 x3 zero1)) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold sound_kernel1_A.sl.v29 sound_kernel1_A.sl.H5_1
  exact read_reset_update arg7.view f5
    (fun s => k1_pay1 (k1_pay4 (View.ld (View.read (Elt F) arg2.view f0) r1K) (View.ld (View.read (Elt F) arg3.view f1) r1K)
      (View.ld (View.read (Elt F) arg4.view f2) r1P) (View.ld (View.read (Elt F) arg5.view f3) r1G) s)) k1_pay3

set_option maxHeartbeats 1000000 in
/-- The body where neither branch is taken: the accumulator at `xs` ends at the update over `xs`; the inputs and the output
    buffer are as they were. -/
theorem sound_kernel1_B (c : Dev nD) (E : Set ℕ) (i : grid1.Coords) (hc0 : ¬cond1_0 i) (hc1 : ¬cond1_1 i)
    (arg2 : Memref sig .tc .vmem S1x1024x64 .f32) (harg2 : arg2.IsWhole)
    (arg3 : Memref sig .tc .vmem S1x1024x64 .f32) (harg3 : arg3.IsWhole) (arg4 : Memref sig .tc .vmem S256x64 .f32) (harg4 : arg4.IsWhole)
    (arg5 : Memref sig .tc .vmem S1x1 .f32) (harg5 : arg5.IsWhole) (arg6 : Memref sig .tc .vmem S1x256x64 .f32) (harg6 : arg6.IsWhole)
    (arg7 : Memref sig .tc .vmem S256x64 .f32) (harg7 : arg7.IsWhole)
    (x0 x1 : Vec F S1x1024x64 .f32) (x2 : Vec F S256x64 .f32) (x3 : Vec F S1x1 .f32) (xo : Vec F S1x256x64 .f32) (xs : Vec F S256x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (acc1 x0 x1 x2 x3 xs)) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_s _)

set_option maxHeartbeats 1000000 in
/-- The body where only the copy-out branch is taken: the accumulator at `xs` ends at the update over `xs`, and the output
    buffer, whatever it held, at the copy of that; the inputs are as they were. -/
theorem sound_kernel1_C (c : Dev nD) (E : Set ℕ) (i : grid1.Coords) (hc0 : ¬cond1_0 i) (hc1 : cond1_1 i)
    (arg2 : Memref sig .tc .vmem S1x1024x64 .f32) (harg2 : arg2.IsWhole)
    (arg3 : Memref sig .tc .vmem S1x1024x64 .f32) (harg3 : arg3.IsWhole) (arg4 : Memref sig .tc .vmem S256x64 .f32) (harg4 : arg4.IsWhole)
    (arg5 : Memref sig .tc .vmem S1x1 .f32) (harg5 : arg5.IsWhole) (arg6 : Memref sig .tc .vmem S1x256x64 .f32) (harg6 : arg6.IsWhole)
    (arg7 : Memref sig .tc .vmem S256x64 .f32) (harg7 : arg7.IsWhole)
    (x0 x1 : Vec F S1x1024x64 .f32) (x2 : Vec F S256x64 .f32) (x3 : Vec F S1x1 .f32) (xs : Vec F S256x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (emit1 (acc1 x0 x1 x2 x3 xs))
            ∗ owns (c : Thread nD τ) arg7 fullShare (acc1 x0 x1 x2 x3 xs)) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel1_C.sl.v40 sound_kernel1_C.sl.H5_1
    refine (View.read_writes_eq_canon _ _ _ (cover1_o _)).trans ?_
    exact emit1_readCov arg7.view _ (cover1_s _)
  iexists _; isplitr
  swap; · iexact H5
  ipureintro
  exact View.read_writes_eq_canon _ _ _ (cover1_s _)

/-! ## What the body finds in the inputs' buffers -/

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The invariant and the proof data -/

/-- Separating conjunction reassociates, as an equation. -/
theorem sep_assoc_eq1 (P Q R : sProp 𝕄) : (iprop((P ∗ Q) ∗ R) : sProp 𝕄) = iprop(P ∗ Q ∗ R) := by
  have h₁ : iprop((P ∗ Q) ∗ R) ⊢ (iprop(P ∗ Q ∗ R) : sProp 𝕄) := by
    iintro ⟨⟨HA, HB⟩, HC⟩
    isplitl [HA]; · iexact HA
    isplitl [HB]; · iexact HB
    iexact HC
  have h₂ : iprop(P ∗ Q ∗ R) ⊢ (iprop((P ∗ Q) ∗ R) : sProp 𝕄) := by
    iintro ⟨HA, HB, HC⟩
    isplitl [HA HB]
    · isplitl [HA]; · iexact HA
      iexact HB
    iexact HC
  exact BI.equiv_iff.mp ⟨h₁, h₂⟩

/-- The class invariant's remainder once the scratch accumulator is taken out: the core's other scoped buffers that are
    no staging buffer of this call, each at some contents, and the generator register at some state. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The region's invariant before position `n`: before the first point the class's; afterwards the scoped rest with the
    scratch accumulator at what the point before left in it, and the generator register at some state. -/
abbrev scM1 : Memref sig .tc .vmem S256x64 .f32 := Memref.whole cc1_scratch0
def PhiS1 (c : Dev nD) : (n : ℕ) → n ≤ cfg1.N → sProp 𝕄
  | 0, _ => Pipeline.ΦA spec1 c
  | n + 1, hn => iprop(owns (c : Thread nD τ) scM1 fullShare (sAt1 V c n hn) ∗ rest1 c)

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(owns (c : Thread nD τ) scM1 fullShare (sAt1 V c n hn) ∗ rest1 c) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (sAt1 V c (n - 1) (by omega)) ∗ rest1 c) := by
  cases n with
  | zero => exact absurd rfl hz
  | succ n => rfl

/-- The class invariant is the accumulator at some contents beside the remainder: the scoped rest split at the scratch. -/
theorem PhiA1_eq (c : Dev nD) :
    (Pipeline.ΦA spec1 c : sProp 𝕄) = iprop((∃ d, owns (c : Thread nD τ) scM1 fullShare d) ∗ rest1 c) := by
  unfold Pipeline.ΦA rest1
  rw [Pipeline.scopedRest_split_of_list spec1 c [cc1_scratch0] (by decide) (by decide)]
  simp only [Idealize.SL.BI.bigSepL_singleton, scM1, owns_whole]
  exact sep_assoc_eq1 _ _ _

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => emit1 (sAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = emit1 (sAt1 V c t.val t.isLt) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the inputs' buffers at their blocks, the output's as the point's case leaves it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

set_option maxHeartbeats 1000000 in
/-- The body at any point. The inputs' buffers hold their blocks. At a point ≡ 0 (mod 4) the accumulator, whatever the
    invariant holds it at, is reset and updated, which is the accumulation's value there; elsewhere the invariant holds it
    at what the point before left and the body updates that. The output buffer is handed back as found off the points
    ≡ 3 (mod 4), where the window is idle and not written back; at those points it receives the copy of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS1 V c (t.val + 1) t.isLt from rfl, PhiS1_succ, PhiS1_castSucc,
    after1_0, after1_1, after1_2, after1_3]
  have hN : t.val < 256 := lt_of_lt_of_eq t.isLt (show cfg1.N = 256 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idle1_4_of _ hc1) (noFlush1_4 t (by omega)), sAt1_reset V c t h0]
    by_cases hz : t.val = 0
    · rw [PhiS1_zero V c _ _ hz, PhiA1_eq]
      iintro ⟨⟨HS, Hr⟩, Ho, ⟨%d0, H0⟩, ⟨%d1, H1⟩, ⟨%d2, H2⟩, ⟨%d3, H3⟩, ⟨%d4, H4⟩⟩
      iapply (sound_kernel1_A c Set.univ _ hc0 hc1 _ _ _ _ _ _ _ _ _ _ _ _ (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
    · rw [PhiS1_pos V c _ _ hz]
      iintro ⟨⟨HS, Hr⟩, Ho, ⟨%d0, H0⟩, ⟨%d1, H1⟩, ⟨%d2, H2⟩, ⟨%d3, H3⟩, ⟨%d4, H4⟩⟩
      iapply (sound_kernel1_A c Set.univ _ hc0 hc1 _ _ _ _ _ _ _ _ _ _ _ _ (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun h => h0 (by rw [h])
    rw [PhiS1_pos V c _ _ hz, sAt1_step V c t h0]
    by_cases h1 : t.val % 4 = 3
    · have hc1 : cond1_1 (grid1.coords t) := (hcond1_1 t).mpr h1
      rw [show (dat1 V c).leavesExact 4 t = owns (c : Thread nD τ) (st1_4 t) fullShare ((dat1 V c).after 4 t) from by
        unfold Dat.leavesExact; rw [live1_4_of _ hc1], after1_4, sAt1_step V c t h0]
      iintro ⟨⟨HS, Hr⟩, Ho, ⟨%d0, H0⟩, ⟨%d1, H1⟩, ⟨%d2, H2⟩, ⟨%d3, H3⟩, ⟨%d4, H4⟩⟩
      iapply (sound_kernel1_C c Set.univ _ hc0 hc1 _ _ _ _ _ _ _ _ _ _ _ _ (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4_of _ hc1) (noFlush1_4 t h1)]
      iintro ⟨⟨HS, Hr⟩, Ho, ⟨%d0, H0⟩, ⟨%d1, H1⟩, ⟨%d2, H2⟩, ⟨%d3, H3⟩, ⟨%d4, H4⟩⟩
      iapply (sound_kernel1_B c Set.univ _ hc0 hc1 _ _ _ _ _ _ _ _ _ _ _ _ (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨HS, Hr⟩
  isplitl [HS]
  · iexists _; iexact HS
  iexact Hr

end Region1

end Cert.Kernel.Hand

end
-- ==== Proof.K.R2.lean ====
/-
  The third kernel region: one block of the output per grid point.

  At grid point (bh, nt) the body reads the (1024 × 64) block of rows nt·1024 … of slice bh of its first
  operand, the whole (256 × 64) projection matrix and the (256 × 64) slice bh of the context array, and stores
  ONE value, a function of those three blocks alone, over the whole (1024 × 64) output block. Nothing is kept
  between points: each input's staging buffer holds its block whether or not the point fetched it (the block
  index did not move), and the output's buffer after the body is the one store read back.
-/
import proofs.«106060_j5274219839587_1_alg».proof.Proof.Gen.Kernel.Launch
import proofs.«106060_j5274219839587_1_alg».proof.Proof.Gen.Kernel.Skeleton
import proofs.«106060_j5274219839587_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2Q : Rect S1x1024x64 := Rect.unit (s := S1x1024x64) ![0, 0, 0] S1x1024x64.size inb_S1x1024x64_S1x1024x64_0_0_0
abbrev r2P : Rect S256x64 := Rect.unit (s := S256x64) ![0, 0] S256x64.size inb_S256x64_S256x64_0_0
abbrev r2C : Rect S1x256x64 := Rect.unit (s := S1x256x64) ![0, 0, 0] S1x256x64.size inb_S1x256x64_S1x256x64_0_0_0

/-- The output window's staging buffer after the body, from the three input blocks: its one store. -/
def out2_3 (x0 : Vec F S1x1024x64 .f32) (x1 : Vec F S256x64 .f32) (x2 : Vec F S1x256x64 .f32) : Vec F S1x1024x64 .f32 :=
  View.canon [⟨r2Q, k2_pay1 (View.ld x0 r2Q) (View.ld x1 r2P) (View.ld x2 r2C)⟩]

/-- The one store covers the buffer. -/
theorem cover2_3 (p0 : Vec F S1x1024x64 .f32) (y : S1x1024x64.Idx) :
    ∃ pc ∈ ([⟨r2Q, p0⟩] : List (View.Piece (Elt F) S1x1024x64 .f32)), y ∈ pc.1.set :=
  View.cover_of_tiled [⟨r2Q, p0⟩] S1x1024x64.size (by rfl) y

set_option maxHeartbeats 1000000 in
/-- The body on whole staging memrefs: the inputs at their contents and the output at anything run to the inputs as
    they were and the output at `out2_3` of them. -/
theorem sound_kernel2 (c : Dev nD) (E : Set ℕ) (i : grid2.Coords) (arg2 : Memref sig .tc .vmem S1x1024x64 .f32) (harg2 : arg2.IsWhole)
    (arg3 : Memref sig .tc .vmem S256x64 .f32) (harg3 : arg3.IsWhole) (arg4 : Memref sig .tc .vmem S1x256x64 .f32) (harg4 : arg4.IsWhole)
    (arg5 : Memref sig .tc .vmem S1x1024x64 .f32) (harg5 : arg5.IsWhole)
    (x0 : Vec F S1x1024x64 .f32) (x1 : Vec F S256x64 .f32) (x2 : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__out_kernel i arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body each input's buffer at
    its block and the output's at `out2_3` of the input blocks; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Run.lean ====
/-
  The kernel program's run: its main function followed from the launch to the return.

  The main function is five items: a stretch of three reshapes, the three kernel regions, and a last reshape. Between two
  items a core holds every unscoped buffer whole at a valuation: the launch memory `W0`; after the first stretch its
  fold `W1`; after each region the valuation before it with the region's arrays replaced by what the pipeline's
  write-backs leave (`W2`, `W3`, `W4`); after the last reshape `W5`. Every weakly fair execution terminates, and the
  final memory holds every unscoped buffer at `W5` — the arguments, which nothing writes, as launched.
-/
import proofs.«106060_j5274219839587_1_alg».proof.Proof.K.R0
import proofs.«106060_j5274219839587_1_alg».proof.Proof.K.R1
import proofs.«106060_j5274219839587_1_alg».proof.Proof.K.R2
import proofs.«106060_j5274219839587_1_alg».proof.Proof.LibRegionHeld

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the three reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
/-- After the third region. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- After the last reshape. -/
abbrev W5 : Dev nD → Valuation τ sig (Elt F) := fun c => StableHlo.after hostOps3 (W4 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Pipeline.idleRest (U := UR sig nD τ))

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 :=
  Pipeline.RegionSeg.ofHeld (pcfgs (F := F)) adm (pdats m ρ) defs₀ 𝒱₀ L lv 0
    launch0.win launch0.block_pos launch0.arr_whole launch0.stage_whole
    (fun c => Pipeline.emp_prefHeld_of_no_table _ rfl c _ _)
    (fun c => body_obligation0 (V1 m ρ) c) (fun _ _ => rfl) (fun _ _ => rfl) (fun _ => rfl)
    (W1 m ρ) (W2 m ρ) (fun _ _ => rfl) (fun c w => (W2_arr m ρ c w).symm)
    (fun c b hb => W2_of_ne m ρ c b fun w e => hb (Finset.mem_image.mpr ⟨w, Finset.mem_univ _, e⟩))
    (fun c => .rfl) (fun c => .rfl)

set_option backward.isDefEq.respectTransparency.types false in
def reg1 : Pipeline.RegionSeg (pcfgs (F := F)) adm (pdats m ρ) () defs₀ 𝒱₀ L lv 1 :=
  Pipeline.RegionSeg.ofHeld (pcfgs (F := F)) adm (pdats m ρ) defs₀ 𝒱₀ L lv 1
    launch1.win launch1.block_pos launch1.arr_whole launch1.stage_whole
    (fun c => Pipeline.emp_prefHeld_of_no_table _ rfl c _ _)
    (fun c => body_obligation1 (V2 m ρ) c) (fun _ _ => rfl) (fun _ _ => rfl) (fun _ => rfl)
    (W2 m ρ) (W3 m ρ) (fun _ _ => rfl) (fun c w => (W3_arr m ρ c w).symm)
    (fun c b hb => W3_of_ne m ρ c b fun w e => hb (Finset.mem_image.mpr ⟨w, Finset.mem_univ _, e⟩))
    (fun c => hin1 (V2 m ρ) c) (fun c => hout1 (V2 m ρ) c)

set_option backward.isDefEq.respectTransparency.types false in
def reg2 : Pipeline.RegionSeg (pcfgs (F := F)) adm (pdats m ρ) () defs₀ 𝒱₀ L lv 2 :=
  Pipeline.RegionSeg.ofHeld (pcfgs (F := F)) adm (pdats m ρ) defs₀ 𝒱₀ L lv 2
    launch2.win launch2.block_pos launch2.arr_whole launch2.stage_whole
    (fun c => Pipeline.emp_prefHeld_of_no_table _ rfl c _ _)
    (fun c => body_obligation2 (V3 m ρ) c) (fun _ _ => rfl) (fun _ _ => rfl) (fun _ => rfl)
    (W3 m ρ) (W4 m ρ) (fun _ _ => rfl) (fun c w => (W4_arr m ρ c w).symm)
    (fun c b hb => W4_of_ne m ρ c b fun w e => hb (Finset.mem_image.mpr ⟨w, Finset.mem_univ _, e⟩))
    (fun c => .rfl) (fun c => .rfl)

/-! ## The main function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the main function terminates, nothing
    faulting, and the final memory holds every unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Pipeline.idleRest (U := UR sig nD τ) c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ Pipeline.idleRest (U := UR sig nD τ) c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Args.lean ====
/-
  The kernel program's buffers followed through the boundaries: no item writes an argument, and each region's operands are
  what the items before it left.
-/
import proofs.«106060_j5274219839587_1_alg».proof.Proof.K.Run

set_option maxRecDepth 16384

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-- The three reshapes write only their own results. -/
theorem W1_keep (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- The last reshape writes only its own result. -/
theorem W5_keep (c : Dev nD) (b : Ref sig .tc) (h6 : b ≠ main_v6) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne h6))

/-- An input window's array leaves a region as it entered it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-! ## The arguments end as launched -/

theorem W5_main_arg0 (c : Dev nD) : W5 m ρ c (Proc.devRef .tc main_arg0) = m ((c : Thread nD τ).loc main_arg0) :=
  (W5_keep m ρ c main_arg0 (by decide)).trans <| (W4_of_ne m ρ c main_arg0 (by decide)).trans <|
    (W3_of_ne m ρ c main_arg0 (by decide)).trans <| (W2_of_ne m ρ c main_arg0 (by decide)).trans <|
    (W1_keep m ρ c main_arg0 (by decide) (by decide) (by decide)).trans rfl
theorem W5_main_arg1 (c : Dev nD) : W5 m ρ c (Proc.devRef .tc main_arg1) = m ((c : Thread nD τ).loc main_arg1) :=
  (W5_keep m ρ c main_arg1 (by decide)).trans <| (W4_of_ne m ρ c main_arg1 (by decide)).trans <|
    (W3_of_ne m ρ c main_arg1 (by decide)).trans <| (W2_of_ne m ρ c main_arg1 (by decide)).trans <|
    (W1_keep m ρ c main_arg1 (by decide) (by decide) (by decide)).trans rfl
theorem W5_main_arg2 (c : Dev nD) : W5 m ρ c (Proc.devRef .tc main_arg2) = m ((c : Thread nD τ).loc main_arg2) :=
  (W5_keep m ρ c main_arg2 (by decide)).trans <| (W4_of_ne m ρ c main_arg2 (by decide)).trans <|
    (W3_of_ne m ρ c main_arg2 (by decide)).trans <| (W2_of_ne m ρ c main_arg2 (by decide)).trans <|
    (W1_keep m ρ c main_arg2 (by decide) (by decide) (by decide)).trans rfl

/-- The projection matrix is an input of all three regions. -/
theorem W1_main_arg3 (c : Dev nD) : W1 m ρ c (Proc.devRef .tc main_arg3) = m ((c : Thread nD τ).loc main_arg3) :=
  (W1_keep m ρ c main_arg3 (by decide) (by decide) (by decide)).trans rfl
theorem W2_main_arg3 (c : Dev nD) : W2 m ρ c (Proc.devRef .tc main_arg3) = m ((c : Thread nD τ).loc main_arg3) :=
  (W2_in m ρ c 1 rfl).trans (W1_main_arg3 m ρ c)
theorem W3_main_arg3 (c : Dev nD) : W3 m ρ c (Proc.devRef .tc main_arg3) = m ((c : Thread nD τ).loc main_arg3) :=
  (W3_in m ρ c 2 rfl).trans (W2_main_arg3 m ρ c)
theorem W4_main_arg3 (c : Dev nD) : W4 m ρ c (Proc.devRef .tc main_arg3) = m ((c : Thread nD τ).loc main_arg3) :=
  (W4_in m ρ c 1 rfl).trans (W3_main_arg3 m ρ c)
theorem W5_main_arg3 (c : Dev nD) : W5 m ρ c (Proc.devRef .tc main_arg3) = m ((c : Thread nD τ).loc main_arg3) :=
  (W5_keep m ρ c main_arg3 (by decide)).trans (W4_main_arg3 m ρ c)

/-- THE FRAME, at any float instance: every weakly fair execution terminates, nothing faulting, with the four argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.Kernel.Hand

end
-- ==== Proof.KI.R0.lean ====
/-
  The first kernel region: the maximum of the keys' projected logits over every slice, row and feature.

  At grid point t = (bh, nt) the body reads a (1024 × 64) block of the keys and the whole projection matrix, computes
  the maximum M(t) of the block's (1024 × 256) logits, and keeps a RUNNING maximum in the (1 × 1) output buffer, which
  the pipeline writes back only after the last point: at the first point it stores M(0) — it also loads the buffer there,
  which nothing has written yet, but the select on "first point" discards what it loaded —, at every later point the
  larger of what the point before left and M(t). So what the buffer holds after the body is defined by recursion on
  the point (`gAt0`), and at the first point it does not depend on what the buffer held (`out0_2_first`).
-/
import proofs.«106060_j5274219839587_1_alg».proof.Proof.Gen.KernelIdeal.Launch
import proofs.«106060_j5274219839587_1_alg».proof.Proof.Gen.KernelIdeal.Skeleton
import proofs.«106060_j5274219839587_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0K : Rect S1x1024x64 := Rect.unit (s := S1x1024x64) ![0, 0, 0] S1x1024x64.size inb_S1x1024x64_S1x1024x64_0_0_0
abbrev r0P : Rect S256x64 := Rect.unit (s := S256x64) ![0, 0] S256x64.size inb_S256x64_S256x64_0_0
abbrev r0G : Rect S1x1 := Rect.unit (s := S1x1) ![0, 0] S1x1.size inb_S1x1_S1x1_0_0

/-- The running-maximum buffer after the body at grid coordinates `i`, from the two input blocks and what the buffer
    held before the body: its one store. -/
def out0_2 (i : grid0.Coords) (x0 : Vec F S1x1024x64 .f32) (x1 : Vec F S256x64 .f32) (xd : Vec F S1x1 .f32) : Vec F S1x1 .f32 :=
  View.canon [⟨r0G, k0_pay1 i (View.ld x0 r0K) (View.ld x1 r0P) (View.ld xd r0G)⟩]

/-- At the first grid point the stored value does not depend on what the buffer held: the select takes the block's own
    maximum. -/
theorem out0_2_first (i : grid0.Coords) (h0 : (i 0).val = 0) (h1 : (i 1).val = 0) (x0 : Vec F S1x1024x64 .f32) (x1 : Vec F S256x64 .f32)
    (d d' : Vec F S1x1 .f32) : out0_2 i x0 x1 d = out0_2 i x0 x1 d' := by
  unfold out0_2 k0_pay1
  simp only [h0, h1]
  rfl

/-- The one store covers the buffer. -/
theorem cover0_2 (p0 : Vec F S1x1 .f32) (y : S1x1.Idx) :
    ∃ pc ∈ ([⟨r0G, p0⟩] : List (View.Piece (Elt F) S1x1 .f32)), y ∈ pc.1.set :=
  View.cover_of_tiled [⟨r0G, p0⟩] S1x1.size (by rfl) y

set_option maxHeartbeats 1000000 in
/-- The body on whole staging memrefs: the inputs at their contents and the running-maximum buffer at contents `xd` run
    to the inputs as they were and the buffer at `out0_2` of them. -/
theorem sound_kernel0 (c : Dev nD) (E : Set ℕ) (i : grid0.Coords) (arg2 : Memref sig .tc .vmem S1x1024x64 .f32) (harg2 : arg2.IsWhole)
    (arg3 : Memref sig .tc .vmem S256x64 .f32) (harg3 : arg3.IsWhole) (arg4 : Memref sig .tc .vmem S1x1 .f32) (harg4 : arg4.IsWhole)
    (x0 : Vec F S1x1024x64 .f32) (x1 : Vec F S256x64 .f32) (xd : Vec F S1x1 .f32) (K : PUnit → sProp 𝕄) :
    iprop(owns (c : Thread nD τ) arg2 fullShare x0 ∗ owns (c : Thread nD τ) arg3 fullShare x1 ∗ owns (c : Thread nD τ) arg4 fullShare xd
        ∗ (iprop(owns (c : Thread nD τ) arg2 fullShare x0 ∗ owns (c : Thread nD τ) arg3 fullShare x1
            ∗ owns (c : Thread nD τ) arg4 fullShare (out0_2 i x0 x1 xd)) -∗ K ⟨⟩))
      ⊢ wp frame (wpE (defs₀ (F := F)) Variants.none c none) E (cc0__kmax_kernel i arg2 harg2 arg3 harg3 arg4 harg4) K := by
  simp only [cc0__kmax_kernel_eq_skeleton]; unfold cc0__kmax_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Contents nothing reads: what stands for the unwritten buffer at the first point. -/
def junk0 : Vec F S1x1 .f32 := View.canon []

/-- THE RUNNING MAXIMUM. What the (1 × 1) buffer holds after the body at position `n`: the body's store over what
    position `n - 1` left (at the first position over contents nothing reads). -/
def gAt0 (c : Dev nD) : (n : ℕ) → n < cfg0.N → Vec F S1x1 .f32
  | 0, hn => out0_2 (grid0.coords ⟨0, hn⟩) (iblk0 V c 0 ⟨0, hn⟩) (iblk0 V c 1 ⟨0, hn⟩) junk0
  | n + 1, hn => out0_2 (grid0.coords ⟨n + 1, hn⟩) (iblk0 V c 0 ⟨n + 1, hn⟩) (iblk0 V c 1 ⟨n + 1, hn⟩) (gAt0 c n (Nat.lt_of_succ_lt hn))

theorem gAt0_zero (c : Dev nD) (hn : 0 < cfg0.N) :
    gAt0 V c 0 hn = out0_2 (grid0.coords ⟨0, hn⟩) (iblk0 V c 0 ⟨0, hn⟩) (iblk0 V c 1 ⟨0, hn⟩) junk0 := rfl
theorem gAt0_succ (c : Dev nD) (n : ℕ) (hn : n + 1 < cfg0.N) :
    gAt0 V c (n + 1) hn = out0_2 (grid0.coords ⟨n + 1, hn⟩) (iblk0 V c 0 ⟨n + 1, hn⟩) (iblk0 V c 1 ⟨n + 1, hn⟩) (gAt0 V c n (Nat.lt_of_succ_lt hn)) := rfl

/-- The proof data of the region on core `c`: the arrays as the region finds them; after the body each input's buffer at
    its block and the running-maximum buffer at `gAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => gAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = gAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The running-maximum buffer at the first point holds whatever it held: nothing has written it. -/
theorem before0_2_zero (c : Dev nD) (t : Fin cfg0.N) (ht : t.val = 0) (d) : (dat0 V c).before 2 t d = d :=
  (dat0 V c).before_out_reset 2 rfl t (.inl ht) d

/-- At a later point it holds what the point before left: the pipeline writes it back only after the last point. -/
theorem before0_2_pos (c : Dev nD) (t : Fin cfg0.N) (ht : t.val ≠ 0) (d) :
    (dat0 V c).before 2 t d = gAt0 V c (t.val - 1) (Nat.lt_of_le_of_lt (Nat.sub_le _ _) t.isLt) := by
  have hN : t.val < 256 := lt_of_lt_of_eq t.isLt (show cfg0.N = 256 from N_0)
  have hfl : (cfg0.win 2).flush ⟨t.val - 1, Nat.lt_of_le_of_lt (Nat.sub_le _ _) t.isLt⟩ = false := by
    rw [Bool.eq_false_iff]; intro h
    have := (flush0_2 ⟨t.val - 1, Nat.lt_of_le_of_lt (Nat.sub_le _ _) t.isLt⟩).mp h
    dsimp only at this; omega
  rw [(dat0 V c).before_out_kept 2 rfl t ht hfl (fun _ => rfl) (fun _ _ => rfl) d, after0_2]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The grid's first point has both coordinates zero. -/
theorem coords0_zero : ∀ t : Fin cfg0.N, t.val = 0 → ((grid0.coords t) 0).val = 0 ∧ ((grid0.coords t) 1).val = 0 :=
  (by decide +kernel : ∀ t : Fin grid0.N, t.val = 0 → ((grid0.coords t) 0).val = 0 ∧ ((grid0.coords t) 1).val = 0)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases hz : t.val = 0
  · obtain ⟨n, hn⟩ := t
    dsimp only at hz; subst hz
    simp only [before0_2_zero V c ⟨0, hn⟩ rfl]
    rw [gAt0_zero]
    iintro ⟨HΦ, Ho, ⟨%d0, H0⟩, ⟨%d1, H1⟩, ⟨%d2, H2⟩⟩
    rw [out0_2_first (grid0.coords ⟨0, hn⟩) (coords0_zero ⟨0, hn⟩ rfl).1 (coords0_zero ⟨0, hn⟩ rfl).2 _ _ junk0 d2]
    iapply (sound_kernel0 c Set.univ _ _ _ _ _ _ _ (iblk0 V c 0 ⟨0, hn⟩) (iblk0 V c 1 ⟨0, hn⟩) d2 _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · obtain ⟨n, hn⟩ := t
    cases n with
    | zero => exact absurd rfl hz
    | succ n =>
      simp only [before0_2_pos V c ⟨n + 1, hn⟩ hz]
      rw [gAt0_succ]
      iintro ⟨HΦ, Ho, ⟨%d0, H0⟩, ⟨%d1, H1⟩, ⟨%d2, H2⟩⟩
      iapply (sound_kernel0 c Set.univ _ _ _ _ _ _ _ (iblk0 V c 0 ⟨n + 1, hn⟩) (iblk0 V c 1 ⟨n + 1, hn⟩) (gAt0 V c n (Nat.lt_of_succ_lt hn)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Defs.lean ====
/-
  The second kernel region: what its scratch accumulator and its output buffer hold, point by point.

  At grid point t = (bh, nt) the body reads a (1024 × 64) block of the keys, the matching block of the values, the whole
  projection matrix and the (1 × 1) global maximum, and keeps a (256 × 64) accumulator in a scratch buffer of its own:
  at nt = 0 it first stores zeros there; at every point it loads the accumulator, adds the block's contribution
  (features transposed times values) and stores the sum back; at nt = 3 it copies the accumulator into the output
  buffer, which the pipeline then writes back as slice bh of the context array. At the other points the output buffer
  is not touched and not written back.
-/
import proofs.«106060_j5274219839587_1_alg».proof.Proof.Gen.KernelIdeal.Launch
import proofs.«106060_j5274219839587_1_alg».proof.Proof.Gen.KernelIdeal.Skeleton
import proofs.«106060_j5274219839587_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1K : Rect S1x1024x64 := Rect.unit (s := S1x1024x64) ![0, 0, 0] S1x1024x64.size inb_S1x1024x64_S1x1024x64_0_0_0
abbrev r1P : Rect S256x64 := Rect.unit (s := S256x64) ![0, 0] S256x64.size inb_S256x64_S256x64_0_0
abbrev r1G : Rect S1x1 := Rect.unit (s := S1x1) ![0, 0] S1x1.size inb_S1x1_S1x1_0_0
abbrev r1C : Rect S1x256x64 := Rect.unit (s := S1x256x64) ![0, 0, 0] S1x256x64.size inb_S1x256x64_S1x256x64_0_0_0

/-- The accumulator after the reset: the one store of zeros read back. -/
def zero1 : Vec F S256x64 .f32 := View.canon [⟨r1P, k1_pay3⟩]

/-- The accumulator after the body's update, from the four input blocks and what the accumulator held when the body
    loaded it: the one store read back. -/
def acc1 (x0 x1 : Vec F S1x1024x64 .f32) (x2 : Vec F S256x64 .f32) (x3 : Vec F S1x1 .f32) (xs : Vec F S256x64 .f32) : Vec F S256x64 .f32 :=
  View.canon [⟨r1P, k1_pay1 (k1_pay4 (View.ld x0 r1K) (View.ld x1 r1K) (View.ld x2 r1P) (View.ld x3 r1G) (View.ld xs r1P))⟩]

/-- The output buffer after the copy, from the accumulator: the one store read back. -/
def emit1 (s : Vec F S256x64 .f32) : Vec F S1x256x64 .f32 := View.canon [⟨r1C, k1_pay2 (View.ld s r1P)⟩]

/-- THE ACCUMULATION. What the scratch holds after the body at position `n`: the update over zeros at a position
    ≡ 0 (mod 4), where the body resets it first, and over what position `n - 1` left elsewhere. -/
def sAt1 (c : Dev nD) : (n : ℕ) → n < cfg1.N → Vec F S256x64 .f32
  | 0, hn => acc1 (iblk1 V c 0 ⟨0, hn⟩) (iblk1 V c 1 ⟨0, hn⟩) (iblk1 V c 2 ⟨0, hn⟩) (iblk1 V c 3 ⟨0, hn⟩) zero1
  | n + 1, hn => acc1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then zero1 else sAt1 c n (Nat.lt_of_succ_lt hn))

theorem sAt1_zero (c : Dev nD) (hn : 0 < cfg1.N) :
    sAt1 V c 0 hn = acc1 (iblk1 V c 0 ⟨0, hn⟩) (iblk1 V c 1 ⟨0, hn⟩) (iblk1 V c 2 ⟨0, hn⟩) (iblk1 V c 3 ⟨0, hn⟩) zero1 := rfl
theorem sAt1_succ (c : Dev nD) (n : ℕ) (hn : n + 1 < cfg1.N) :
    sAt1 V c (n + 1) hn = acc1 (iblk1 V c 0 ⟨n + 1, hn⟩) (iblk1 V c 1 ⟨n + 1, hn⟩) (iblk1 V c 2 ⟨n + 1, hn⟩) (iblk1 V c 3 ⟨n + 1, hn⟩)
      (if (n + 1) % 4 = 0 then zero1 else sAt1 V c n (Nat.lt_of_succ_lt hn)) := rfl

/-- At a position ≡ 0 (mod 4) the update is over zeros. -/
theorem sAt1_reset (c : Dev nD) (t : Fin cfg1.N) (h0 : t.val % 4 = 0) :
    sAt1 V c t.val t.isLt = acc1 (iblk1 V c 0 t) (iblk1 V c 1 t) (iblk1 V c 2 t) (iblk1 V c 3 t) zero1 := by
  obtain ⟨n, hn⟩ := t
  cases n with
  | zero => rfl
  | succ n => rw [sAt1_succ]; dsimp only at h0; rw [if_pos h0]

/-- Elsewhere it is over what the position before left. -/
theorem sAt1_step (c : Dev nD) (t : Fin cfg1.N) (h0 : ¬t.val % 4 = 0) :
    sAt1 V c t.val t.isLt = acc1 (iblk1 V c 0 t) (iblk1 V c 1 t) (iblk1 V c 2 t) (iblk1 V c 3 t)
      (sAt1 V c (t.val - 1) (Nat.lt_of_le_of_lt (Nat.sub_le _ _) t.isLt)) := by
  obtain ⟨n, hn⟩ := t
  cases n with
  | zero => exact absurd (Nat.zero_mod _) h0
  | succ n => rw [sAt1_succ]; dsimp only at h0; rw [if_neg h0]; rfl

end Region1

end Cert.KernelIdeal.Hand

end
-- ==== Proof.KI.R1.lean ====
/-
  The second kernel region: its proof data and its body obligation.

  The grid's 256 points fall in three cases by t mod 4. At t ≡ 0 the body stores zeros in the scratch accumulator before
  it updates it, so what it leaves there is the update over zeros whatever the accumulator held; at t ≡ 1, 2 it updates
  what the point before left; at t ≡ 3 it does the same and then copies the accumulator into the output buffer. The
  invariant carries the accumulator from point to point at the accumulation's value (`sAt1`); the output window is
  idle, its buffer handed back as found, wherever the copy is not made, and those are exactly the points that do not
  write its block back.
-/
import proofs.«106060_j5274219839587_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The body's two branches over the grid -/

/-- The condition of the reset branch, from the grid coordinates. -/
abbrev cond1_0 (i : grid1.Coords) : Prop := (Scalar.cmpi .ne (Scalar.extui (Scalar.cmpi .eq (BitVec.ofNat 32 (i 1).val) 0#32)) 0#32) = 1#1
/-- The condition of the copy-out branch. -/
abbrev cond1_1 (i : grid1.Coords) : Prop := k1_cond2 i = 1#1

/-- The reset branch is taken exactly at the points ≡ 0 (mod 4), -/
theorem hcond1_0 : ∀ t : Fin cfg1.N, cond1_0 (grid1.coords t) ↔ t.val % 4 = 0 :=
  (by decide +kernel : ∀ t : Fin grid1.N, cond1_0 (grid1.coords t) ↔ t.val % 4 = 0)
/-- and the copy-out branch exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- Where the copy-out branch is not taken the output window is idle, -/
theorem idle1_4_of (i : grid1.Coords) (h : ¬cond1_1 i) : cfg1.idle 4 i = true := by
  show (!(k1_cond2 i == 1#1)) = true
  rw [Bool.not_eq_true', beq_eq_false_iff_ne]; exact h
/-- where it is taken, live; -/
theorem live1_4_of (i : grid1.Coords) (h : cond1_1 i) : cfg1.idle 4 i = false := by
  show (!(k1_cond2 i == 1#1)) = false
  rw [show k1_cond2 i = 1#1 from h]; rfl
/-- and off the points ≡ 3 (mod 4) its block is not written back. -/
theorem noFlush1_4 (t : Fin cfg1.N) (h : ¬t.val % 4 = 3) : (cfg1.win 4).flush t = false := by
  rw [Bool.eq_false_iff]; exact fun hf => h ((flush1_4 t).mp hf)

/-! ## The body on whole memrefs, case by case -/

/-- One store through the whole-buffer rectangle covers the accumulator, -/
theorem cover1_s (p0 : Vec F S256x64 .f32) (y : S256x64.Idx) :
    ∃ pc ∈ ([⟨r1P, p0⟩] : List (View.Piece (Elt F) S256x64 .f32)), y ∈ pc.1.set :=
  View.cover_of_tiled [⟨r1P, p0⟩] S256x64.size (by rfl) y
/-- and one through its own covers the output buffer. -/
theorem cover1_o (p0 : Vec F S1x256x64 .f32) (y : S1x256x64.Idx) :
    ∃ pc ∈ ([⟨r1C, p0⟩] : List (View.Piece (Elt F) S1x256x64 .f32)), y ∈ pc.1.set :=
  View.cover_of_tiled [⟨r1C, p0⟩] S1x256x64.size (by rfl) y

/-- A store through the whole-buffer rectangle over an earlier one: a reload between them reads the earlier payload, and
    what the two leave is what the later alone leaves, its payload taken at the canonical contents of the earlier. -/
theorem read_reset_update (v : View sig .tc .vmem S256x64 .f32) (f : v.ty.Contents (Elt F))
    (P : Vec F S256x64 .f32 → Vec F S256x64 .f32) (z : Vec F S256x64 .f32) :
    v.read (Elt F) (v.writes (Elt F) f [⟨r1P, P (v.readCov [⟨r1P, z⟩] r1P.toLoadRect)⟩, ⟨r1P, z⟩])
      = View.canon [⟨r1P, P (View.ld (View.canon [⟨r1P, z⟩]) r1P)⟩] := by
  rw [View.readCov_eq_canon_ld v [⟨r1P, z⟩] r1P (cover1_s z)]
  refine (congrArg (v.read (Elt F))
    (View.writes_cons_drop v f ⟨r1P, P (View.ld (View.canon [⟨r1P, z⟩]) r1P)⟩ r1P z [] (fun y hy => hy))).trans ?_
  exact View.read_writes_eq_canon v f _ (cover1_s _)

/-- The copy of what a covered reload reads is the copy of the canonical contents of the stores it reloads. -/
theorem emit1_readCov (v : View sig .tc .vmem S256x64 .f32) (L : List (View.Piece (Elt F) S256x64 .f32)) (h : ∀ y, ∃ pc ∈ L, y ∈ pc.1.set) :
    View.canon [⟨r1C, k1_pay2 (v.readCov L r1P.toLoadRect)⟩] = emit1 (View.canon L) := by
  unfold emit1
  rw [View.readCov_eq_canon_ld v L r1P h]

set_option maxHeartbeats 1000000 in
/-- The body where the reset branch is taken and the copy-out branch is not: the accumulator, whatever it held, ends at the
    update over zeros; the inputs and the output buffer are as they were. -/
theorem sound_kernel1_A (c : Dev nD) (E : Set ℕ) (i : grid1.Coords) (hc0 : cond1_0 i) (hc1 : ¬cond1_1 i)
    (arg2 : Memref sig .tc .vmem S1x1024x64 .f32) (harg2 : arg2.IsWhole)
    (arg3 : Memref sig .tc .vmem S1x1024x64 .f32) (harg3 : arg3.IsWhole) (arg4 : Memref sig .tc .vmem S256x64 .f32) (harg4 : arg4.IsWhole)
    (arg5 : Memref sig .tc .vmem S1x1 .f32) (harg5 : arg5.IsWhole) (arg6 : Memref sig .tc .vmem S1x256x64 .f32) (harg6 : arg6.IsWhole)
    (arg7 : Memref sig .tc .vmem S256x64 .f32) (harg7 : arg7.IsWhole)
    (x0 x1 : Vec F S1x1024x64 .f32) (x2 : Vec F S256x64 .f32) (x3 : Vec F S1x1 .f32) (xo : Vec F S1x256x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (acc1 x0 x1 x2 x3 zero1)) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold sound_kernel1_A.sl.v29 sound_kernel1_A.sl.H5_1
  exact read_reset_update arg7.view f5
    (fun s => k1_pay1 (k1_pay4 (View.ld (View.read (Elt F) arg2.view f0) r1K) (View.ld (View.read (Elt F) arg3.view f1) r1K)
      (View.ld (View.read (Elt F) arg4.view f2) r1P) (View.ld (View.read (Elt F) arg5.view f3) r1G) s)) k1_pay3

set_option maxHeartbeats 1000000 in
/-- The body where neither branch is taken: the accumulator at `xs` ends at the update over `xs`; the inputs and the output
    buffer are as they were. -/
theorem sound_kernel1_B (c : Dev nD) (E : Set ℕ) (i : grid1.Coords) (hc0 : ¬cond1_0 i) (hc1 : ¬cond1_1 i)
    (arg2 : Memref sig .tc .vmem S1x1024x64 .f32) (harg2 : arg2.IsWhole)
    (arg3 : Memref sig .tc .vmem S1x1024x64 .f32) (harg3 : arg3.IsWhole) (arg4 : Memref sig .tc .vmem S256x64 .f32) (harg4 : arg4.IsWhole)
    (arg5 : Memref sig .tc .vmem S1x1 .f32) (harg5 : arg5.IsWhole) (arg6 : Memref sig .tc .vmem S1x256x64 .f32) (harg6 : arg6.IsWhole)
    (arg7 : Memref sig .tc .vmem S256x64 .f32) (harg7 : arg7.IsWhole)
    (x0 x1 : Vec F S1x1024x64 .f32) (x2 : Vec F S256x64 .f32) (x3 : Vec F S1x1 .f32) (xo : Vec F S1x256x64 .f32) (xs : Vec F S256x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (acc1 x0 x1 x2 x3 xs)) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_s _)

set_option maxHeartbeats 1000000 in
/-- The body where only the copy-out branch is taken: the accumulator at `xs` ends at the update over `xs`, and the output
    buffer, whatever it held, at the copy of that; the inputs are as they were. -/
theorem sound_kernel1_C (c : Dev nD) (E : Set ℕ) (i : grid1.Coords) (hc0 : ¬cond1_0 i) (hc1 : cond1_1 i)
    (arg2 : Memref sig .tc .vmem S1x1024x64 .f32) (harg2 : arg2.IsWhole)
    (arg3 : Memref sig .tc .vmem S1x1024x64 .f32) (harg3 : arg3.IsWhole) (arg4 : Memref sig .tc .vmem S256x64 .f32) (harg4 : arg4.IsWhole)
    (arg5 : Memref sig .tc .vmem S1x1 .f32) (harg5 : arg5.IsWhole) (arg6 : Memref sig .tc .vmem S1x256x64 .f32) (harg6 : arg6.IsWhole)
    (arg7 : Memref sig .tc .vmem S256x64 .f32) (harg7 : arg7.IsWhole)
    (x0 x1 : Vec F S1x1024x64 .f32) (x2 : Vec F S256x64 .f32) (x3 : Vec F S1x1 .f32) (xs : Vec F S256x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (emit1 (acc1 x0 x1 x2 x3 xs))
            ∗ owns (c : Thread nD τ) arg7 fullShare (acc1 x0 x1 x2 x3 xs)) -∗ K ⟨⟩))
      ⊢ wp frame (wpE (defs₀ (F := F)) Variants.none c none) E (cc1__context_kernel i arg2 harg2 arg3 harg3 arg4 harg4 arg5 harg5 arg6 harg6 arg7 harg7) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel1_C.sl.v40 sound_kernel1_C.sl.H5_1
    refine (View.read_writes_eq_canon _ _ _ (cover1_o _)).trans ?_
    exact emit1_readCov arg7.view _ (cover1_s _)
  iexists _; isplitr
  swap; · iexact H5
  ipureintro
  exact View.read_writes_eq_canon _ _ _ (cover1_s _)

/-! ## What the body finds in the inputs' buffers -/

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The invariant and the proof data -/

/-- Separating conjunction reassociates, as an equation. -/
theorem sep_assoc_eq1 (P Q R : sProp 𝕄) : (iprop((P ∗ Q) ∗ R) : sProp 𝕄) = iprop(P ∗ Q ∗ R) := by
  have h₁ : iprop((P ∗ Q) ∗ R) ⊢ (iprop(P ∗ Q ∗ R) : sProp 𝕄) := by
    iintro ⟨⟨HA, HB⟩, HC⟩
    isplitl [HA]; · iexact HA
    isplitl [HB]; · iexact HB
    iexact HC
  have h₂ : iprop(P ∗ Q ∗ R) ⊢ (iprop((P ∗ Q) ∗ R) : sProp 𝕄) := by
    iintro ⟨HA, HB, HC⟩
    isplitl [HA HB]
    · isplitl [HA]; · iexact HA
      iexact HB
    iexact HC
  exact BI.equiv_iff.mp ⟨h₁, h₂⟩

/-- The class invariant's remainder once the scratch accumulator is taken out: the core's other scoped buffers that are
    no staging buffer of this call, each at some contents, and the generator register at some state. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The region's invariant before position `n`: before the first point the class's; afterwards the scoped rest with the
    scratch accumulator at what the point before left in it, and the generator register at some state. -/
abbrev scM1 : Memref sig .tc .vmem S256x64 .f32 := Memref.whole cc1_scratch0
def PhiS1 (c : Dev nD) : (n : ℕ) → n ≤ cfg1.N → sProp 𝕄
  | 0, _ => Pipeline.ΦA spec1 c
  | n + 1, hn => iprop(owns (c : Thread nD τ) scM1 fullShare (sAt1 V c n hn) ∗ rest1 c)

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(owns (c : Thread nD τ) scM1 fullShare (sAt1 V c n hn) ∗ rest1 c) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (sAt1 V c (n - 1) (by omega)) ∗ rest1 c) := by
  cases n with
  | zero => exact absurd rfl hz
  | succ n => rfl

/-- The class invariant is the accumulator at some contents beside the remainder: the scoped rest split at the scratch. -/
theorem PhiA1_eq (c : Dev nD) :
    (Pipeline.ΦA spec1 c : sProp 𝕄) = iprop((∃ d, owns (c : Thread nD τ) scM1 fullShare d) ∗ rest1 c) := by
  unfold Pipeline.ΦA rest1
  rw [Pipeline.scopedRest_split_of_list spec1 c [cc1_scratch0] (by decide) (by decide)]
  simp only [Idealize.SL.BI.bigSepL_singleton, scM1, owns_whole]
  exact sep_assoc_eq1 _ _ _

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => emit1 (sAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = emit1 (sAt1 V c t.val t.isLt) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the inputs' buffers at their blocks, the output's as the point's case leaves it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

set_option maxHeartbeats 1000000 in
/-- The body at any point. The inputs' buffers hold their blocks. At a point ≡ 0 (mod 4) the accumulator, whatever the
    invariant holds it at, is reset and updated, which is the accumulation's value there; elsewhere the invariant holds it
    at what the point before left and the body updates that. The output buffer is handed back as found off the points
    ≡ 3 (mod 4), where the window is idle and not written back; at those points it receives the copy of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS1 V c (t.val + 1) t.isLt from rfl, PhiS1_succ, PhiS1_castSucc,
    after1_0, after1_1, after1_2, after1_3]
  have hN : t.val < 256 := lt_of_lt_of_eq t.isLt (show cfg1.N = 256 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idle1_4_of _ hc1) (noFlush1_4 t (by omega)), sAt1_reset V c t h0]
    by_cases hz : t.val = 0
    · rw [PhiS1_zero V c _ _ hz, PhiA1_eq]
      iintro ⟨⟨HS, Hr⟩, Ho, ⟨%d0, H0⟩, ⟨%d1, H1⟩, ⟨%d2, H2⟩, ⟨%d3, H3⟩, ⟨%d4, H4⟩⟩
      iapply (sound_kernel1_A c Set.univ _ hc0 hc1 _ _ _ _ _ _ _ _ _ _ _ _ (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
    · rw [PhiS1_pos V c _ _ hz]
      iintro ⟨⟨HS, Hr⟩, Ho, ⟨%d0, H0⟩, ⟨%d1, H1⟩, ⟨%d2, H2⟩, ⟨%d3, H3⟩, ⟨%d4, H4⟩⟩
      iapply (sound_kernel1_A c Set.univ _ hc0 hc1 _ _ _ _ _ _ _ _ _ _ _ _ (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun h => h0 (by rw [h])
    rw [PhiS1_pos V c _ _ hz, sAt1_step V c t h0]
    by_cases h1 : t.val % 4 = 3
    · have hc1 : cond1_1 (grid1.coords t) := (hcond1_1 t).mpr h1
      rw [show (dat1 V c).leavesExact 4 t = owns (c : Thread nD τ) (st1_4 t) fullShare ((dat1 V c).after 4 t) from by
        unfold Dat.leavesExact; rw [live1_4_of _ hc1], after1_4, sAt1_step V c t h0]
      iintro ⟨⟨HS, Hr⟩, Ho, ⟨%d0, H0⟩, ⟨%d1, H1⟩, ⟨%d2, H2⟩, ⟨%d3, H3⟩, ⟨%d4, H4⟩⟩
      iapply (sound_kernel1_C c Set.univ _ hc0 hc1 _ _ _ _ _ _ _ _ _ _ _ _ (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4_of _ hc1) (noFlush1_4 t h1)]
      iintro ⟨⟨HS, Hr⟩, Ho, ⟨%d0, H0⟩, ⟨%d1, H1⟩, ⟨%d2, H2⟩, ⟨%d3, H3⟩, ⟨%d4, H4⟩⟩
      iapply (sound_kernel1_B c Set.univ _ hc0 hc1 _ _ _ _ _ _ _ _ _ _ _ _ (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨HS, Hr⟩
  isplitl [HS]
  · iexists _; iexact HS
  iexact Hr

end Region1

end Cert.KernelIdeal.Hand

end
-- ==== Proof.KI.R2.lean ====
/-
  The third kernel region: one block of the output per grid point.

  At grid point (bh, nt) the body reads the (1024 × 64) block of rows nt·1024 … of slice bh of its first
  operand, the whole (256 × 64) projection matrix and the (256 × 64) slice bh of the context array, and stores
  ONE value, a function of those three blocks alone, over the whole (1024 × 64) output block. Nothing is kept
  between points: each input's staging buffer holds its block whether or not the point fetched it (the block
  index did not move), and the output's buffer after the body is the one store read back.
-/
import proofs.«106060_j5274219839587_1_alg».proof.Proof.Gen.KernelIdeal.Launch
import proofs.«106060_j5274219839587_1_alg».proof.Proof.Gen.KernelIdeal.Skeleton
import proofs.«106060_j5274219839587_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2Q : Rect S1x1024x64 := Rect.unit (s := S1x1024x64) ![0, 0, 0] S1x1024x64.size inb_S1x1024x64_S1x1024x64_0_0_0
abbrev r2P : Rect S256x64 := Rect.unit (s := S256x64) ![0, 0] S256x64.size inb_S256x64_S256x64_0_0
abbrev r2C : Rect S1x256x64 := Rect.unit (s := S1x256x64) ![0, 0, 0] S1x256x64.size inb_S1x256x64_S1x256x64_0_0_0

/-- The output window's staging buffer after the body, from the three input blocks: its one store. -/
def out2_3 (x0 : Vec F S1x1024x64 .f32) (x1 : Vec F S256x64 .f32) (x2 : Vec F S1x256x64 .f32) : Vec F S1x1024x64 .f32 :=
  View.canon [⟨r2Q, k2_pay1 (View.ld x0 r2Q) (View.ld x1 r2P) (View.ld x2 r2C)⟩]

/-- The one store covers the buffer. -/
theorem cover2_3 (p0 : Vec F S1x1024x64 .f32) (y : S1x1024x64.Idx) :
    ∃ pc ∈ ([⟨r2Q, p0⟩] : List (View.Piece (Elt F) S1x1024x64 .f32)), y ∈ pc.1.set :=
  View.cover_of_tiled [⟨r2Q, p0⟩] S1x1024x64.size (by rfl) y

set_option maxHeartbeats 1000000 in
/-- The body on whole staging memrefs: the inputs at their contents and the output at anything run to the inputs as
    they were and the output at `out2_3` of them. -/
theorem sound_kernel2 (c : Dev nD) (E : Set ℕ) (i : grid2.Coords) (arg2 : Memref sig .tc .vmem S1x1024x64 .f32) (harg2 : arg2.IsWhole)
    (arg3 : Memref sig .tc .vmem S256x64 .f32) (harg3 : arg3.IsWhole) (arg4 : Memref sig .tc .vmem S1x256x64 .f32) (harg4 : arg4.IsWhole)
    (arg5 : Memref sig .tc .vmem S1x1024x64 .f32) (harg5 : arg5.IsWhole)
    (x0 : Vec F S1x1024x64 .f32) (x1 : Vec F S256x64 .f32) (x2 : Vec F S1x256x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__out_kernel i arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body each input's buffer at
    its block and the output's at `out2_3` of the input blocks; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/-
  The kernel program's run: its main function followed from the launch to the return.

  The main function is five items: a stretch of three reshapes, the three kernel regions, and a last reshape. Between two
  items a core holds every unscoped buffer whole at a valuation: the launch memory `W0`; after the first stretch its
  fold `W1`; after each region the valuation before it with the region's arrays replaced by what the pipeline's
  write-backs leave (`W2`, `W3`, `W4`); after the last reshape `W5`. Every weakly fair execution terminates, and the
  final memory holds every unscoped buffer at `W5` — the arguments, which nothing writes, as launched.
-/
import proofs.«106060_j5274219839587_1_alg».proof.Proof.KI.R0
import proofs.«106060_j5274219839587_1_alg».proof.Proof.KI.R1
import proofs.«106060_j5274219839587_1_alg».proof.Proof.KI.R2
import proofs.«106060_j5274219839587_1_alg».proof.Proof.LibRegionHeld

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the three reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
/-- After the third region. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- After the last reshape. -/
abbrev W5 : Dev nD → Valuation τ sig (Elt F) := fun c => StableHlo.after hostOps3 (W4 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Pipeline.idleRest (U := UR sig nD τ))

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 :=
  Pipeline.RegionSeg.ofHeld (pcfgs (F := F)) adm (pdats m ρ) defs₀ 𝒱₀ L lv 0
    launch0.win launch0.block_pos launch0.arr_whole launch0.stage_whole
    (fun c => Pipeline.emp_prefHeld_of_no_table _ rfl c _ _)
    (fun c => body_obligation0 (V1 m ρ) c) (fun _ _ => rfl) (fun _ _ => rfl) (fun _ => rfl)
    (W1 m ρ) (W2 m ρ) (fun _ _ => rfl) (fun c w => (W2_arr m ρ c w).symm)
    (fun c b hb => W2_of_ne m ρ c b fun w e => hb (Finset.mem_image.mpr ⟨w, Finset.mem_univ _, e⟩))
    (fun c => .rfl) (fun c => .rfl)

set_option backward.isDefEq.respectTransparency.types false in
def reg1 : Pipeline.RegionSeg (pcfgs (F := F)) adm (pdats m ρ) () defs₀ 𝒱₀ L lv 1 :=
  Pipeline.RegionSeg.ofHeld (pcfgs (F := F)) adm (pdats m ρ) defs₀ 𝒱₀ L lv 1
    launch1.win launch1.block_pos launch1.arr_whole launch1.stage_whole
    (fun c => Pipeline.emp_prefHeld_of_no_table _ rfl c _ _)
    (fun c => body_obligation1 (V2 m ρ) c) (fun _ _ => rfl) (fun _ _ => rfl) (fun _ => rfl)
    (W2 m ρ) (W3 m ρ) (fun _ _ => rfl) (fun c w => (W3_arr m ρ c w).symm)
    (fun c b hb => W3_of_ne m ρ c b fun w e => hb (Finset.mem_image.mpr ⟨w, Finset.mem_univ _, e⟩))
    (fun c => hin1 (V2 m ρ) c) (fun c => hout1 (V2 m ρ) c)

set_option backward.isDefEq.respectTransparency.types false in
def reg2 : Pipeline.RegionSeg (pcfgs (F := F)) adm (pdats m ρ) () defs₀ 𝒱₀ L lv 2 :=
  Pipeline.RegionSeg.ofHeld (pcfgs (F := F)) adm (pdats m ρ) defs₀ 𝒱₀ L lv 2
    launch2.win launch2.block_pos launch2.arr_whole launch2.stage_whole
    (fun c => Pipeline.emp_prefHeld_of_no_table _ rfl c _ _)
    (fun c => body_obligation2 (V3 m ρ) c) (fun _ _ => rfl) (fun _ _ => rfl) (fun _ => rfl)
    (W3 m ρ) (W4 m ρ) (fun _ _ => rfl) (fun c w => (W4_arr m ρ c w).symm)
    (fun c b hb => W4_of_ne m ρ c b fun w e => hb (Finset.mem_image.mpr ⟨w, Finset.mem_univ _, e⟩))
    (fun c => .rfl) (fun c => .rfl)

/-! ## The main function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the main function terminates, nothing
    faulting, and the final memory holds every unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Pipeline.idleRest (U := UR sig nD τ) c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ Pipeline.idleRest (U := UR sig nD τ) c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Args.lean ====
/-
  The kernel program's buffers followed through the boundaries: no item writes an argument, and each region's operands are
  what the items before it left.
-/
import proofs.«106060_j5274219839587_1_alg».proof.Proof.KI.Run

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- The three reshapes write only their own results. -/
theorem W1_keep (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- The last reshape writes only its own result. -/
theorem W5_keep (c : Dev nD) (b : Ref sig .tc) (h6 : b ≠ main_v6) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne h6))

/-- An input window's array leaves a region as it entered it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-! ## The arguments end as launched -/

theorem W5_main_arg0 (c : Dev nD) : W5 m ρ c (Proc.devRef .tc main_arg0) = m ((c : Thread nD τ).loc main_arg0) :=
  (W5_keep m ρ c main_arg0 (by decide)).trans <| (W4_of_ne m ρ c main_arg0 (by decide)).trans <|
    (W3_of_ne m ρ c main_arg0 (by decide)).trans <| (W2_of_ne m ρ c main_arg0 (by decide)).trans <|
    (W1_keep m ρ c main_arg0 (by decide) (by decide) (by decide)).trans rfl
theorem W5_main_arg1 (c : Dev nD) : W5 m ρ c (Proc.devRef .tc main_arg1) = m ((c : Thread nD τ).loc main_arg1) :=
  (W5_keep m ρ c main_arg1 (by decide)).trans <| (W4_of_ne m ρ c main_arg1 (by decide)).trans <|
    (W3_of_ne m ρ c main_arg1 (by decide)).trans <| (W2_of_ne m ρ c main_arg1 (by decide)).trans <|
    (W1_keep m ρ c main_arg1 (by decide) (by decide) (by decide)).trans rfl
theorem W5_main_arg2 (c : Dev nD) : W5 m ρ c (Proc.devRef .tc main_arg2) = m ((c : Thread nD τ).loc main_arg2) :=
  (W5_keep m ρ c main_arg2 (by decide)).trans <| (W4_of_ne m ρ c main_arg2 (by decide)).trans <|
    (W3_of_ne m ρ c main_arg2 (by decide)).trans <| (W2_of_ne m ρ c main_arg2 (by decide)).trans <|
    (W1_keep m ρ c main_arg2 (by decide) (by decide) (by decide)).trans rfl

/-- The projection matrix is an input of all three regions. -/
theorem W1_main_arg3 (c : Dev nD) : W1 m ρ c (Proc.devRef .tc main_arg3) = m ((c : Thread nD τ).loc main_arg3) :=
  (W1_keep m ρ c main_arg3 (by decide) (by decide) (by decide)).trans rfl
theorem W2_main_arg3 (c : Dev nD) : W2 m ρ c (Proc.devRef .tc main_arg3) = m ((c : Thread nD τ).loc main_arg3) :=
  (W2_in m ρ c 1 rfl).trans (W1_main_arg3 m ρ c)
theorem W3_main_arg3 (c : Dev nD) : W3 m ρ c (Proc.devRef .tc main_arg3) = m ((c : Thread nD τ).loc main_arg3) :=
  (W3_in m ρ c 2 rfl).trans (W2_main_arg3 m ρ c)
theorem W4_main_arg3 (c : Dev nD) : W4 m ρ c (Proc.devRef .tc main_arg3) = m ((c : Thread nD τ).loc main_arg3) :=
  (W4_in m ρ c 1 rfl).trans (W3_main_arg3 m ρ c)
theorem W5_main_arg3 (c : Dev nD) : W5 m ρ c (Proc.devRef .tc main_arg3) = m ((c : Thread nD τ).loc main_arg3) :=
  (W5_keep m ρ c main_arg3 (by decide)).trans (W4_main_arg3 m ρ c)

/-- THE FRAME, at any float instance: every weakly fair execution terminates, nothing faulting, with the four argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.KernelIdeal.Hand

end
-- ==== Proof.Spec.lean ====
/-
  The two programs' results as formulas over the extended reals.

  Both compute a random-feature ("softmax kernel") linear attention. With c = 2^(-3/2) rounded to single precision,
  for a slice x (rows n, features d) and the projection matrix p (rows m, features d):

      dd x p n m   = Σ_d (x n d · c) · p m d                       the projected logits
      diag x n     = (Σ_d x n d · x n d) · (1/16)                  half the squared norm, scaled
      feat x p M   = (1/16) · (exp (dd − diag − M) + ε)            the feature map, stabilised by a maximum M

  The keys use ONE maximum over every slice, row and feature (`gmax`), the queries one per row (`rowmax`). Then

      ctx m e  = Σ_n featK n m · v n e          out n e = Σ_m featQ n m · ctx m e.

  The kernel works on 64 = 4·16 flattened slices (`kernelOut`); the reference on the 4 × 16 grid of slices, multiplies
  by c on the left and scales the squared norm by 1/2 and then 1/8 (`refOut`).
-/
import Idealize.ShloMosaic.PureOps.Ideal
import Idealize.ShloMosaic.Lib.ValueIdx

noncomputable section

open scoped BigOperators

namespace Cert.Spec

open Idealize.ShloMosaic

/-- The constants, as the single-precision words both programs print. -/
def cN : EReal := Ideal.ofBits .f32 0x3EB504F3#32
def c16 : EReal := Ideal.ofBits .f32 0x3D800000#32
def cEps : EReal := Ideal.ofBits .f32 0x38D1B717#32
def cHalf : EReal := Ideal.ofBits .f32 0x3F000000#32
def c8 : EReal := Ideal.ofBits .f32 0x3E000000#32

/-! ## Over 64 flattened slices -/

abbrev T3 : Type := Fin 64 → Fin 4096 → Fin 64 → EReal
abbrev T2 : Type := Fin 256 → Fin 64 → EReal
abbrev TC : Type := Fin 64 → Fin 256 → Fin 64 → EReal

def dd (x : T3) (p : T2) (a : Fin 64) (n : Fin 4096) (m : Fin 256) : EReal := ∑ d : Fin 64, (x a n d * cN) * p m d
def diag (x : T3) (a : Fin 64) (n : Fin 4096) : EReal := (∑ d : Fin 64, x a n d * x a n d) * c16
def gmax (k : T3) (p : T2) : EReal := Finset.univ.sup fun t : Fin 64 × Fin 4096 × Fin 256 => dd k p t.1 t.2.1 t.2.2
def rowmax (q : T3) (p : T2) (a : Fin 64) (n : Fin 4096) : EReal := Finset.univ.sup fun m : Fin 256 => dd q p a n m
def feat (x : T3) (p : T2) (mx : EReal) (a : Fin 64) (n : Fin 4096) (m : Fin 256) : EReal :=
  c16 * (Ideal.exp ((dd x p a n m - diag x a n) - mx) + cEps)
def ctx (k v : T3) (p : T2) (g : EReal) : TC := fun a m e => ∑ n : Fin 4096, feat k p g a n m * v a n e
def out (q : T3) (p : T2) (cx : TC) : T3 := fun a n e => ∑ m : Fin 256, feat q p (rowmax q p a n) a n m * cx a m e
def kernelOut (q k v : T3) (p : T2) : T3 := out q p (ctx k v p (gmax k p))

/-! ## Over the 4 × 16 grid of slices, as the reference spells it -/

abbrev U4 : Type := Fin 4 → Fin 16 → Fin 4096 → Fin 64 → EReal

def dd4 (x : U4) (p : T2) (b : Fin 4) (h : Fin 16) (n : Fin 4096) (m : Fin 256) : EReal := ∑ d : Fin 64, (cN * x b h n d) * p m d
def diag4 (x : U4) (b : Fin 4) (h : Fin 16) (n : Fin 4096) : EReal := ((∑ d : Fin 64, x b h n d * x b h n d) * cHalf) * c8
def gmax4 (k : U4) (p : T2) : EReal :=
  Finset.univ.sup fun t : Fin 4 × Fin 16 × Fin 4096 × Fin 256 => dd4 k p t.1 t.2.1 t.2.2.1 t.2.2.2
def rowmax4 (q : U4) (p : T2) (b : Fin 4) (h : Fin 16) (n : Fin 4096) : EReal := Finset.univ.sup fun m : Fin 256 => dd4 q p b h n m
def feat4 (x : U4) (p : T2) (mx : EReal) (b : Fin 4) (h : Fin 16) (n : Fin 4096) (m : Fin 256) : EReal :=
  c16 * (Ideal.exp ((dd4 x p b h n m - diag4 x b h n) - mx) + cEps)
def ctx4 (k v : U4) (p : T2) (b : Fin 4) (h : Fin 16) (m : Fin 256) (e : Fin 64) : EReal :=
  ∑ n : Fin 4096, feat4 k p (gmax4 k p) b h n m * v b h n e
def refOut (q k v : U4) (p : T2) : U4 := fun b h n e =>
  ∑ m : Fin 256, feat4 q p (rowmax4 q p b h n) b h n m * ctx4 k v p b h m e

/-! ## Arrays as functions of their coordinates -/

open Idealize.ShloMosaic.ValueIdx in
/-- A (64, 4096, 64) array by coordinates. -/
abbrev arr3 (X : (⟨3, ![64, 4096, 64]⟩ : Shape).Idx → EReal) : T3 := fun a n d => X (ix3 a n d)
open Idealize.ShloMosaic.ValueIdx in
/-- The (256, 64) projection matrix by coordinates. -/
abbrev arr2 (X : (⟨2, ![256, 64]⟩ : Shape).Idx → EReal) : T2 := fun m d => X (ix2 m d)
open Idealize.ShloMosaic.ValueIdx in
/-- A (64, 256, 64) array by coordinates. -/
abbrev arrC (X : (⟨3, ![64, 256, 64]⟩ : Shape).Idx → EReal) : TC := fun a m e => X (ix3 a m e)
open Idealize.ShloMosaic.ValueIdx in
/-- A (4, 16, 4096, 64) array by coordinates. -/
abbrev arr4 (X : (⟨4, ![4, 16, 4096, 64]⟩ : Shape).Idx → EReal) : U4 := fun b h n d => X (ix4 b h n d)

/-! ## Flattening the grid of slices -/

/-- Slice `a` of the flattened array is slice `(a / 16, a % 16)` of the grid. -/
def flat (x : U4) : T3 := fun a n d =>
  x ⟨a.val / 16, by have := a.isLt; omega⟩ ⟨a.val % 16, Nat.mod_lt _ (by decide)⟩ n d

/-- Slice `(b, h)` of the grid is slice `16 b + h` of the flattened array. -/
def fl (b : Fin 4) (h : Fin 16) : Fin 64 := ⟨16 * b.val + h.val, by have := b.isLt; have := h.isLt; omega⟩

end Cert.Spec

end
-- ==== Proof.KI.Val0.lean ====
/-
  The first region's result at the extended reals: after the last point the (1 × 1) array holds the maximum of the keys' projected logits over every slice, row and feature.

  The steps. (1) At the extended reals the body's payload is a select, on "both grid coordinates are zero", between the
  block maximum and the larger of it and the held value; the block maximum is the supremum, over the block's 1024 rows r
  and the 256 features m, of Σ_d (k r d · c) · p m d: the product into a zero accumulator is that sum, a maximum along an
  axis from minus infinity is a supremum, and two suprema in turn are the supremum over pairs. (2) By induction on the
  point, the running maximum after point n is the supremum of the block maxima of the points up to n. (3) The block at
  point t is rows (t % 4)·1024 … of slice t / 4, so its entries are logits of that slice, and every logit (a, n, m) is the
  entry (n % 1024, m) of the block at point 4 a + n / 1024: the supremum of the block maxima over the grid is the maximum
  over every slice, row and feature. (4) The array is written back once, after the last point, through a block that is
  the whole array.
-/
import proofs.«106060_j5274219839587_1_alg».proof.Proof.KI.R0
import proofs.«106060_j5274219839587_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

namespace Val0

/-- The word of minus infinity denotes the least extended real. -/
theorem ofBits_ninf : Ideal.ofBits .f32 0xFF800000#32 = (⊥ : EReal) := by simp [Ideal.ofBits, Ideal.ieee]

/-- A fold of the maximum from the least element is the supremum. -/
theorem fold_max_bot {ι : Type} (s : Finset ι) (f : ι → EReal) : s.fold max (⊥ : EReal) f = s.sup f := rfl

abbrev D0 := dot_S1024x64_S256x64_S1024x256_1_1_0_0_n_n

theorem D0_lhs0 (j : S1024x256.Idx) (q : D0.contr.Idx) : (D0.lhsIdx j q 0).val = (j 0).val := by
  unfold DotDims.lhsIdx
  rw [dif_neg (show ¬(0 : Fin S1024x64.rank) ∈ D0.lhsBatch by decide), dif_pos (show (0 : Fin S1024x64.rank) ∈ D0.lhsNonContracting by decide)]
  rfl
theorem D0_lhs1 (j : S1024x256.Idx) (q : D0.contr.Idx) : (D0.lhsIdx j q 1).val = (q ⟨0, by decide⟩).val :=
  D0.lhsIdx_val_of_single rfl j q
theorem D0_rhs0 (j : S1024x256.Idx) (q : D0.contr.Idx) : (D0.rhsIdx j q 0).val = (j 1).val := by
  unfold DotDims.rhsIdx
  rw [dif_neg (show ¬(0 : Fin S256x64.rank) ∈ D0.rhsBatch by decide), dif_pos (show (0 : Fin S256x64.rank) ∈ D0.rhsNonContracting by decide)]
  rfl
theorem D0_rhs1 (j : S1024x256.Idx) (q : D0.contr.Idx) : (D0.rhsIdx j q 1).val = (q ⟨0, by decide⟩).val :=
  D0.rhsIdx_val_of_single rfl j q

/-- The product into a zero accumulator, read at (r, m): the sum over the feature axis. -/
theorem mm_apply (a : FVec Ideal S1024x64 .bf16) (b : FVec Ideal S256x64 .bf16) (r : Fin 1024) (m : Fin 256) :
    matmul D0 none a b (constant S1024x256 .f32 0x00000000#32) (ix2 r m) = ∑ d : Fin 64, a (ix2 r d) * b (ix2 m d) := by
  simp only [matmul]
  rw [Ideal.matmul_constant_zero_apply, ← Equiv.sum_comp (contrEquiv1 D0 64 rfl rfl).symm]
  refine Finset.sum_congr rfl fun k _ => ?_
  have hk := contrEquiv1_symm_val D0 64 rfl rfl k
  have el : D0.lhsIdx (ix2 r m) ((contrEquiv1 D0 64 rfl rfl).symm k) = ix2 r k := funext fun x => Fin.ext (by
    match x with
    | ⟨0, _⟩ => exact D0_lhs0 _ _
    | ⟨1, _⟩ => exact (D0_lhs1 _ _).trans hk)
  have er : D0.rhsIdx (ix2 r m) ((contrEquiv1 D0 64 rfl rfl).symm k) = ix2 m k := funext fun x => Fin.ext (by
    match x with
    | ⟨0, _⟩ => exact D0_rhs0 _ _
    | ⟨1, _⟩ => exact (D0_rhs1 _ _).trans hk)
  rw [el, er]

/-- The maximum along the rows' entries: at row r, the supremum over the 256 columns. -/
theorem rowmax_apply (v : FVec Ideal S1024x256 .f32) (hφ : FKind.Formats .f32)
    (hacc : (0xFF800000#32 : BitVec FTy.f32.bits) = FKind.maximumf.neutral .f32 hφ) (r : Fin 1024) :
    multiReduction .maximumf [1] S1024 v (0xFF800000#32 : BitVec FTy.f32.bits) reduces_S1024x256_S1024 hφ hacc (ix1 r)
      = Finset.univ.sup fun m : Fin 256 => v (ix2 r m) := by
  refine (Ideal.multiReduction_maximumf_single (φ := .f32) v (0xFF800000#32 : BitVec FTy.f32.bits) reduces_S1024x256_S1024 hφ hacc (ix1 r)).trans ?_
  rw [Ideal.ofBits_def, ofBits_ninf, fold_max_bot]
  refine Finset.sup_congr rfl fun m _ => ?_
  show v _ = v _
  congr 1
  funext x
  match x with
  | ⟨0, _⟩ => rfl
  | ⟨1, _⟩ => rfl

/-- The maximum down a one-column array: the supremum over its 1024 rows. -/
theorem colmax_apply (w : FVec Ideal S1024x1 .f32) (hφ : FKind.Formats .f32)
    (hacc : (0xFF800000#32 : BitVec FTy.f32.bits) = FKind.maximumf.neutral .f32 hφ) (j : S1.Idx) :
    multiReduction .maximumf [0] S1 w (0xFF800000#32 : BitVec FTy.f32.bits) reduces_S1024x1_S1 hφ hacc j
      = Finset.univ.sup fun r : Fin 1024 => w (ix2 r 0) := by
  refine (Ideal.multiReduction_maximumf_single (φ := .f32) w (0xFF800000#32 : BitVec FTy.f32.bits) reduces_S1024x1_S1 hφ hacc j).trans ?_
  rw [Ideal.ofBits_def, ofBits_ninf, fold_max_bot]
  refine Finset.sup_congr rfl fun r _ => ?_
  show w _ = w _
  congr 1
  funext x
  match x with
  | ⟨0, _⟩ => rfl
  | ⟨1, hx⟩ =>
    have h1 := ((reduces_S1024x1_S1.lift j r) ⟨1, hx⟩).isLt
    exact Fin.ext (by change _ < 1 at h1; show ((reduces_S1024x1_S1.lift j r) ⟨1, hx⟩).val = 0; omega)

/-- The two maxima in turn, of a (1024 × 256) array: the supremum over all its entries. -/
theorem red_apply (v7 : FVec Ideal S1024x256 .f32) (hφ : FKind.Formats .f32)
    (hacc : (0xFF800000#32 : BitVec FTy.f32.bits) = FKind.maximumf.neutral .f32 hφ) (j : S1x1.Idx) :
    shapeCast S1x1 (multiReduction .maximumf [0] S1 (shapeCast S1024x1 (multiReduction .maximumf [1] S1024 v7 (0xFF800000#32 : BitVec FTy.f32.bits) reduces_S1024x256_S1024 hφ hacc) shapeCasts_S1024_S1024x1) (0xFF800000#32 : BitVec FTy.f32.bits) reduces_S1024x1_S1 hφ hacc) shapeCasts_S1_S1x1 j
      = Finset.univ.sup fun p : Fin 1024 × Fin 256 => v7 (ix2 p.1 p.2) := by
  refine (shapeCast_apply _ shapeCasts_S1_S1x1 j (ix1 0) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  refine (colmax_apply _ hφ hacc (ix1 0)).trans ?_
  have hrow : ∀ r : Fin 1024, shapeCast S1024x1 (multiReduction .maximumf [1] S1024 v7 (0xFF800000#32 : BitVec FTy.f32.bits) reduces_S1024x256_S1024 hφ hacc) shapeCasts_S1024_S1024x1 (ix2 r 0)
      = Finset.univ.sup fun m : Fin 256 => v7 (ix2 r m) := by
    intro r
    refine (shapeCast_apply _ shapeCasts_S1024_S1024x1 _ (ix1 r) ?_).trans (rowmax_apply v7 hφ hacc r)
    rw [Shape.rowMajor_val_one, Shape.rowMajor_val_two]
    show r.val = r.val * 1 + 0
    omega
  rw [Finset.sup_congr rfl (fun r _ => hrow r)]
  exact (Finset.sup_product_left (Finset.univ : Finset (Fin 1024)) (Finset.univ : Finset (Fin 256)) (fun p : Fin 1024 × Fin 256 => v7 (ix2 p.1 p.2))).symm

/-- The maximum of a block's projected logits, from the two staged blocks: the key rows (1 × 1024 × 64) and the whole
    projection matrix (256 × 64). -/
def blkMax (x0 : Vec Ideal S1x1024x64 .f32) (x1 : Vec Ideal S256x64 .f32) : EReal :=
  Finset.univ.sup fun p : Fin 1024 × Fin 256 => ∑ d : Fin 64, (x0 (ix3 0 p.1 d) * Cert.Spec.cN) * x1 (ix2 p.2 d)

/-- Each entry is below the block maximum. -/
theorem le_blkMax (x0 : Vec Ideal S1x1024x64 .f32) (x1 : Vec Ideal S256x64 .f32) (r : Fin 1024) (m : Fin 256) :
    (∑ d : Fin 64, (x0 (ix3 0 r d) * Cert.Spec.cN) * x1 (ix2 m d)) ≤ blkMax x0 x1 :=
  Finset.le_sup (f := fun p : Fin 1024 × Fin 256 => ∑ d : Fin 64, (x0 (ix3 0 p.1 d) * Cert.Spec.cN) * x1 (ix2 p.2 d))
    (Finset.mem_univ ((r, m) : Fin 1024 × Fin 256))

/-- A bound of every entry bounds the block maximum. -/
theorem blkMax_le (x0 : Vec Ideal S1x1024x64 .f32) (x1 : Vec Ideal S256x64 .f32) (B : EReal)
    (h : ∀ (r : Fin 1024) (m : Fin 256), (∑ d : Fin 64, (x0 (ix3 0 r d) * Cert.Spec.cN) * x1 (ix2 m d)) ≤ B) : blkMax x0 x1 ≤ B :=
  Finset.sup_le fun p _ => h p.1 p.2

/-- The body's block maximum, as the body computes it. -/
def v11Of (x0 : Vec Ideal S1x1024x64 .f32) (x1 : Vec Ideal S256x64 .f32) : FVec Ideal S1x1 .f32 :=
  shapeCast S1x1 (multiReduction .maximumf [0] S1 (shapeCast S1024x1 (multiReduction .maximumf [1] S1024
    (matmul D0 none
      (truncf .bf16 (mulf (shapeCast S1024x64 x0 shapeCasts_S1x1024x64_S1024x64) (broadcast S1024x64 (Scalar.ofBits .f32 0x3EB504F3#32))) bitsLt_bf16_f32)
      (truncf .bf16 x1 bitsLt_bf16_f32) (constant S1024x256 .f32 0x00000000#32))
    (0xFF800000#32 : BitVec FTy.f32.bits) reduces_S1024x256_S1024 (.inl rfl) rfl) shapeCasts_S1024_S1024x1)
    (0xFF800000#32 : BitVec FTy.f32.bits) reduces_S1024x1_S1 (.inl rfl) rfl) shapeCasts_S1_S1x1

theorem v11Of_apply (x0 : Vec Ideal S1x1024x64 .f32) (x1 : Vec Ideal S256x64 .f32) (j : S1x1.Idx) :
    v11Of x0 x1 j = blkMax x0 x1 := by
  unfold v11Of blkMax
  refine (red_apply _ _ _ j).trans ?_
  refine Finset.sup_congr rfl fun p _ => ?_
  refine (mm_apply _ _ p.1 p.2).trans ?_
  refine Finset.sum_congr rfl fun d _ => ?_
  show (shapeCast S1024x64 x0 shapeCasts_S1x1024x64_S1024x64 (ix2 p.1 d) * Ideal.ofBits .f32 0x3EB504F3#32) * x1 (ix2 p.2 d) = _
  rw [shapeCast_apply x0 shapeCasts_S1x1024x64_S1024x64 (ix2 p.1 d) (ix3 0 p.1 d) (by
    rw [Shape.rowMajor_val_two, Shape.rowMajor_val_three]
    show ((0 : Nat) * 1024 + p.1.val) * 64 + d.val = p.1.val * 64 + d.val
    omega)]
  rfl

/-- The payload is the select, on "first grid point", between the block maximum and the larger of it and the held value. -/
theorem pay_eq (i : grid0.Coords) (x0 : Vec Ideal S1x1024x64 .f32) (x1 : Vec Ideal S256x64 .f32) (xd : Vec Ideal S1x1 .f32) :
    k0_pay1 i x0 x1 xd = Scalar.select (Scalar.andi (Scalar.cmpi .eq (BitVec.ofNat 32 (i 0).val) 0#32) (Scalar.cmpi .eq (BitVec.ofNat 32 (i 1).val) 0#32))
      (v11Of x0 x1) (maximumf (shapeCast S1x1 xd shapeCasts_S1x1_S1x1) (v11Of x0 x1)) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The one store covers the buffer, and the loads read whole buffers: what the body leaves is its payload. -/
theorem out0_2_eq (i : grid0.Coords) (x0 : Vec Ideal S1x1024x64 .f32) (x1 : Vec Ideal S256x64 .f32) (xd : Vec Ideal S1x1 .f32) :
    out0_2 (F := Ideal) i x0 x1 xd = k0_pay1 i x0 x1 xd := by
  unfold out0_2
  rw [View.canon_unit_zero hz2, View.ld_unit_zero hz3, View.ld_unit_zero hz2, View.ld_unit_zero hz2]

/-- Off the first grid point the "first point" bit is clear. -/
theorem bit_later : ∀ (a : Fin 64) (b : Fin 4), ¬(a.val = 0 ∧ b.val = 0) →
    Scalar.andi (Scalar.cmpi .eq (BitVec.ofNat 32 a.val) 0#32) (Scalar.cmpi .eq (BitVec.ofNat 32 b.val) 0#32) = 0#1 := by decide

/-- At the first grid point the buffer ends at the block maximum, whatever it held. -/
theorem out0_2_first_apply (i : grid0.Coords) (h0 : (i 0).val = 0) (h1 : (i 1).val = 0) (x0 : Vec Ideal S1x1024x64 .f32)
    (x1 : Vec Ideal S256x64 .f32) (xd : Vec Ideal S1x1 .f32) (j : S1x1.Idx) : out0_2 (F := Ideal) i x0 x1 xd j = blkMax x0 x1 := by
  have hb : Scalar.andi (Scalar.cmpi .eq (BitVec.ofNat 32 (i 0).val) 0#32) (Scalar.cmpi .eq (BitVec.ofNat 32 (i 1).val) 0#32) = 1#1 := by
    rw [h0, h1]; rfl
  rw [out0_2_eq, pay_eq, hb, select_one, v11Of_apply]

/-- At every other grid point it ends at the larger of what it held and the block maximum. -/
theorem out0_2_later_apply (i : grid0.Coords) (h : ¬((i 0).val = 0 ∧ (i 1).val = 0)) (x0 : Vec Ideal S1x1024x64 .f32)
    (x1 : Vec Ideal S256x64 .f32) (xd : Vec Ideal S1x1 .f32) (j : S1x1.Idx) :
    out0_2 (F := Ideal) i x0 x1 xd j = max (xd j) (blkMax x0 x1) := by
  rw [out0_2_eq, pay_eq, bit_later (i 0) (i 1) h, select_zero]
  show max (shapeCast S1x1 xd shapeCasts_S1x1_S1x1 j) (v11Of x0 x1 j) = _
  rw [shapeCast_self, v11Of_apply]

/-- Only the first point has both grid coordinates zero. -/
theorem coords0_pos : ∀ t : Fin cfg0.N, t.val ≠ 0 → ¬(((grid0.coords t) 0).val = 0 ∧ ((grid0.coords t) 1).val = 0) :=
  (by decide +kernel : ∀ t : Fin grid0.N, t.val ≠ 0 → ¬(((grid0.coords t) 0).val = 0 ∧ ((grid0.coords t) 1).val = 0))

/-- The block index of the keys' window at point t: slice t / 4, row tile t % 4. -/
theorem idx0_0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- The projection's window is the whole matrix at every point. -/
theorem idx0_1 : ∀ t : Fin cfg0.N, win0_1.index t 0 = 0 ∧ win0_1.index t 1 = 0 :=
  (by decide +kernel : ∀ t : Fin grid0.N, win0_1.index t 0 = 0 ∧ win0_1.index t 1 = 0)

/-- The two staged blocks at point t, at their vector types. -/
def kb (c : Dev nD) (t : Fin cfg0.N) : Vec Ideal S1x1024x64 .f32 := iblk0 V c 0 t
def pb (c : Dev nD) (t : Fin cfg0.N) : Vec Ideal S256x64 .f32 := iblk0 V c 1 t

/-- Row r of the keys' block at point t is row (t % 4)·1024 + r of slice t / 4. -/
theorem kb_apply (c : Dev nD) (t : Fin cfg0.N) (r : Fin 1024) (d : Fin 64) (a : Fin 64) (n : Fin 4096)
    (ha : a.val = t.val / 4) (hn : n.val = (t.val % 4) * 1024 + r.val) :
    kb V c t (ix3 0 r d) = (V c main_v0 : S64x4096x64.Idx → EReal) (ix3 a n d) := by
  unfold kb iblk0
  rw [View.read_apply]
  show V c main_v0 _ = V c main_v0 _
  congr 1
  funext x
  apply Fin.ext
  match x with
  | ⟨0, _⟩ => show win0_0.index t 0 * 1 + 1 * 0 = a.val; rw [(idx0_0 t).1]; omega
  | ⟨1, _⟩ => show win0_0.index t 1 * 1024 + 1 * r.val = n.val; rw [(idx0_0 t).2.1]; omega
  | ⟨2, _⟩ => show win0_0.index t 2 * 64 + 1 * d.val = d.val; rw [(idx0_0 t).2.2]; omega

/-- The projection's block is the projection. -/
theorem pb_apply (c : Dev nD) (t : Fin cfg0.N) (m : Fin 256) (d : Fin 64) :
    pb V c t (ix2 m d) = (V c main_arg3 : S256x64.Idx → EReal) (ix2 m d) := by
  unfold pb iblk0
  rw [View.read_apply]
  show V c main_arg3 _ = V c main_arg3 _
  congr 1
  funext x
  apply Fin.ext
  match x with
  | ⟨0, _⟩ => show win0_1.index t 0 * 256 + 1 * m.val = m.val; rw [(idx0_1 t).1]; omega
  | ⟨1, _⟩ => show win0_1.index t 1 * 64 + 1 * d.val = d.val; rw [(idx0_1 t).2]; omega

/-- The block maximum at point t. -/
def Mpt (c : Dev nD) (t : Fin cfg0.N) : EReal := blkMax (kb V c t) (pb V c t)

/-- The running maximum after point n: the supremum of the block maxima of the points up to n. -/
theorem gAt0_apply (c : Dev nD) : ∀ (n : ℕ) (h : n < cfg0.N) (j : S1x1.Idx),
    gAt0 V c n h j = (Finset.univ.filter fun t : Fin cfg0.N => t.val ≤ n).sup (Mpt V c)
  | 0, h, j => by
    rw [gAt0_zero, out0_2_first_apply _ (coords0_zero ⟨0, h⟩ rfl).1 (coords0_zero ⟨0, h⟩ rfl).2]
    have hs : (Finset.univ.filter fun t : Fin cfg0.N => t.val ≤ 0) = {⟨0, h⟩} := by
      ext t; simp only [Finset.mem_filter, Finset.mem_univ, true_and, Finset.mem_singleton, Fin.ext_iff]; omega
    rw [hs, Finset.sup_singleton]; rfl
  | n + 1, h, j => by
    rw [gAt0_succ, out0_2_later_apply _ (coords0_pos ⟨n + 1, h⟩ (Nat.succ_ne_zero n)), gAt0_apply c n (Nat.lt_of_succ_lt h) j]
    have hs : (Finset.univ.filter fun t : Fin cfg0.N => t.val ≤ n + 1) = insert ⟨n + 1, h⟩ (Finset.univ.filter fun t : Fin cfg0.N => t.val ≤ n) := by
      ext t; simp only [Finset.mem_filter, Finset.mem_univ, true_and, Finset.mem_insert, Fin.ext_iff]; omega
    rw [hs, Finset.sup_insert, max_comm]; rfl

section Final
variable (c : Dev nD)

local notation "𝕂" => Cert.Spec.arr3 (V c main_v0 : S64x4096x64.Idx → EReal)
local notation "ℙ" => Cert.Spec.arr2 (V c main_arg3 : S256x64.Idx → EReal)

/-- An entry of the block at point t is the logit of slice t / 4, row (t % 4)·1024 + r. -/
theorem entry_eq (t : Fin cfg0.N) (r : Fin 1024) (m : Fin 256) (a : Fin 64) (n : Fin 4096)
    (ha : a.val = t.val / 4) (hn : n.val = (t.val % 4) * 1024 + r.val) :
    (∑ d : Fin 64, (kb V c t (ix3 0 r d) * Cert.Spec.cN) * pb V c t (ix2 m d)) = Cert.Spec.dd 𝕂 ℙ a n m := by
  unfold Cert.Spec.dd
  refine Finset.sum_congr rfl fun d _ => ?_
  rw [kb_apply V c t r d a n ha hn, pb_apply V c t m d]

/-- A block maximum is below the maximum over every slice, row and feature: its entries are among those. -/
theorem Mpt_le (t : Fin cfg0.N) : Mpt V c t ≤ Cert.Spec.gmax 𝕂 ℙ := by
  have hN : t.val < 256 := lt_of_lt_of_eq t.isLt (show cfg0.N = 256 from N_0)
  refine blkMax_le _ _ _ fun r m => ?_
  rw [entry_eq V c t r m ⟨t.val / 4, by omega⟩ ⟨(t.val % 4) * 1024 + r.val, by omega⟩ rfl rfl]
  exact Finset.le_sup (f := fun u : Fin 64 × Fin 4096 × Fin 256 => Cert.Spec.dd 𝕂 ℙ u.1 u.2.1 u.2.2)
    (Finset.mem_univ ((⟨t.val / 4, by omega⟩, ⟨(t.val % 4) * 1024 + r.val, by omega⟩, m) : Fin 64 × Fin 4096 × Fin 256))

/-- Every logit is an entry of the block of its slice and row tile. -/
theorem le_Mpt (a : Fin 64) (n : Fin 4096) (m : Fin 256) :
    Cert.Spec.dd 𝕂 ℙ a n m ≤ (Finset.univ : Finset (Fin cfg0.N)).sup (Mpt V c) := by
  have hN : cfg0.N = 256 := N_0
  obtain ⟨t, ht⟩ : ∃ t : Fin cfg0.N, t.val = 4 * a.val + n.val / 1024 := ⟨⟨4 * a.val + n.val / 1024, by rw [hN]; omega⟩, rfl⟩
  obtain ⟨r, hr⟩ : ∃ r : Fin 1024, r.val = n.val % 1024 := ⟨⟨n.val % 1024, Nat.mod_lt _ (by decide)⟩, rfl⟩
  rw [← entry_eq V c t r m a n (by omega) (by omega)]
  exact le_trans (le_blkMax (kb V c t) (pb V c t) r m) (Finset.le_sup (f := Mpt V c) (Finset.mem_univ t))

/-- The supremum of the block maxima over the grid is the maximum over every slice, row and feature. -/
theorem sup_Mpt : (Finset.univ : Finset (Fin cfg0.N)).sup (Mpt V c) = Cert.Spec.gmax 𝕂 ℙ :=
  le_antisymm (Finset.sup_le fun t _ => Mpt_le V c t)
    (Finset.sup_le fun u _ => le_Mpt V c u.1 u.2.1 u.2.2)

end Final

/-- The result window's block is the whole (1 × 1) array at every point. -/
theorem idx0_2 : ∀ t : Fin cfg0.N, ∀ a : Fin 2, win0_2.index t a * win0_2.size a = 0 ∧ win0_2.xsize (grid0.coords t) a = 1 :=
  (by decide +kernel : ∀ t : Fin grid0.N, ∀ a : Fin 2, win0_2.index t a * win0_2.size a = 0 ∧ win0_2.xsize (grid0.coords t) a = 1)

/-- The result array's contents after the region: the global maximum at its one index. -/
abbrev result0 (c : Dev nD) : Buf (Elt Ideal) ((c : Thread nD τ).loc main_v3) :=
  fun _ => Cert.Spec.gmax (Cert.Spec.arr3 (V c main_v0 : S64x4096x64.Idx → EReal)) (Cert.Spec.arr2 (V c main_arg3 : S256x64.Idx → EReal))

/-- After the last point the running maximum is the global one. -/
theorem gAt0_last (c : Dev nD) (t : Fin cfg0.N) (h255 : t.val = 255) : gAt0 V c t.val t.isLt = result0 V c := by
  have hN : cfg0.N = 256 := N_0
  funext y
  refine ((gAt0_apply V c t.val t.isLt y).trans ?_).trans (sup_Mpt V c)
  congr 1
  ext t'
  simp only [Finset.mem_filter, Finset.mem_univ, true_and, iff_true]
  have := t'.isLt; omega

/-- The one write-back, after the last point, writes it: block (0, 0) of the (1 × 1) array is the array. -/
theorem flushed0_2 (c : Dev nD) (dat : Dat τ (Elt Ideal) Unit ℕ (UR sig nD τ) ℕ cfg0 c)
    (hafter : ∀ t : Fin cfg0.N, dat.after 2 t = gAt0 V c t.val t.isLt) (t : Fin cfg0.N) (hf : (cfg0.win 2).flush t = true) :
    dat.flushed 2 t = ((cfg0.win 2).blk t).view.read (Elt Ideal) (result0 V c) := by
  have hN : cfg0.N = 256 := N_0
  have h255 : t.val = 255 := by have := (flush0_2 t).mp hf; have := t.isLt; omega
  show (cfg0.win 2).cut (grid0.coords t) (dat.after 2 t) = _
  rw [hafter, gAt0_last V c t h255]
  have hz' : (fun a => win0_2.index t a * main_v3.ty.shape.size a) = fun _ => 0 := funext fun a => (idx0_2 t a).1
  exact (Memref.read_access_unit_zero (Elt Ideal) main_v3 hz' (fun a => by rw [congrFun hz' a]; simp) (result0 V c)).symm

/-- The grid's last point. -/
abbrev tLast0 : Fin cfg0.N := ⟨255, by decide⟩

end Val0

open Val0 in
/-- The (1 × 1) result array after the region: the global maximum, for ANY proof data whose key and projection arrays are
    the region-entry contents and whose running-maximum buffer after each point is `gAt0`. -/
theorem arr0_of (c : Dev nD) (dat : Dat τ (Elt Ideal) Unit ℕ (UR sig nD τ) ℕ cfg0 c)
    (hafter : ∀ t : Fin cfg0.N, dat.after 2 t = gAt0 V c t.val t.isLt) :
    (dat.arrAt 2 cfg0.N : S1x1.Idx → EReal)
      = fun _ => Cert.Spec.gmax (Cert.Spec.arr3 (V c main_v0 : S64x4096x64.Idx → EReal)) (Cert.Spec.arr2 (V c main_arg3 : S256x64.Idx → EReal)) := by
  refine dat.arrAt_eq_of_cover 2 (result0 V c) (flushed0_2 V c dat hafter) fun i => ?_
  refine ⟨tLast0, (flush0_2 tLast0).mpr rfl, ?_⟩
  show i ∈ ((View.whole main_v3).slice (win0_2.rect tLast0)).set
  rw [View.set_slice_whole, Rect.mem_set_unit]
  intro a
  have hi : (i a : Nat) < 1 := by
    match a with
    | ⟨0, _⟩ => exact (i 0).isLt
    | ⟨1, _⟩ => exact (i 1).isLt
  rw [(idx0_2 tLast0 a).1, (idx0_2 tLast0 a).2]
  omega

end Cert.KernelIdeal.Hand

end
-- ==== Proof.KI.Val1.lean ====
/-
  The second region's result at the extended reals: slice bh of the context array is the sum over all 4096 rows of the keys' features (transposed) times the values.
-/
import proofs.«106060_j5274219839587_1_alg».proof.Proof.KI.R1Defs
import proofs.«106060_j5274219839587_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

namespace Val1

/-! ## The two contractions read at an entry -/

/-- The logits' contraction: (1024 × 64) against (256 × 64), over the feature axis of both. -/
abbrev Dk : DotDims S1024x64 S256x64 S1024x256 := dot_S1024x64_S256x64_S1024x256_1_1_0_0_n_n
/-- The context's contraction: (1024 × 256) against (1024 × 64), over the row axis of both. -/
abbrev Dc : DotDims S1024x256 S1024x64 S256x64 := dot_S1024x256_S1024x64_S256x64_0_0_1_1_n_n

theorem Dk_lhs0 (i : S1024x256.Idx) (q : Dk.contr.Idx) : (Dk.lhsIdx i q 0).val = (i 0).val := by
  unfold DotDims.lhsIdx
  rw [dif_neg (show ¬(0 : Fin S1024x64.rank) ∈ Dk.lhsBatch by decide), dif_pos (show (0 : Fin S1024x64.rank) ∈ Dk.lhsNonContracting by decide)]
  rfl
theorem Dk_lhs1 (i : S1024x256.Idx) (q : Dk.contr.Idx) : (Dk.lhsIdx i q 1).val = (q ⟨0, by decide⟩).val :=
  Dk.lhsIdx_val_of_single rfl i q
theorem Dk_rhs0 (i : S1024x256.Idx) (q : Dk.contr.Idx) : (Dk.rhsIdx i q 0).val = (i 1).val := by
  unfold DotDims.rhsIdx
  rw [dif_neg (show ¬(0 : Fin S256x64.rank) ∈ Dk.rhsBatch by decide), dif_pos (show (0 : Fin S256x64.rank) ∈ Dk.rhsNonContracting by decide)]
  rfl
theorem Dk_rhs1 (i : S1024x256.Idx) (q : Dk.contr.Idx) : (Dk.rhsIdx i q 1).val = (q ⟨0, by decide⟩).val :=
  Dk.rhsIdx_val_of_single rfl i q

/-- The logits' contraction at (r, m): the sum over the 64 features of left (r, d) times right (m, d). -/
theorem Dk_apply {φ₁ φ₂ : FTy} (A : FVec Ideal S1024x64 φ₁) (B : FVec Ideal S256x64 φ₂) (r : Fin 1024) (m : Fin 256) :
    matmul Dk none A B (constant S1024x256 .f32 0x00000000#32) (ix2 r m) = ∑ d : Fin 64, A (ix2 r d) * B (ix2 m d) := by
  simp only [matmul]
  rw [Ideal.matmul_constant_zero_apply, ← Equiv.sum_comp (contrEquiv1 Dk 64 rfl rfl).symm]
  refine Finset.sum_congr rfl fun k _ => ?_
  have hk := contrEquiv1_symm_val Dk 64 rfl rfl k
  have el : Dk.lhsIdx (ix2 r m) ((contrEquiv1 Dk 64 rfl rfl).symm k) = ix2 r k := funext fun a => Fin.ext (by
    match a with
    | ⟨0, _⟩ => exact Dk_lhs0 _ _
    | ⟨1, _⟩ => exact (Dk_lhs1 _ _).trans hk)
  have er : Dk.rhsIdx (ix2 r m) ((contrEquiv1 Dk 64 rfl rfl).symm k) = ix2 m k := funext fun a => Fin.ext (by
    match a with
    | ⟨0, _⟩ => exact Dk_rhs0 _ _
    | ⟨1, _⟩ => exact (Dk_rhs1 _ _).trans hk)
  rw [el, er]

theorem Dc_lhs0 (i : S256x64.Idx) (q : Dc.contr.Idx) : (Dc.lhsIdx i q 0).val = (q ⟨0, by decide⟩).val :=
  Dc.lhsIdx_val_of_single rfl i q
theorem Dc_lhs1 (i : S256x64.Idx) (q : Dc.contr.Idx) : (Dc.lhsIdx i q 1).val = (i 0).val := by
  unfold DotDims.lhsIdx
  rw [dif_neg (show ¬(1 : Fin S1024x256.rank) ∈ Dc.lhsBatch by decide), dif_pos (show (1 : Fin S1024x256.rank) ∈ Dc.lhsNonContracting by decide)]
  rfl
theorem Dc_rhs0 (i : S256x64.Idx) (q : Dc.contr.Idx) : (Dc.rhsIdx i q 0).val = (q ⟨0, by decide⟩).val :=
  Dc.rhsIdx_val_of_single rfl i q
theorem Dc_rhs1 (i : S256x64.Idx) (q : Dc.contr.Idx) : (Dc.rhsIdx i q 1).val = (i 1).val := by
  unfold DotDims.rhsIdx
  rw [dif_neg (show ¬(1 : Fin S1024x64.rank) ∈ Dc.rhsBatch by decide), dif_pos (show (1 : Fin S1024x64.rank) ∈ Dc.rhsNonContracting by decide)]
  rfl

/-- The context's contraction at (m, e): the sum over the 1024 rows of left (r, m) times right (r, e). -/
theorem Dc_apply {φ₁ φ₂ : FTy} (A : FVec Ideal S1024x256 φ₁) (B : FVec Ideal S1024x64 φ₂) (m : Fin 256) (e : Fin 64) :
    matmul Dc none A B (constant S256x64 .f32 0x00000000#32) (ix2 m e) = ∑ r : Fin 1024, A (ix2 r m) * B (ix2 r e) := by
  simp only [matmul]
  rw [Ideal.matmul_constant_zero_apply, ← Equiv.sum_comp (contrEquiv1 Dc 1024 rfl rfl).symm]
  refine Finset.sum_congr rfl fun k _ => ?_
  have hk := contrEquiv1_symm_val Dc 1024 rfl rfl k
  have el : Dc.lhsIdx (ix2 m e) ((contrEquiv1 Dc 1024 rfl rfl).symm k) = ix2 k m := funext fun a => Fin.ext (by
    match a with
    | ⟨0, _⟩ => exact (Dc_lhs0 _ _).trans hk
    | ⟨1, _⟩ => exact Dc_lhs1 _ _)
  have er : Dc.rhsIdx (ix2 m e) ((contrEquiv1 Dc 1024 rfl rfl).symm k) = ix2 k e := funext fun a => Fin.ext (by
    match a with
    | ⟨0, _⟩ => exact (Dc_rhs0 _ _).trans hk
    | ⟨1, _⟩ => exact Dc_rhs1 _ _)
  rw [el, er]

/-! ## The update's arithmetic at an entry -/

theorem hz2 : (![0, 0] : Fin 2 → Nat) = fun _ => 0 := funext fun a => by fin_cases a <;> rfl
theorem hz3 : (![0, 0, 0] : Fin 3 → Nat) = fun _ => 0 := funext fun a => by fin_cases a <;> rfl

/-- A sum over the feature axis of a (1024 × 64) vector, read at a row. -/
theorem rowsum_apply (Y : FVec Ideal S1024x64 .f32) (hφ : FKind.Formats .f32)
    (hacc : (0x00000000#32 : BitVec 32) = FKind.add.neutral .f32 hφ) (r : Fin 1024) :
    multiReduction .add [1] S1024 Y 0x00000000#32 reduces_S1024x64_S1024 hφ hacc (ix1 r) = ∑ d : Fin 64, Y (ix2 r d) := by
  refine (Ideal.multiReduction_add_single Y _ reduces_S1024x64_S1024 hφ hacc (ix1 r)).trans ?_
  refine Finset.sum_congr rfl fun d _ => congrArg Y (funext fun a => Fin.ext ?_)
  match a with
  | ⟨0, _⟩ => rfl
  | ⟨1, _⟩ => rfl

/-- A length-1024 vector cast to a (1024 × 1) column, read at a row. -/
theorem colcast_apply {α : Type} (y : S1024.Idx → α) (r : Fin 1024) (u : Fin 1) :
    shapeCast S1024x1 y shapeCasts_S1024_S1024x1 (ix2 r u) = y (ix1 r) :=
  shapeCast_apply y _ _ _ (by
    have hu : u.val = 0 := by omega
    rw [Shape.rowMajor_val_two, Shape.rowMajor_val_one]
    show r.val = r.val * 1 + u.val
    rw [hu]; omega)

/-- A (1024 × 1) column broadcast along the second axis, read at an index. -/
theorem colbcast_apply {α : Type} (v : S1024x1.Idx → α) (r : Fin 1024) (m : Fin 256) :
    broadcastTo S1024x256 v broadcasts_S1024x1_S1024x256 (ix2 r m) = v (ix2 r (0 : Fin 1)) := by
  refine broadcastTo_apply v _ (ix2 r m) (ix2 r (0 : Fin 1)) fun ax => ?_
  match ax with
  | ⟨0, _⟩ => rfl
  | ⟨1, _⟩ => rfl

/-- The (1 × 1) block broadcast to (1024 × 256), read at an index. -/
theorem onebcast_apply {α : Type} (v : S1x1.Idx → α) (r : Fin 1024) (m : Fin 256) :
    broadcastTo S1024x256 v broadcasts_S1x1_S1024x256 (ix2 r m) = v (ix2 (0 : Fin 1) (0 : Fin 1)) := by
  refine broadcastTo_apply v _ (ix2 r m) (ix2 (0 : Fin 1) (0 : Fin 1)) fun ax => ?_
  match ax with
  | ⟨0, _⟩ => rfl
  | ⟨1, _⟩ => rfl

/-- The block's projected logits, half squared norms and features, over explicit coordinates. -/
def ddB (x0 : Vec Ideal S1x1024x64 .f32) (x2 : Vec Ideal S256x64 .f32) (r : Fin 1024) (m : Fin 256) : EReal :=
  ∑ d : Fin 64, (x0 (ix3 (0 : Fin 1) r d) * Cert.Spec.cN) * x2 (ix2 m d)
def diagB (x0 : Vec Ideal S1x1024x64 .f32) (r : Fin 1024) : EReal :=
  (∑ d : Fin 64, x0 (ix3 (0 : Fin 1) r d) * x0 (ix3 (0 : Fin 1) r d)) * Cert.Spec.c16
def featB (x0 : Vec Ideal S1x1024x64 .f32) (x2 : Vec Ideal S256x64 .f32) (g : EReal) (r : Fin 1024) (m : Fin 256) : EReal :=
  Cert.Spec.c16 * (Ideal.exp ((ddB x0 x2 r m - diagB x0 r) - g) + Cert.Spec.cEps)

/-- The update's arithmetic at (m, e): the accumulator there plus the sum over the block's rows of the row's feature
    at m times the row's value at e. -/
theorem pay4_apply (x0 x1 : Vec Ideal S1x1024x64 .f32) (x2 : Vec Ideal S256x64 .f32) (x3 : Vec Ideal S1x1 .f32) (xs : Vec Ideal S256x64 .f32) (m : Fin 256) (e : Fin 64) :
    k1_pay4 (F := Ideal) x0 x1 x2 x3 xs (ix2 m e)
      = xs (ix2 m e) + ∑ r : Fin 1024, featB x0 x2 (x3 (ix2 (0 : Fin 1) (0 : Fin 1))) r m * x1 (ix3 (0 : Fin 1) r e) := by
  unfold k1_pay4
  refine congrArg (xs (ix2 m e) + ·) ((Dc_apply _ _ m e).trans (Finset.sum_congr rfl fun r _ => ?_))
  refine congrArg₂ (· * ·) ?_ (shapeCast_1ab_ab_apply x1 _ r e)
  unfold featB
  refine congrArg (Cert.Spec.c16 * ·) (congrArg (· + Cert.Spec.cEps) (congrArg Ideal.exp (congrArg₂ (· - ·) (congrArg₂ (· - ·) ?_ ?_) ?_)))
  · unfold ddB
    exact (Dk_apply _ _ r m).trans (Finset.sum_congr rfl fun d _ =>
      congrArg₂ (· * ·) (congrArg (· * Cert.Spec.cN) (shapeCast_1ab_ab_apply x0 _ r d)) rfl)
  · unfold diagB
    exact (colbcast_apply _ r m).trans (congrArg (· * Cert.Spec.c16) ((colcast_apply _ r 0).trans ((rowsum_apply _ _ _ r).trans
      (Finset.sum_congr rfl fun d _ => congrArg₂ (· * ·) (shapeCast_1ab_ab_apply x0 _ r d) (shapeCast_1ab_ab_apply x0 _ r d)))))
  · exact (onebcast_apply _ r m).trans (congrFun (shapeCast_self x3 _) _)

/-- The one store read back is the update's arithmetic on the five operands. -/
theorem acc1_eq (x0 x1 : Vec Ideal S1x1024x64 .f32) (x2 : Vec Ideal S256x64 .f32) (x3 : Vec Ideal S1x1 .f32) (xs : Vec Ideal S256x64 .f32) :
    acc1 x0 x1 x2 x3 xs = k1_pay4 (F := Ideal) x0 x1 x2 x3 xs := by
  unfold acc1
  rw [View.canon_unit_zero hz2]
  unfold k1_pay1
  rw [View.ld_unit_zero hz3, View.ld_unit_zero hz3, View.ld_unit_zero hz2, View.ld_unit_zero hz2, View.ld_unit_zero hz2]
  exact shapeCast_self _ _

/-- THE UPDATE at an entry: what the accumulator held plus the block's features (transposed) times its values. -/
theorem acc1_apply (x0 x1 : Vec Ideal S1x1024x64 .f32) (x2 : Vec Ideal S256x64 .f32) (x3 : Vec Ideal S1x1 .f32) (xs : Vec Ideal S256x64 .f32) (m : Fin 256) (e : Fin 64) :
    (acc1 x0 x1 x2 x3 xs : S256x64.Idx → EReal) (ix2 m e)
      = xs (ix2 m e) + ∑ r : Fin 1024, featB x0 x2 (x3 (ix2 (0 : Fin 1) (0 : Fin 1))) r m * x1 (ix3 (0 : Fin 1) r e) :=
  (congrFun (acc1_eq x0 x1 x2 x3 xs) _).trans (pay4_apply x0 x1 x2 x3 xs m e)

/-- The reset leaves zero everywhere. -/
theorem zero1_apply (j : S256x64.Idx) : (zero1 (F := Ideal) : S256x64.Idx → EReal) j = 0 := by
  unfold zero1
  rw [View.canon_unit_zero hz2]
  unfold k1_pay3
  exact (congrFun (shapeCast_self _ _) j).trans Ideal.ofBits_zero_f32

/-- The copy into the output buffer adds a leading unit axis. -/
theorem emit1_apply (s : Vec Ideal S256x64 .f32) (u : Fin 1) (m : Fin 256) (e : Fin 64) :
    (emit1 s : S1x256x64.Idx → EReal) (ix3 u m e) = s (ix2 m e) := by
  unfold emit1
  rw [View.canon_unit_zero hz3, View.ld_unit_zero hz2]
  unfold k1_pay2
  exact shapeCast_ab_1ab_apply s _ u m e

/-! ## The blocks at a point as entries of the arrays -/

section Points
variable (V : (c : Dev nD) → (b : Ref sig .tc) → Buf (Elt Ideal) ((c : Thread nD τ).loc b))

/-- The block indices of the five windows at every point `t = 4·bh + nt`: keys and values at (bh, nt, 0), the projection
    and the maximum at the origin, the context at (bh, 0, 0). -/
theorem idx1_0 : ∀ t : Fin cfg1.N, win1_0.index t 0 = t.val / 4 ∧ win1_0.index t 1 = t.val % 4 ∧ win1_0.index t 2 = 0 :=
  (by decide +kernel : ∀ t : Fin grid1.N, win1_0.index t 0 = t.val / 4 ∧ win1_0.index t 1 = t.val % 4 ∧ win1_0.index t 2 = 0)
theorem idx1_1 : ∀ t : Fin cfg1.N, win1_1.index t 0 = t.val / 4 ∧ win1_1.index t 1 = t.val % 4 ∧ win1_1.index t 2 = 0 :=
  (by decide +kernel : ∀ t : Fin grid1.N, win1_1.index t 0 = t.val / 4 ∧ win1_1.index t 1 = t.val % 4 ∧ win1_1.index t 2 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = t.val / 4 ∧ win1_4.index t 1 = 0 ∧ win1_4.index t 2 = 0 :=
  (by decide +kernel : ∀ t : Fin grid1.N, win1_4.index t 0 = t.val / 4 ∧ win1_4.index t 1 = 0 ∧ win1_4.index t 2 = 0)

/-- The keys' block at point `t`, row `r`: row `(t % 4)·1024 + r` of slice `t / 4`. -/
theorem iblk1_0_apply (c : Dev nD) (t : Fin cfg1.N) (u : Fin 1) (r : Fin 1024) (d : Fin 64) (k : S64x4096x64.Idx)
    (hk0 : (k 0).val = t.val / 4) (hk1 : (k 1).val = (t.val % 4) * 1024 + r.val) (hk2 : (k 2).val = d.val) :
    (iblk1 V c 0 t : Vec Ideal S1x1024x64 .f32) (ix3 u r d) = (V c main_v0 : S64x4096x64.Idx → EReal) k := by
  obtain ⟨h0, h1, h2⟩ := idx1_0 t
  have hu : u.val = 0 := by omega
  unfold iblk1
  rw [View.read_apply]
  show V c main_v0 _ = V c main_v0 _
  congr 1
  funext a
  apply Fin.ext
  match a with
  | ⟨0, _⟩ => show win1_0.index t 0 * 1 + 1 * u.val = (k 0).val; rw [h0, hk0, hu]; omega
  | ⟨1, _⟩ => show win1_0.index t 1 * 1024 + 1 * r.val = (k 1).val; rw [h1, hk1]; omega
  | ⟨2, _⟩ => show win1_0.index t 2 * 64 + 1 * d.val = (k 2).val; rw [h2, hk2]; omega

/-- The values' block likewise. -/
theorem iblk1_1_apply (c : Dev nD) (t : Fin cfg1.N) (u : Fin 1) (r : Fin 1024) (d : Fin 64) (k : S64x4096x64.Idx)
    (hk0 : (k 0).val = t.val / 4) (hk1 : (k 1).val = (t.val % 4) * 1024 + r.val) (hk2 : (k 2).val = d.val) :
    (iblk1 V c 1 t : Vec Ideal S1x1024x64 .f32) (ix3 u r d) = (V c main_v1 : S64x4096x64.Idx → EReal) k := by
  obtain ⟨h0, h1, h2⟩ := idx1_1 t
  have hu : u.val = 0 := by omega
  unfold iblk1
  rw [View.read_apply]
  show V c main_v1 _ = V c main_v1 _
  congr 1
  funext a
  apply Fin.ext
  match a with
  | ⟨0, _⟩ => show win1_1.index t 0 * 1 + 1 * u.val = (k 0).val; rw [h0, hk0, hu]; omega
  | ⟨1, _⟩ => show win1_1.index t 1 * 1024 + 1 * r.val = (k 1).val; rw [h1, hk1]; omega
  | ⟨2, _⟩ => show win1_1.index t 2 * 64 + 1 * d.val = (k 2).val; rw [h2, hk2]; omega

/-- The projection's block is the whole matrix. -/
theorem iblk1_2_apply (c : Dev nD) (t : Fin cfg1.N) (m : Fin 256) (d : Fin 64) :
    (iblk1 V c 2 t : Vec Ideal S256x64 .f32) (ix2 m d) = (V c main_arg3 : S256x64.Idx → EReal) (ix2 m d) := by
  obtain ⟨h0, h1⟩ := idx1_2 t
  unfold iblk1
  rw [View.read_apply]
  show V c main_arg3 _ = V c main_arg3 _
  congr 1
  funext a
  apply Fin.ext
  match a with
  | ⟨0, _⟩ => show win1_2.index t 0 * 256 + 1 * m.val = m.val; rw [h0]; omega
  | ⟨1, _⟩ => show win1_2.index t 1 * 64 + 1 * d.val = d.val; rw [h1]; omega

/-- The maximum's block is its one entry. -/
theorem iblk1_3_apply (c : Dev nD) (t : Fin cfg1.N) (u v : Fin 1) :
    (iblk1 V c 3 t : Vec Ideal S1x1 .f32) (ix2 u v) = (V c main_v3 : S1x1.Idx → EReal) (ix2 (0 : Fin 1) (0 : Fin 1)) := by
  obtain ⟨h0, h1⟩ := idx1_3 t
  have hu : u.val = 0 := by omega
  have hv : v.val = 0 := by omega
  unfold iblk1
  rw [View.read_apply]
  show V c main_v3 _ = V c main_v3 _
  congr 1
  funext a
  apply Fin.ext
  match a with
  | ⟨0, _⟩ => show win1_3.index t 0 * 1 + 1 * u.val = 0; rw [h0, hu]
  | ⟨1, _⟩ => show win1_3.index t 1 * 1 + 1 * v.val = 0; rw [h1, hv]

/-! ## The accumulation over the four points of a slice -/

/-- Row `r` of the `j`-th block of 1024 rows. -/
abbrev row (j : Fin 4) (r : Fin 1024) : Fin 4096 := ⟨j.val * 1024 + r.val, by omega⟩

/-- A sum over 4096 rows is the sum over the four blocks of 1024 rows. -/
theorem sum_rows (f : Fin 4096 → EReal) : ∑ n : Fin 4096, f n = ∑ j : Fin 4, ∑ r : Fin 1024, f (row j r) := by
  rw [← Equiv.sum_comp (finProdFinEquiv (m := 4) (n := 1024)) f, Fintype.sum_prod_type]
  refine Finset.sum_congr rfl fun j _ => Finset.sum_congr rfl fun r _ => congrArg f (Fin.ext ?_)
  show r.val + 1024 * j.val = j.val * 1024 + r.val
  omega

theorem hN1 : cfg1.N = 256 := by decide

section Blocks
variable (c : Dev nD)

/-- The operands as functions of their coordinates. -/
abbrev kK : Cert.Spec.T3 := Cert.Spec.arr3 (V c main_v0 : S64x4096x64.Idx → EReal)
abbrev kV : Cert.Spec.T3 := Cert.Spec.arr3 (V c main_v1 : S64x4096x64.Idx → EReal)
abbrev kP : Cert.Spec.T2 := Cert.Spec.arr2 (V c main_arg3 : S256x64.Idx → EReal)
abbrev kG : EReal := (V c main_v3 : S1x1.Idx → EReal) (ix2 (0 : Fin 1) (0 : Fin 1))

/-- At point `t = 4a + j` the block's features are the features of rows `j·1024 …` of slice `a`. -/
theorem featB_eq (t : Fin cfg1.N) (a : Fin 64) (j : Fin 4) (ht : t.val = 4 * a.val + j.val) (r : Fin 1024) (m : Fin 256) :
    featB (iblk1 V c 0 t) (iblk1 V c 2 t) ((iblk1 V c 3 t : Vec Ideal S1x1 .f32) (ix2 (0 : Fin 1) (0 : Fin 1))) r m
      = Cert.Spec.feat (kK V c) (kP V c) (kG V c) a (row j r) m := by
  have e0 : ∀ d : Fin 64, (iblk1 V c 0 t : Vec Ideal S1x1024x64 .f32) (ix3 (0 : Fin 1) r d) = kK V c a (row j r) d := fun d =>
    iblk1_0_apply V c t 0 r d (ix3 a (row j r) d) (by show a.val = t.val / 4; omega) (by show j.val * 1024 + r.val = t.val % 4 * 1024 + r.val; omega) rfl
  unfold featB Cert.Spec.feat
  refine congrArg (Cert.Spec.c16 * ·) (congrArg (· + Cert.Spec.cEps) (congrArg Ideal.exp (congrArg₂ (· - ·) (congrArg₂ (· - ·) ?_ ?_) ?_)))
  · unfold ddB Cert.Spec.dd
    exact Finset.sum_congr rfl fun d _ => congrArg₂ (· * ·) (congrArg (· * Cert.Spec.cN) (e0 d)) (iblk1_2_apply V c t m d)
  · unfold diagB Cert.Spec.diag
    exact congrArg (· * Cert.Spec.c16) (Finset.sum_congr rfl fun d _ => congrArg₂ (· * ·) (e0 d) (e0 d))
  · exact iblk1_3_apply V c t 0 0

/-- One block's addend: its rows' features times its rows' values. -/
def addend (a : Fin 64) (j : Fin 4) (m : Fin 256) (e : Fin 64) : EReal :=
  ∑ r : Fin 1024, Cert.Spec.feat (kK V c) (kP V c) (kG V c) a (row j r) m * kV V c a (row j r) e

theorem blocksum_eq (t : Fin cfg1.N) (a : Fin 64) (j : Fin 4) (ht : t.val = 4 * a.val + j.val) (m : Fin 256) (e : Fin 64) :
    (∑ r : Fin 1024, featB (iblk1 V c 0 t) (iblk1 V c 2 t) ((iblk1 V c 3 t : Vec Ideal S1x1 .f32) (ix2 (0 : Fin 1) (0 : Fin 1))) r m
        * (iblk1 V c 1 t : Vec Ideal S1x1024x64 .f32) (ix3 (0 : Fin 1) r e))
      = addend V c a j m e :=
  Finset.sum_congr rfl fun r _ => congrArg₂ (· * ·) (featB_eq V c t a j ht r m)
    (iblk1_1_apply V c t 0 r e (ix3 a (row j r) e) (by show a.val = t.val / 4; omega)
      (by show j.val * 1024 + r.val = t.val % 4 * 1024 + r.val; omega) rfl)

/-- The accumulator after the first point of a slice. -/
theorem sAt1_first (n : ℕ) (hn : n < cfg1.N) (a : Fin 64) (ht : n = 4 * a.val + (0 : Fin 4).val) (m : Fin 256) (e : Fin 64) :
    (sAt1 V c n hn : S256x64.Idx → EReal) (ix2 m e) = 0 + addend V c a 0 m e := by
  have h := sAt1_reset V c ⟨n, hn⟩ (by show n % 4 = 0; rw [ht]; show (4 * a.val + 0) % 4 = 0; omega)
  refine (congrFun h (ix2 m e)).trans ((acc1_apply _ _ _ _ _ m e).trans ?_)
  exact congrArg₂ (· + ·) (zero1_apply _) (blocksum_eq V c ⟨n, hn⟩ a 0 ht m e)

/-- … and after a later one: what the point before left plus this point's addend. -/
theorem sAt1_next (n n' : ℕ) (hn : n < cfg1.N) (hn' : n' < cfg1.N) (e' : n' = n + 1) (a : Fin 64) (j : Fin 4) (hj : j.val ≠ 0)
    (ht : n' = 4 * a.val + j.val) (m : Fin 256) (e : Fin 64) :
    (sAt1 V c n' hn' : S256x64.Idx → EReal) (ix2 m e) = (sAt1 V c n hn : S256x64.Idx → EReal) (ix2 m e) + addend V c a j m e := by
  subst e'
  have h0 : ¬(n + 1) % 4 = 0 := by have := j.isLt; omega
  rw [sAt1_succ, if_neg h0]
  exact (acc1_apply _ _ _ _ _ m e).trans (congrArg (_ + ·) (blocksum_eq V c ⟨n + 1, hn'⟩ a j ht m e))

/-- THE ACCUMULATION over a slice: after its last point the accumulator holds the sum over all 4096 rows. -/
theorem sAt1_last (a : Fin 64) (h3 : 4 * a.val + 3 < cfg1.N) (m : Fin 256) (e : Fin 64) :
    (sAt1 V c (4 * a.val + 3) h3 : S256x64.Idx → EReal) (ix2 m e)
      = Cert.Spec.ctx (kK V c) (kV V c) (kP V c) (kG V c) a m e := by
  have hN := hN1
  have ha := a.isLt
  rw [sAt1_next V c (4 * a.val + 2) (4 * a.val + 3) (by omega) h3 rfl a 3 (by decide) rfl m e,
    sAt1_next V c (4 * a.val + 1) (4 * a.val + 2) (by omega) (by omega) rfl a 2 (by decide) rfl m e,
    sAt1_next V c (4 * a.val) (4 * a.val + 1) (by omega) (by omega) rfl a 1 (by decide) rfl m e,
    sAt1_first V c (4 * a.val) (by omega) a rfl m e]
  unfold Cert.Spec.ctx
  rw [sum_rows, Fin.sum_univ_four, zero_add]
  rfl

end Blocks

/-! ## From the blocks written back to the array -/

section Final
variable (c : Dev nD)

/-- The context array as the formula gives it, entry by entry. -/
def ctxArr : S64x256x64.Idx → EReal := fun i =>
  Cert.Spec.ctx (kK V c) (kV V c) (kP V c) (kG V c) ⟨(i 0).val, (i 0).isLt⟩ ⟨(i 1).val, (i 1).isLt⟩ ⟨(i 2).val, (i 2).isLt⟩

theorem sAt1_congr (n n' : ℕ) (hn : n < cfg1.N) (hn' : n' < cfg1.N) (h : n = n') : sAt1 V c n hn = sAt1 V c n' hn' := by
  subst h; rfl

theorem emit1_apply' (s : Vec Ideal S256x64 .f32) (j : S1x256x64.Idx) (m : Fin 256) (e : Fin 64)
    (hm : (j 1).val = m.val) (he : (j 2).val = e.val) : (emit1 s : S1x256x64.Idx → EReal) j = s (ix2 m e) := by
  have hj : j = ix3 (⟨(j 0).val, (j 0).isLt⟩ : Fin 1) m e := funext fun a => Fin.ext (by
    match a with
    | ⟨0, _⟩ => rfl
    | ⟨1, _⟩ => exact hm
    | ⟨2, _⟩ => exact he)
  rw [hj]
  exact emit1_apply s _ m e

/-- What a point that writes its block back writes is its block of the formula's array. -/
theorem flushed1_eq (dat : Dat τ (Elt Ideal) Unit ℕ (UR sig nD τ) ℕ cfg1 c)
    (hafter : ∀ t : Fin cfg1.N, dat.after 4 t = emit1 (sAt1 V c t.val t.isLt)) (t : Fin cfg1.N)
    (hf : (cfg1.win 4).flush t = true) :
    dat.flushed 4 t = ((cfg1.win 4).blk t).view.read (Elt Ideal) (ctxArr V c) := by
  have hN := hN1
  have h3 : t.val % 4 = 3 := (flush1_4 t).mp hf
  have htl := t.isLt
  obtain ⟨i0, i1, i2⟩ := idx1_4 t
  funext y
  show dat.after 4 t ((cfg1.win 4).xinj (cfg1.grid.coords t) y) = _
  rw [hafter t, View.read_apply]
  have hy0 : (y 0).val < 1 := (y 0).isLt
  have hy1 : (y 1).val < 256 := (y 1).isLt
  have hy2 : (y 2).val < 64 := (y 2).isLt
  have ha : t.val / 4 < 64 := by omega
  have hta : 4 * (t.val / 4) + 3 < cfg1.N := by omega
  refine (emit1_apply' _ _ ⟨(y 1).val, hy1⟩ ⟨(y 2).val, hy2⟩ rfl rfl).trans ?_
  rw [sAt1_congr V c t.val (4 * (⟨t.val / 4, ha⟩ : Fin 64).val + 3) t.isLt hta (by show t.val = 4 * (t.val / 4) + 3; omega),
    sAt1_last V c ⟨t.val / 4, ha⟩ hta]
  show _ = ctxArr V c _
  unfold ctxArr
  congr 1
  · apply Fin.ext
    show t.val / 4 = win1_4.index t 0 * 1 + 1 * (y 0).val
    rw [i0]; omega
  · apply Fin.ext
    show (y 1).val = win1_4.index t 1 * 256 + 1 * (y 1).val
    rw [i1]; omega
  · apply Fin.ext
    show (y 2).val = win1_4.index t 2 * 64 + 1 * (y 2).val
    rw [i2]; omega

end Final

end Points

end Val1

variable (V : (c : Dev nD) → (b : Ref sig .tc) → Buf (Elt Ideal) ((c : Thread nD τ).loc b))

/-- The context array after the region, entry by entry, for ANY proof data whose output buffer after each point is the
    copy of the accumulator `sAt1`. The maximum the features are stabilised by is whatever the (1 × 1) operand holds. -/
theorem arr1_of (c : Dev nD) (dat : Dat τ (Elt Ideal) Unit ℕ (UR sig nD τ) ℕ cfg1 c)
    (hafter : ∀ t : Fin cfg1.N, dat.after 4 t = emit1 (sAt1 V c t.val t.isLt)) (a : Fin 64) (m : Fin 256) (e : Fin 64) :
    (dat.arrAt 4 cfg1.N : S64x256x64.Idx → EReal) (ix3 a m e)
      = Cert.Spec.ctx (Cert.Spec.arr3 (V c main_v0 : S64x4096x64.Idx → EReal)) (Cert.Spec.arr3 (V c main_v1 : S64x4096x64.Idx → EReal))
          (Cert.Spec.arr2 (V c main_arg3 : S256x64.Idx → EReal)) ((V c main_v3 : S1x1.Idx → EReal) (ix2 0 0)) a m e := by
  have hN := Val1.hN1
  have ha := a.isLt
  have ht : 4 * a.val + 3 < cfg1.N := by omega
  have hf : (cfg1.win 4).flush ⟨4 * a.val + 3, ht⟩ = true := (flush1_4 _).mpr (by show (4 * a.val + 3) % 4 = 3; omega)
  obtain ⟨i0, i1, i2⟩ := Val1.idx1_4 ⟨4 * a.val + 3, ht⟩
  refine (dat.arrAt_apply_of_mem 4 (Val1.ctxArr V c) (Val1.flushed1_eq V c dat hafter) cfg1.N ⟨4 * a.val + 3, ht⟩ (ix3 a m e) ht hf ?_).trans rfl
  show ix3 a m e ∈ ((View.whole main_v4).slice (win1_4.rect ⟨4 * a.val + 3, ht⟩)).set
  rw [View.set_slice_whole, Rect.mem_set_unit]
  intro ax
  match ax with
  | ⟨0, _⟩ =>
    show win1_4.index ⟨4 * a.val + 3, ht⟩ 0 * 1 ≤ a.val ∧ a.val < win1_4.index ⟨4 * a.val + 3, ht⟩ 0 * 1 + 1
    rw [i0]; show (4 * a.val + 3) / 4 * 1 ≤ a.val ∧ a.val < (4 * a.val + 3) / 4 * 1 + 1; omega
  | ⟨1, _⟩ =>
    show win1_4.index ⟨4 * a.val + 3, ht⟩ 1 * 256 ≤ m.val ∧ m.val < win1_4.index ⟨4 * a.val + 3, ht⟩ 1 * 256 + 256
    rw [i1]; have := m.isLt; omega
  | ⟨2, _⟩ =>
    show win1_4.index ⟨4 * a.val + 3, ht⟩ 2 * 64 ≤ e.val ∧ e.val < win1_4.index ⟨4 * a.val + 3, ht⟩ 2 * 64 + 64
    rw [i2]; have := e.isLt; omega

end Cert.KernelIdeal.Hand

end
-- ==== Proof.KI.Val2.lean ====
/-
  The third region's result at the extended reals: row n of slice bh of the output is the queries' features of that row times slice bh of the context array.
-/
import proofs.«106060_j5274219839587_1_alg».proof.Proof.KI.R2
import proofs.«106060_j5274219839587_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

namespace Val2

/-! ## The two products read at an index

Each product contracts one axis; its operand indices at an output index and a contraction position are read off
axis by axis, and the sum over the one-axis contraction shape is re-indexed by that axis's coordinate. -/

theorem lhsDD_0 (i : S1024x256.Idx) (q : dot_S1024x64_S256x64_S1024x256_1_1_0_0_n_n.contr.Idx) :
    (dot_S1024x64_S256x64_S1024x256_1_1_0_0_n_n.lhsIdx i q 0).val = (i 0).val := by
  unfold DotDims.lhsIdx
  rw [dif_neg (show ¬(0 : Fin S1024x64.rank) ∈ dot_S1024x64_S256x64_S1024x256_1_1_0_0_n_n.lhsBatch by decide), dif_pos (show (0 : Fin S1024x64.rank) ∈ dot_S1024x64_S256x64_S1024x256_1_1_0_0_n_n.lhsNonContracting by decide)]
  rfl
theorem lhsDD_1 (i : S1024x256.Idx) (q : dot_S1024x64_S256x64_S1024x256_1_1_0_0_n_n.contr.Idx) :
    (dot_S1024x64_S256x64_S1024x256_1_1_0_0_n_n.lhsIdx i q 1).val = (q ⟨0, by decide⟩).val :=
  dot_S1024x64_S256x64_S1024x256_1_1_0_0_n_n.lhsIdx_val_of_single rfl i q
theorem rhsDD_0 (i : S1024x256.Idx) (q : dot_S1024x64_S256x64_S1024x256_1_1_0_0_n_n.contr.Idx) :
    (dot_S1024x64_S256x64_S1024x256_1_1_0_0_n_n.rhsIdx i q 0).val = (i 1).val := by
  unfold DotDims.rhsIdx
  rw [dif_neg (show ¬(0 : Fin S256x64.rank) ∈ dot_S1024x64_S256x64_S1024x256_1_1_0_0_n_n.rhsBatch by decide), dif_pos (show (0 : Fin S256x64.rank) ∈ dot_S1024x64_S256x64_S1024x256_1_1_0_0_n_n.rhsNonContracting by decide)]
  rfl
theorem rhsDD_1 (i : S1024x256.Idx) (q : dot_S1024x64_S256x64_S1024x256_1_1_0_0_n_n.contr.Idx) :
    (dot_S1024x64_S256x64_S1024x256_1_1_0_0_n_n.rhsIdx i q 1).val = (q ⟨0, by decide⟩).val :=
  dot_S1024x64_S256x64_S1024x256_1_1_0_0_n_n.rhsIdx_val_of_single rfl i q

/-- Rows against rows: entry (r, m) of the first product is the sum over the feature axis of row r of the left
    operand times row m of the right one. -/
theorem matmulDD_apply (x : FVec Ideal S1024x64 .bf16) (y : FVec Ideal S256x64 .bf16) (r : Fin 1024) (m : Fin 256) :
    matmul dot_S1024x64_S256x64_S1024x256_1_1_0_0_n_n none x y (constant (F := Ideal) S1024x256 .f32 0x00000000#32) (ix2 r m)
      = ∑ d : Fin 64, x (ix2 r d) * y (ix2 m d) := by
  simp only [matmul]
  rw [Ideal.matmul_constant_zero_apply, ← Equiv.sum_comp (contrEquiv1 dot_S1024x64_S256x64_S1024x256_1_1_0_0_n_n 64 rfl rfl).symm]
  refine Finset.sum_congr rfl fun k _ => ?_
  have hk := contrEquiv1_symm_val dot_S1024x64_S256x64_S1024x256_1_1_0_0_n_n 64 rfl rfl k
  have el : dot_S1024x64_S256x64_S1024x256_1_1_0_0_n_n.lhsIdx (ix2 r m) ((contrEquiv1 dot_S1024x64_S256x64_S1024x256_1_1_0_0_n_n 64 rfl rfl).symm k) = ix2 r k := funext fun a => Fin.ext (by
    match a with
    | ⟨0, _⟩ => exact lhsDD_0 _ _
    | ⟨1, _⟩ => exact (lhsDD_1 _ _).trans hk)
  have er : dot_S1024x64_S256x64_S1024x256_1_1_0_0_n_n.rhsIdx (ix2 r m) ((contrEquiv1 dot_S1024x64_S256x64_S1024x256_1_1_0_0_n_n 64 rfl rfl).symm k) = ix2 m k := funext fun a => Fin.ext (by
    match a with
    | ⟨0, _⟩ => exact rhsDD_0 _ _
    | ⟨1, _⟩ => exact (rhsDD_1 _ _).trans hk)
  rw [el, er]

theorem lhsOut_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhsOut_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhsOut_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhsOut_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- Rows against columns: entry (r, e) of the second product is the sum over m of the left operand at (r, m)
    times the right one at (m, e). -/
theorem matmulOut_apply (x : FVec Ideal S1024x256 .bf16) (y : FVec Ideal S256x64 .bf16) (r : Fin 1024) (e : Fin 64) :
    matmul dot_S1024x256_S256x64_S1024x64_1_0_0_1_n_n none x y (constant (F := Ideal) S1024x64 .f32 0x00000000#32) (ix2 r e)
      = ∑ m : Fin 256, x (ix2 r m) * y (ix2 m e) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r e) ((contrEquiv1 dot_S1024x256_S256x64_S1024x64_1_0_0_1_n_n 256 rfl rfl).symm k) = ix2 r k := funext fun a => Fin.ext (by
    match a with
    | ⟨0, _⟩ => exact lhsOut_0 _ _
    | ⟨1, _⟩ => exact (lhsOut_1 _ _).trans hk)
  have er : dot_S1024x256_S256x64_S1024x64_1_0_0_1_n_n.rhsIdx (ix2 r e) ((contrEquiv1 dot_S1024x256_S256x64_S1024x64_1_0_0_1_n_n 256 rfl rfl).symm k) = ix2 k e := funext fun a => Fin.ext (by
    match a with
    | ⟨0, _⟩ => exact (rhsOut_0 _ _).trans hk
    | ⟨1, _⟩ => exact rhsOut_1 _ _)
  rw [el, er]

/-! ## Layout steps on a column of row values -/

/-- A vector of row values cast to a one-column matrix reads, at (r, 0), the vector at r. -/
theorem shapeCast_col_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A one-column matrix broadcast along its rows reads, at (r, m), the column at (r, 0). -/
theorem broadcastTo_col_apply {α : Type} (v : S1024x1.Idx → α) (h : S1024x1.Broadcasts S1024x256) (r : Fin 1024) (m : Fin 256) :
    broadcastTo S1024x256 v h (ix2 r m) = v (ix2 r (0 : Fin 1)) := by
  refine broadcastTo_apply v h (ix2 r m) (ix2 r (0 : Fin 1)) fun ax => ?_
  match ax with
  | ⟨0, _⟩ => rfl
  | ⟨1, _⟩ => rfl

/-! ## Reductions along a row -/

/-- The sum along a row of a (1024 × 64) matrix. -/
theorem rowSum_apply (x : FVec Ideal S1024x64 .f32) (hφ : FKind.Formats .f32) (hacc : (0x00000000#32 : BitVec 32) = FKind.add.neutral .f32 hφ)
    (r : Fin 1024) :
    multiReduction .add [1] S1024 x 0x00000000#32 reduces_S1024x64_S1024 hφ hacc (ix1 r) = ∑ d : Fin 64, x (ix2 r d) := by
  refine (Ideal.multiReduction_add_single x _ reduces_S1024x64_S1024 hφ hacc (ix1 r)).trans ?_
  show ∑ k : Fin 64, x (reduces_S1024x64_S1024.lift (ix1 r) k) = _
  refine Finset.sum_congr rfl fun k _ => congrArg x (funext fun a => Fin.ext ?_)
  match a with
  | ⟨0, _⟩ => rfl
  | ⟨1, _⟩ => rfl

/-- The single-precision word of minus infinity is the bottom of the extended reals. -/
theorem ofBits_neg_inf : Ideal.ofBits .f32 0xFF800000#32 = ⊥ := by simp [Ideal.ofBits, Ideal.ieee]

/-- The maximum along a row of a (1024 × 256) matrix, started from minus infinity, is the supremum of the row. -/
theorem rowMax_apply (x : FVec Ideal S1024x256 .f32) (hφ : FKind.Formats .f32) (hacc : (0xFF800000#32 : BitVec 32) = FKind.maximumf.neutral .f32 hφ)
    (r : Fin 1024) :
    multiReduction .maximumf [1] S1024 x 0xFF800000#32 reduces_S1024x256_S1024 hφ hacc (ix1 r)
      = Finset.univ.sup fun m : Fin 256 => x (ix2 r m) := by
  refine (Ideal.multiReduction_maximumf_single x _ reduces_S1024x256_S1024 hφ hacc (ix1 r)).trans ?_
  show (Finset.univ : Finset (Fin 256)).fold max (Ideal.ofBits .f32 0xFF800000#32) (x ∘ reduces_S1024x256_S1024.lift (ix1 r)) = _
  rw [ofBits_neg_inf]
  have e : (x ∘ reduces_S1024x256_S1024.lift (ix1 r)) = fun m : Fin 256 => x (ix2 r m) := funext fun k => congrArg x (funext fun a => Fin.ext (by
    match a with
    | ⟨0, _⟩ => rfl
    | ⟨1, _⟩ => rfl))
  rw [e]
  rfl

/-! ## The body's arithmetic, stage by stage

The stages are named as vectors over the two blocks they read: the queries as a matrix, the projected logits,
the scaled squared norm of each row, each row's largest logit, the feature map. The body's stored value is the
product of the feature map with the context block. -/

/-- The query block as a (1024 × 64) matrix. -/
def vq (x0 : Vec Ideal S1x1024x64 .f32) : FVec Ideal S1024x64 .f32 :=
  shapeCast S1024x64 x0 shapeCasts_S1x1024x64_S1024x64

/-- The projected logits: the scaled queries against the projection's rows. -/
def vdd (x0 : Vec Ideal S1x1024x64 .f32) (x1 : Vec Ideal S256x64 .f32) : FVec Ideal S1024x256 .f32 :=
  matmul dot_S1024x64_S256x64_S1024x256_1_1_0_0_n_n none
    (truncf .bf16 (mulf (vq x0) (broadcast S1024x64 (Scalar.ofBits .f32 0x3EB504F3#32))) bitsLt_bf16_f32)
    (truncf .bf16 x1 bitsLt_bf16_f32) (constant S1024x256 .f32 0x00000000#32)

/-- Each row's squared norm, scaled, as a column. -/
def vdiag (x0 : Vec Ideal S1x1024x64 .f32) : FVec Ideal S1024x1 .f32 :=
  mulf (shapeCast S1024x1 (multiReduction .add [1] S1024 (mulf (vq x0) (vq x0)) 0x00000000#32 reduces_S1024x64_S1024 (.inl rfl) rfl)
      shapeCasts_S1024_S1024x1) (broadcast S1024x1 (Scalar.ofBits .f32 0x3D800000#32))

/-- Each row's largest logit, as a column. -/
def vmax (x0 : Vec Ideal S1x1024x64 .f32) (x1 : Vec Ideal S256x64 .f32) : FVec Ideal S1024x1 .f32 :=
  shapeCast S1024x1 (multiReduction .maximumf [1] S1024 (vdd x0 x1) 0xFF800000#32 reduces_S1024x256_S1024 (.inl rfl) rfl)
    shapeCasts_S1024_S1024x1

/-- The feature map. -/
def vfeat (x0 : Vec Ideal S1x1024x64 .f32) (x1 : Vec Ideal S256x64 .f32) : FVec Ideal S1024x256 .f32 :=
  mulf (broadcast S1024x256 (Scalar.ofBits .f32 0x3D800000#32))
    (addf (exp (subf (subf (vdd x0 x1) (broadcastTo S1024x256 (vdiag x0) broadcasts_S1024x1_S1024x256))
        (broadcastTo S1024x256 (vmax x0 x1) broadcasts_S1024x1_S1024x256)))
      (broadcast S1024x256 (Scalar.ofBits .f32 0x38D1B717#32)))

/-- The stored value is the feature map times the context block, as a (1 × 1024 × 64) block. -/
theorem pay_stages (x0 : Vec Ideal S1x1024x64 .f32) (x1 : Vec Ideal S256x64 .f32) (x2 : Vec Ideal S1x256x64 .f32) :
    k2_pay1 x0 x1 x2 = shapeCast S1x1024x64
      (matmul dot_S1024x256_S256x64_S1024x64_1_0_0_1_n_n none (truncf .bf16 (vfeat x0 x1) bitsLt_bf16_f32)
        (truncf .bf16 (shapeCast S256x64 x2 shapeCasts_S1x256x64_S256x64) bitsLt_bf16_f32) (constant (F := Ideal) S1024x64 .f32 0x00000000#32))
      shapeCasts_S1024x64_S1x1024x64 := rfl

section AtARow
variable (x0 : Vec Ideal S1x1024x64 .f32) (x1 : Vec Ideal S256x64 .f32) (x2 : Vec Ideal S1x256x64 .f32)
  (Q : Cert.Spec.T3) (P : Cert.Spec.T2) (C : Cert.Spec.TC) (a : Fin 64) (n : Fin 4096) (r : Fin 1024)
  (h0 : ∀ d : Fin 64, x0 (ix3 (0 : Fin 1) r d) = Q a n d) (h1 : ∀ (m : Fin 256) (d : Fin 64), x1 (ix2 m d) = P m d)

include h0 in
theorem vq_eq (d : Fin 64) : vq x0 (ix2 r d) = Q a n d :=
  (shapeCast_1ab_ab_apply x0 shapeCasts_S1x1024x64_S1024x64 r d).trans (h0 d)

include h0 h1 in
/-- Row r of the block being row n of slice a of the queries, its logits are that row's. -/
theorem vdd_eq (m : Fin 256) : vdd x0 x1 (ix2 r m) = Cert.Spec.dd Q P a n m := by
  unfold vdd
  refine (matmulDD_apply _ _ r m).trans ?_
  unfold Cert.Spec.dd
  refine Finset.sum_congr rfl fun d _ => ?_
  show (vq x0 (ix2 r d) * Cert.Spec.cN) * x1 (ix2 m d) = _
  rw [vq_eq x0 Q a n r h0 d, h1 m d]

include h0 in
theorem vdiag_eq (u : Fin 1) : vdiag x0 (ix2 r u) = Cert.Spec.diag Q a n := by
  unfold vdiag
  show shapeCast S1024x1 _ shapeCasts_S1024_S1024x1 (ix2 r u) * Cert.Spec.c16 = _
  rw [shapeCast_col_apply]
  refine (congrArg (· * Cert.Spec.c16) (rowSum_apply _ _ _ r)).trans ?_
  unfold Cert.Spec.diag
  refine congrArg (· * Cert.Spec.c16) (Finset.sum_congr rfl fun d _ => ?_)
  show vq x0 (ix2 r d) * vq x0 (ix2 r d) = _
  rw [vq_eq x0 Q a n r h0 d]

include h0 h1 in
theorem vmax_eq (u : Fin 1) : vmax x0 x1 (ix2 r u) = Cert.Spec.rowmax Q P a n := by
  unfold vmax
  rw [shapeCast_col_apply]
  refine (rowMax_apply _ _ _ r).trans ?_
  unfold Cert.Spec.rowmax
  exact congrArg (Finset.univ.sup) (funext fun m => vdd_eq x0 x1 Q P a n r h0 h1 m)

include h0 h1 in
theorem vfeat_eq (m : Fin 256) : vfeat x0 x1 (ix2 r m) = Cert.Spec.feat Q P (Cert.Spec.rowmax Q P a n) a n m := by
  unfold vfeat
  show Cert.Spec.c16 * (Ideal.exp ((vdd x0 x1 (ix2 r m) - broadcastTo S1024x256 (vdiag x0) broadcasts_S1024x1_S1024x256 (ix2 r m))
      - broadcastTo S1024x256 (vmax x0 x1) broadcasts_S1024x1_S1024x256 (ix2 r m)) + Cert.Spec.cEps) = _
  rw [broadcastTo_col_apply, broadcastTo_col_apply, vdd_eq x0 x1 Q P a n r h0 h1 m, vdiag_eq x0 Q a n r h0, vmax_eq x0 x1 Q P a n r h0 h1]
  rfl

include h0 h1 in
/-- THE BODY'S VALUE AT (r, e): row r of the block being row n of slice a of the queries and the context block slice a
    of the context array, the stored value is the output formula at (a, n, e). -/
theorem pay_eq_out (e : Fin 64) (h2 : ∀ m : Fin 256, x2 (ix3 (0 : Fin 1) m e) = C a m e) :
    k2_pay1 x0 x1 x2 (ix3 (0 : Fin 1) r e) = Cert.Spec.out Q P C a n e := by
  rw [pay_stages]
  refine (shapeCast_ab_1ab_apply _ shapeCasts_S1024x64_S1x1024x64 0 r e).trans ?_
  refine (matmulOut_apply _ _ r e).trans ?_
  unfold Cert.Spec.out
  refine Finset.sum_congr rfl fun m _ => ?_
  show vfeat x0 x1 (ix2 r m) * shapeCast S256x64 x2 shapeCasts_S1x256x64_S256x64 (ix2 m e) = _
  rw [vfeat_eq x0 x1 Q P a n r h0 h1 m, shapeCast_1ab_ab_apply, h2 m]

end AtARow

/-! ## From blocks to the array

Point t = 4·a + b of the (64 × 4) grid reads rows b·1024 … of slice a of the queries, the whole projection and slice a
of the context array, and writes rows b·1024 … of slice a of the output. -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices of the four windows at point t, decided over the grid. -/
theorem idx_facts : ∀ t : Fin cfg2.N,
    win2_0.index t (0 : Fin 3) = t.val / 4 ∧ win2_0.index t (1 : Fin 3) = t.val % 4 ∧ win2_0.index t (2 : Fin 3) = 0
    ∧ win2_1.index t (0 : Fin 2) = 0 ∧ win2_1.index t (1 : Fin 2) = 0
    ∧ win2_2.index t (0 : Fin 3) = t.val / 4 ∧ win2_2.index t (1 : Fin 3) = 0 ∧ win2_2.index t (2 : Fin 3) = 0
    ∧ win2_3.index t (0 : Fin 3) = t.val / 4 ∧ win2_3.index t (1 : Fin 3) = t.val % 4 ∧ win2_3.index t (2 : Fin 3) = 0 :=
  (by decide +kernel : ∀ t : Fin grid2.N, _)

/-- The body's value at a block index j, when the three blocks are rows b·1024 … of slice a of X0, all of X1 and slice a
    of X2: the output formula at the array index i that j is in the block at (a, b). -/
theorem block_val (X0 : S64x4096x64.Idx → EReal) (X1 : S256x64.Idx → EReal) (X2 : S64x256x64.Idx → EReal)
    (x0 : Vec Ideal S1x1024x64 .f32) (x1 : Vec Ideal S256x64 .f32) (x2 : Vec Ideal S1x256x64 .f32) (a : Fin 64) (b : Fin 4)
    (h0 : ∀ (r : Fin 1024) (d : Fin 64), x0 (ix3 (0 : Fin 1) r d) = X0 (ix3 a (⟨b.val * 1024 + r.val, by omega⟩ : Fin 4096) d))
    (h1 : ∀ (m : Fin 256) (d : Fin 64), x1 (ix2 m d) = X1 (ix2 m d))
    (h2 : ∀ (m : Fin 256) (e : Fin 64), x2 (ix3 (0 : Fin 1) m e) = X2 (ix3 a m e))
    (j : S1x1024x64.Idx) (i : S64x4096x64.Idx) (hi0 : (i 0).val = a.val) (hi1 : (i 1).val = b.val * 1024 + (j 1).val)
    (hi2 : (i 2).val = (j 2).val) :
    k2_pay1 x0 x1 x2 j = Cert.Spec.out (Cert.Spec.arr3 X0) (Cert.Spec.arr2 X1) (Cert.Spec.arrC X2) (i 0) (i 1) (i 2) := by
  obtain ⟨u, r, e, rfl⟩ : ∃ (u : Fin 1) (r : Fin 1024) (e : Fin 64), j = ix3 u r e := ⟨j 0, j 1, j 2, eq_ix3 j⟩
  obtain rfl : u = 0 := Subsingleton.elim _ _
  obtain ⟨a', n, e', rfl⟩ : ∃ (a' : Fin 64) (n : Fin 4096) (e' : Fin 64), i = ix3 a' n e' := ⟨i 0, i 1, i 2, eq_ix3 i⟩
  obtain rfl : a' = a := Fin.ext hi0
  obtain rfl : e' = e := Fin.ext hi2
  have en : n = (⟨b.val * 1024 + r.val, by omega⟩ : Fin 4096) := Fin.ext hi1
  exact pay_eq_out x0 x1 x2 (Cert.Spec.arr3 X0) (Cert.Spec.arr2 X1) (Cert.Spec.arrC X2) a' n r (fun d => by rw [en]; exact h0 r d) h1 e'
    (fun m => h2 m e')

section Array
variable (V : (c : Dev nD) → (b : Ref sig .tc) → Buf (Elt Ideal) ((c : Thread nD τ).loc b))

/-- The output array as ONE function of the three arrays the region reads, entry by entry. -/
abbrev outArr (c : Dev nD) : S64x4096x64.Idx → EReal := fun j =>
  Cert.Spec.out (Cert.Spec.arr3 (V c main_v2 : S64x4096x64.Idx → EReal)) (Cert.Spec.arr2 (V c main_arg3 : S256x64.Idx → EReal))
    (Cert.Spec.arrC (V c main_v4 : S64x256x64.Idx → EReal)) (j 0) (j 1) (j 2)

/-- WHAT POINT t WRITES BACK is block t of that function. -/
theorem flushed_eq (c : Dev nD) (dat : Dat τ (Elt Ideal) Unit ℕ (UR sig nD τ) ℕ cfg2 c)
    (hafter : ∀ t : Fin cfg2.N, dat.after 3 t = out2_3 (iblk2 V c 0 t) (iblk2 V c 1 t) (iblk2 V c 2 t)) (t : Fin cfg2.N) :
    dat.flushed 3 t = ((cfg2.win 3).blk t).view.read (Elt Ideal) (outArr V c) := by
  show (cfg2.win 3).cut (grid2.coords t) (dat.after 3 t) = _
  rw [hafter]
  unfold out2_3
  rw [View.canon_unit_zero hz3]
  simp only [View.ld_unit_zero (S := S1x1024x64) hz3, View.ld_unit_zero (S := S256x64) hz2, View.ld_unit_zero (S := S1x256x64) hz3]
  obtain ⟨f00, f01, f02, f10, f11, f20, f21, f22, f30, f31, f32⟩ := idx_facts t
  have hN : t.val < 256 := Nat.lt_of_lt_of_eq t.isLt N_2
  funext j
  have hj0 : (j 0).val < 1 := (j 0).isLt
  have hj1 : (j 1).val < 1024 := (j 1).isLt
  have hj2 : (j 2).val < 64 := (j 2).isLt
  show k2_pay1 (iblk2 V c 0 t) (iblk2 V c 1 t) (iblk2 V c 2 t) j = outArr V c (((cfg2.win 3).blk t).view.emb j)
  refine block_val (V c main_v2) (V c main_arg3) (V c main_v4) (iblk2 V c 0 t) (iblk2 V c 1 t) (iblk2 V c 2 t)
    (⟨t.val / 4, by omega⟩ : Fin 64) (⟨t.val % 4, by omega⟩ : Fin 4) ?_ ?_ ?_ j (((cfg2.win 3).blk t).view.emb j) ?_ ?_ ?_
  · intro r d
    show V c main_v2 (((cfg2.win 0).blk t).view.emb (ix3 (0 : Fin 1) r d)) = V c main_v2 _
    refine congrArg (V c main_v2) (funext fun ax => Fin.ext ?_)
    match ax with
    | ⟨0, _⟩ => show win2_0.index t (0 : Fin 3) * 1 + 1 * 0 = t.val / 4; omega
    | ⟨1, _⟩ => show win2_0.index t (1 : Fin 3) * 1024 + 1 * r.val = t.val % 4 * 1024 + r.val; omega
    | ⟨2, _⟩ => show win2_0.index t (2 : Fin 3) * 64 + 1 * d.val = d.val; omega
  · intro m d
    show V c main_arg3 (((cfg2.win 1).blk t).view.emb (ix2 m d)) = V c main_arg3 _
    refine congrArg (V c main_arg3) (funext fun ax => Fin.ext ?_)
    match ax with
    | ⟨0, _⟩ => show win2_1.index t (0 : Fin 2) * 256 + 1 * m.val = m.val; omega
    | ⟨1, _⟩ => show win2_1.index t (1 : Fin 2) * 64 + 1 * d.val = d.val; omega
  · intro m e
    show V c main_v4 (((cfg2.win 2).blk t).view.emb (ix3 (0 : Fin 1) m e)) = V c main_v4 _
    refine congrArg (V c main_v4) (funext fun ax => Fin.ext ?_)
    match ax with
    | ⟨0, _⟩ => show win2_2.index t (0 : Fin 3) * 1 + 1 * 0 = t.val / 4; omega
    | ⟨1, _⟩ => show win2_2.index t (1 : Fin 3) * 256 + 1 * m.val = m.val; omega
    | ⟨2, _⟩ => show win2_2.index t (2 : Fin 3) * 64 + 1 * e.val = e.val; omega
  · show win2_3.index t (0 : Fin 3) * 1 + 1 * (j 0).val = t.val / 4; omega
  · show win2_3.index t (1 : Fin 3) * 1024 + 1 * (j 1).val = t.val % 4 * 1024 + (j 1).val; omega
  · show win2_3.index t (2 : Fin 3) * 64 + 1 * (j 2).val = (j 2).val; omega

/-- An index of the array is in point t's block iff each coordinate is in the block's range on its axis. -/
theorem mem_blk (t : Fin cfg2.N) (i : S64x4096x64.Idx) :
    i ∈ ((cfg2.win 3).blk t).view.set ↔ ∀ a : Fin 3, win2_3.index t a * S1x1024x64.size a ≤ (i a).val
      ∧ (i a).val < win2_3.index t a * S1x1024x64.size a + S1x1024x64.size a := by
  show i ∈ ((View.whole main_v5).slice (win2_3.rect t)).set ↔ _
  rw [View.set_slice_whole, Rect.mem_set_unit]
  exact Iff.rfl

/-- Every index of the output is in the block of the point 4·(slice) + (row / 1024), which writes it back. -/
theorem covered (i : S64x4096x64.Idx) : ∃ t : Fin cfg2.N, (cfg2.win 3).flush t = true ∧ i ∈ ((cfg2.win 3).blk t).view.set := by
  have hi0 : (i 0).val < 64 := (i 0).isLt
  have hi1 : (i 1).val < 4096 := (i 1).isLt
  have hi2 : (i 2).val < 64 := (i 2).isLt
  have hlt : (i 0).val * 4 + (i 1).val / 1024 < cfg2.N := Nat.lt_of_lt_of_eq (by omega : (i 0).val * 4 + (i 1).val / 1024 < 256) N_2.symm
  obtain ⟨t, ht⟩ : ∃ t : Fin cfg2.N, t.val = (i 0).val * 4 + (i 1).val / 1024 := ⟨⟨_, hlt⟩, rfl⟩
  obtain ⟨-, -, -, -, -, -, -, -, f30, f31, f32⟩ := idx_facts t
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 64 ≤ (i 2).val ∧ (i 2).val < win2_3.index t (2 : Fin 3) * 64 + 64; omega

end Array

end Val2

variable (V : (c : Dev nD) → (b : Ref sig .tc) → Buf (Elt Ideal) ((c : Thread nD τ).loc b))

/-- The output array after the region, entry by entry, for ANY proof data whose output buffer after each point is
    `out2_3` of the three input blocks. -/
theorem arr2_of (c : Dev nD) (dat : Dat τ (Elt Ideal) Unit ℕ (UR sig nD τ) ℕ cfg2 c)
    (hafter : ∀ t : Fin cfg2.N, dat.after 3 t = out2_3 (iblk2 V c 0 t) (iblk2 V c 1 t) (iblk2 V c 2 t)) (a : Fin 64) (n : Fin 4096) (e : Fin 64) :
    (dat.arrAt 3 cfg2.N : S64x4096x64.Idx → EReal) (ix3 a n e)
      = Cert.Spec.out (Cert.Spec.arr3 (V c main_v2 : S64x4096x64.Idx → EReal)) (Cert.Spec.arr2 (V c main_arg3 : S256x64.Idx → EReal))
          (Cert.Spec.arrC (V c main_v4 : S64x256x64.Idx → EReal)) a n e :=
  congrFun (dat.arrAt_eq_of_cover 3 (Val2.outArr V c) (fun t _ => Val2.flushed_eq V c dat hafter t) (Val2.covered)) (ix3 a n e)

end Cert.KernelIdeal.Hand

end
-- ==== Proof.KI.Compose.lean ====
/-
  The kernel program's result at the extended reals.

  The three reshapes before the regions flatten the 4 × 16 grid of slices of the keys, the values and the queries to 64
  slices; the first region leaves the keys' global maximum in its (1 × 1) array, the second the context array from the keys,
  the values and that maximum, the third the output from the queries and the context array; the last reshape unflattens
  it. So the result at (b, h, n, e) is `Spec.kernelOut` of the flattened arguments at slice 16 b + h.
-/
import proofs.«106060_j5274219839587_1_alg».proof.Proof.KI.Args
import proofs.«106060_j5274219839587_1_alg».proof.Proof.KI.Val0
import proofs.«106060_j5274219839587_1_alg».proof.Proof.KI.Val1
import proofs.«106060_j5274219839587_1_alg».proof.Proof.KI.Val2
import proofs.«106060_j5274219839587_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The reshapes, read at an index -/

/-- Slice `a` of the flattened array is slice (a / 16, a % 16) of the grid: the two indices have one row-major position. -/
theorem reshape_in (X : S4x16x4096x64.Idx → EReal) (a : Fin 64) (n : Fin 4096) (d : Fin 64) :
    shapeCast S64x4096x64 X shapeCasts_S4x16x4096x64_S64x4096x64 (ix3 a n d)
      = X (ix4 (⟨a.val / 16, by have := a.isLt; omega⟩ : Fin 4) (⟨a.val % 16, Nat.mod_lt _ (by decide)⟩ : Fin 16) n d) :=
  shapeCast_apply X _ _ _ (by
    rw [Shape.rowMajor_val_four, Shape.rowMajor_val_three]
    show (((a.val / 16) * 16 + a.val % 16) * 4096 + n.val) * 64 + d.val = (a.val * 4096 + n.val) * 64 + d.val
    have h : a.val / 16 * 16 + a.val % 16 = a.val := by omega
    rw [h])

theorem reshape_flat (X : S4x16x4096x64.Idx → EReal) :
    Cert.Spec.arr3 (shapeCast S64x4096x64 X shapeCasts_S4x16x4096x64_S64x4096x64) = Cert.Spec.flat (Cert.Spec.arr4 X) := by
  funext a n d
  exact reshape_in X a n d

/-- Slice (b, h) of the unflattened array is slice 16 b + h. -/
theorem reshape_out (Y : S64x4096x64.Idx → EReal) (b : Fin 4) (h : Fin 16) (n : Fin 4096) (e : Fin 64) :
    shapeCast S4x16x4096x64 Y shapeCasts_S64x4096x64_S4x16x4096x64 (ix4 b h n e) = Y (ix3 (Cert.Spec.fl b h) n e) :=
  shapeCast_apply Y _ _ _ (by
    rw [Shape.rowMajor_val_three, Shape.rowMajor_val_four]
    show ((16 * b.val + h.val) * 4096 + n.val) * 64 + e.val = (((b.val * 16 + h.val) * 4096 + n.val) * 64 + e.val)
    rw [Nat.mul_comm 16 b.val])

/-! ## What the host operations write -/

theorem W1_v0 (c : Dev nD) : (W1 m ρ c (Proc.devRef .tc main_v0) : S64x4096x64.Idx → EReal)
    = shapeCast S64x4096x64 (m ((c : Thread nD τ).loc main_arg1)) shapeCasts_S4x16x4096x64_S64x4096x64 := by
  show StableHlo.after hostOps0 _ (Proc.devRef .tc main_v0) = _
  after_results; rfl
theorem W1_v1 (c : Dev nD) : (W1 m ρ c (Proc.devRef .tc main_v1) : S64x4096x64.Idx → EReal)
    = shapeCast S64x4096x64 (m ((c : Thread nD τ).loc main_arg2)) shapeCasts_S4x16x4096x64_S64x4096x64 := by
  show StableHlo.after hostOps0 _ (Proc.devRef .tc main_v1) = _
  after_results; rfl
theorem W1_v2 (c : Dev nD) : (W1 m ρ c (Proc.devRef .tc main_v2) : S64x4096x64.Idx → EReal)
    = shapeCast S64x4096x64 (m ((c : Thread nD τ).loc main_arg0)) shapeCasts_S4x16x4096x64_S64x4096x64 := by
  show StableHlo.after hostOps0 _ (Proc.devRef .tc main_v2) = _
  after_results; rfl
theorem W5_v6 (c : Dev nD) : (W5 m ρ c (Proc.devRef .tc main_v6) : S4x16x4096x64.Idx → EReal)
    = shapeCast S4x16x4096x64 (W4 m ρ c (Proc.devRef .tc main_v5)) shapeCasts_S64x4096x64_S4x16x4096x64 := by
  show StableHlo.after hostOps3 _ (Proc.devRef .tc main_v6) = _
  after_results; rfl

/-! ## Each region's operands -/

/-- The first region finds the flattened keys and the projection. -/
theorem V1_keys (c : Dev nD) : Cert.Spec.arr3 (V1 m ρ c main_v0 : S64x4096x64.Idx → EReal)
    = Cert.Spec.flat (Cert.Spec.arr4 (m ((c : Thread nD τ).loc main_arg1))) := by
  rw [show (V1 m ρ c main_v0 : S64x4096x64.Idx → EReal) = _ from W1_v0 m ρ c]; exact reshape_flat _
theorem V1_proj (c : Dev nD) : (V1 m ρ c main_arg3 : S256x64.Idx → EReal) = m ((c : Thread nD τ).loc main_arg3) :=
  W1_main_arg3 m ρ c

/-- The second region finds the flattened keys and values, the projection, and the first region's maximum. -/
theorem V2_keys (c : Dev nD) : Cert.Spec.arr3 (V2 m ρ c main_v0 : S64x4096x64.Idx → EReal)
    = Cert.Spec.flat (Cert.Spec.arr4 (m ((c : Thread nD τ).loc main_arg1))) := by
  rw [show (V2 m ρ c main_v0 : S64x4096x64.Idx → EReal) = W1 m ρ c (Proc.devRef .tc main_v0) from W2_in m ρ c 0 rfl]
  exact V1_keys m ρ c
theorem V2_vals (c : Dev nD) : Cert.Spec.arr3 (V2 m ρ c main_v1 : S64x4096x64.Idx → EReal)
    = Cert.Spec.flat (Cert.Spec.arr4 (m ((c : Thread nD τ).loc main_arg2))) := by
  rw [show (V2 m ρ c main_v1 : S64x4096x64.Idx → EReal) = W1 m ρ c (Proc.devRef .tc main_v1) from W2_of_ne m ρ c main_v1 (by decide),
    W1_v1 m ρ c]
  exact reshape_flat _
theorem V2_proj (c : Dev nD) : (V2 m ρ c main_arg3 : S256x64.Idx → EReal) = m ((c : Thread nD τ).loc main_arg3) :=
  W2_main_arg3 m ρ c
theorem V2_gmax (c : Dev nD) : (V2 m ρ c main_v3 : S1x1.Idx → EReal) (ix2 0 0)
    = Cert.Spec.gmax (Cert.Spec.flat (Cert.Spec.arr4 (m ((c : Thread nD τ).loc main_arg1)))) (Cert.Spec.arr2 (m ((c : Thread nD τ).loc main_arg3))) := by
  rw [show (V2 m ρ c main_v3 : S1x1.Idx → EReal) = (dat0 (V1 m ρ) c).arrAt 2 cfg0.N from W2_arr m ρ c 2,
    arr0_of (V1 m ρ) c (dat0 (V1 m ρ) c) (after0_2 (V1 m ρ) c), V1_keys m ρ c, V1_proj m ρ c]

/-- The third region finds the flattened queries, the projection, and the second region's context array. -/
theorem V3_queries (c : Dev nD) : Cert.Spec.arr3 (V3 m ρ c main_v2 : S64x4096x64.Idx → EReal)
    = Cert.Spec.flat (Cert.Spec.arr4 (m ((c : Thread nD τ).loc main_arg0))) := by
  rw [show (V3 m ρ c main_v2 : S64x4096x64.Idx → EReal) = W2 m ρ c (Proc.devRef .tc main_v2) from W3_of_ne m ρ c main_v2 (by decide),
    show W2 m ρ c (Proc.devRef .tc main_v2) = W1 m ρ c (Proc.devRef .tc main_v2) from W2_of_ne m ρ c main_v2 (by decide),
    W1_v2 m ρ c]
  exact reshape_flat _
theorem V3_proj (c : Dev nD) : (V3 m ρ c main_arg3 : S256x64.Idx → EReal) = m ((c : Thread nD τ).loc main_arg3) :=
  W3_main_arg3 m ρ c
theorem V3_ctx (c : Dev nD) : Cert.Spec.arrC (V3 m ρ c main_v4 : S64x256x64.Idx → EReal)
    = Cert.Spec.ctx (Cert.Spec.flat (Cert.Spec.arr4 (m ((c : Thread nD τ).loc main_arg1)))) (Cert.Spec.flat (Cert.Spec.arr4 (m ((c : Thread nD τ).loc main_arg2))))
        (Cert.Spec.arr2 (m ((c : Thread nD τ).loc main_arg3)))
        (Cert.Spec.gmax (Cert.Spec.flat (Cert.Spec.arr4 (m ((c : Thread nD τ).loc main_arg1)))) (Cert.Spec.arr2 (m ((c : Thread nD τ).loc main_arg3)))) := by
  funext a mm e
  show (V3 m ρ c main_v4 : S64x256x64.Idx → EReal) (ix3 a mm e) = _
  rw [show (V3 m ρ c main_v4 : S64x256x64.Idx → EReal) = (dat1 (V2 m ρ) c).arrAt 4 cfg1.N from W3_arr m ρ c 4,
    arr1_of (V2 m ρ) c (dat1 (V2 m ρ) c) (after1_4 (V2 m ρ) c) a mm e, V2_keys m ρ c, V2_vals m ρ c, V2_proj m ρ c, V2_gmax m ρ c]

/-! ## The result -/

/-- THE KERNEL'S VALUE: the result array at (b, h, n, e) is the 64-slice formula of the flattened arguments at slice 16 b + h. -/
theorem kernel_value (c : Dev nD) (b : Fin 4) (h : Fin 16) (n : Fin 4096) (e : Fin 64) :
    (W5 m ρ c (Proc.devRef .tc main_v6) : S4x16x4096x64.Idx → EReal) (ix4 b h n e)
      = Cert.Spec.kernelOut (Cert.Spec.flat (Cert.Spec.arr4 (m ((c : Thread nD τ).loc main_arg0)))) (Cert.Spec.flat (Cert.Spec.arr4 (m ((c : Thread nD τ).loc main_arg1))))
          (Cert.Spec.flat (Cert.Spec.arr4 (m ((c : Thread nD τ).loc main_arg2)))) (Cert.Spec.arr2 (m ((c : Thread nD τ).loc main_arg3))) (Cert.Spec.fl b h) n e := by
  rw [W5_v6 m ρ c, reshape_out,
    show (W4 m ρ c (Proc.devRef .tc main_v5) : S64x4096x64.Idx → EReal) = (dat2 (V3 m ρ) c).arrAt 3 cfg2.N from W4_arr m ρ c 3,
    arr2_of (V3 m ρ) c (dat2 (V3 m ρ) c) (after2_3 (V3 m ρ) c) (Cert.Spec.fl b h) n e, V3_queries m ρ c, V3_proj m ρ c, V3_ctx m ρ c]
  rfl

end Cert.KernelIdeal.Hand

end
-- ==== Proof.Ref.lean ====
/-
  The reference program's result, read index by index: at the extended reals it is `Spec.refOut` of the four arguments.
-/
import proofs.«106060_j5274219839587_1_alg».proof.Proof.Gen.ReferenceIdeal.Read
import proofs.«106060_j5274219839587_1_alg».proof.Proof.Spec
import Idealize.ShloMosaic.Lib.ReduceAll

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open scoped BigOperators

/-! ## The two maxima

A maximum taken from −∞ over a finite family is the family's supremum in the extended reals: the word of −∞ denotes ⊥,
and a fold of `max` from ⊥ is `Finset.sup`. Over one axis the family is indexed by that axis's coordinate; over every
axis it is indexed by all four coordinates, and the supremum over indices is the supremum over coordinate tuples because
every index is the index of its coordinates (each supremum is below the other by its universal property). -/

/-- The word of −∞ denotes the bottom of the extended reals. -/
theorem ofBits_neg_inf : Ideal.ofBits .f32 0xFF800000#32 = (⊥ : EReal) := by simp [Ideal.ofBits, Ideal.ieee]

/-- A fold of `max` from ⊥ over a finite set is the set's supremum. -/
theorem fold_max_bot {ι : Type} (s : Finset ι) (f : ι → EReal) : s.fold max ⊥ f = s.sup f := rfl

/-- The per-row maximum %10 at (b, h, n): the supremum over m of the logits %2 at (b, h, n, m). -/
theorem v10_at (x0 : (⟨S4x16x4096x64, .f32⟩ : BufTy).Contents (Elt Ideal)) (x3 : (⟨S256x64, .f32⟩ : BufTy).Contents (Elt Ideal))
    (b : Fin 4) (h : Fin 16) (n : Fin 4096) :
    val_main_v10 (F := Ideal) x0 x3 (ix3 b h n)
      = Finset.univ.sup fun m : Fin 256 => val_main_v2 (F := Ideal) x0 x3 (ix4 b h n m) := by
  unfold val_main_v10
  generalize val_main_v2 (F := Ideal) x0 x3 = y
  have hR : S4x16x4096x256.Reduces [3] S4x16x4096 := by decide
  rw [Host.reduce_eq_fold_single (FloatOps.maximumf (F := Ideal) (φ := .f32)) y (val_main_cst_3 (F := Ideal)) reducesTo_S4x16x4096x256_S4x16x4096_d3 hR h_S_ (ix3 b h n)]
  show Finset.fold max (Ideal.ofBits .f32 0xFF800000#32) (fun m : Fin 256 => y (hR.lift (ix3 b h n) m)) Finset.univ = _
  rw [ofBits_neg_inf, fold_max_bot]
  refine congrArg (Finset.sup Finset.univ) (funext fun m => congrArg y ?_)
  exact funext fun a => Fin.ext (by match a with | ⟨0, _⟩ => rfl | ⟨1, _⟩ => rfl | ⟨2, _⟩ => rfl | ⟨3, _⟩ => rfl)

/-- The global maximum %31: the supremum over (b, h, n, m) of the logits %23 at (b, h, n, m). -/
theorem v31_at (x1 : (⟨S4x16x4096x64, .f32⟩ : BufTy).Contents (Elt Ideal)) (x3 : (⟨S256x64, .f32⟩ : BufTy).Contents (Elt Ideal))
    (i : S_.Idx) :
    val_main_v31 (F := Ideal) x1 x3 i
      = Finset.univ.sup fun t : Fin 4 × Fin 16 × Fin 4096 × Fin 256 =>
          val_main_v23 (F := Ideal) x1 x3 (ix4 t.1 t.2.1 t.2.2.1 t.2.2.2) := by
  unfold val_main_v31
  generalize val_main_v23 (F := Ideal) x1 x3 = y
  rw [Host.reduce_eq_fold (FloatOps.maximumf (F := Ideal) (φ := .f32)) y (val_main_cst_10 (F := Ideal)) reducesTo_S4x16x4096x256_S_d0_1_2_3 h_S_ i]
  rw [Finset.filter_true_of_mem (fun j _ => funext fun a => a.elim0)]
  show Finset.fold max (Ideal.ofBits .f32 0xFF800000#32) y Finset.univ = _
  rw [ofBits_neg_inf, fold_max_bot]
  apply le_antisymm
  · refine Finset.sup_le fun j _ => ?_
    have e := Finset.le_sup (f := fun t : Fin 4 × Fin 16 × Fin 4096 × Fin 256 => y (ix4 t.1 t.2.1 t.2.2.1 t.2.2.2))
      (Finset.mem_univ (j 0, j 1, j 2, j 3))
    rw [eq_ix4 j]
    exact e
  · exact Finset.sup_le fun t _ => Finset.le_sup (f := y) (Finset.mem_univ _)

/-! ## The queries' side: stages %0 … %20 at their coordinates -/

/-- The logits %2 at (b, h, n, m): Σ_d (c · x b h n d) · p m d. -/
theorem v2_at (x : (⟨S4x16x4096x64, .f32⟩ : BufTy).Contents (Elt Ideal)) (p : (⟨S256x64, .f32⟩ : BufTy).Contents (Elt Ideal)) (b : Fin 4) (h : Fin 16) (n : Fin 4096) (m : Fin 256) :
    val_main_v2 (F := Ideal) x p (ix4 b h n m) = Cert.Spec.dd4 (Cert.Spec.arr4 x) (Cert.Spec.arr2 p) b h n m := by
  rw [val_main_v2_apply]
  unfold Cert.Spec.dd4
  refine Finset.sum_congr rfl fun d _ => ?_
  have el : lidx_main_v2 (ix4 b h n m) d = ix4 b h n d := funext fun a => Fin.ext (by match a with | ⟨0, _⟩ => rfl | ⟨1, _⟩ => rfl | ⟨2, _⟩ => rfl | ⟨3, _⟩ => rfl)
  have er : ridx_main_v2 (ix4 b h n m) d = ix2 m d := funext fun a => Fin.ext (by match a with | ⟨0, _⟩ => rfl | ⟨1, _⟩ => rfl)
  rw [el, er, val_main_v1_apply, val_main_v0_apply, val_main_cst_apply]
  rfl

/-- The squared norm %4 at (b, h, n): the sum from the zero word is Σ_d x b h n d · x b h n d. -/
theorem v4_at (x : (⟨S4x16x4096x64, .f32⟩ : BufTy).Contents (Elt Ideal)) (b : Fin 4) (h : Fin 16) (n : Fin 4096) :
    val_main_v4 (F := Ideal) x (ix3 b h n) = ∑ d : Fin 64, x (ix4 b h n d) * x (ix4 b h n d) := by
  rw [val_main_v4_apply, val_main_cst_0_apply]
  show Ideal.ofBits .f32 0x00000000#32 + _ = _
  rw [Ideal.ofBits_zero_f32, zero_add]
  refine Finset.sum_congr rfl fun d _ => ?_
  have e : idx_main_v4 (ix3 b h n) d = ix4 b h n d := funext fun a => Fin.ext (by match a with | ⟨0, _⟩ => rfl | ⟨1, _⟩ => rfl | ⟨2, _⟩ => rfl | ⟨3, _⟩ => rfl)
  rw [e]
  rfl

/-- The scaled squared norm %9 at (b, h, n, ·): (Σ_d x² · 1/2) · 1/8. -/
theorem v9_at (x : (⟨S4x16x4096x64, .f32⟩ : BufTy).Contents (Elt Ideal)) (b : Fin 4) (h : Fin 16) (n : Fin 4096) (z : Fin 1) :
    val_main_v9 (F := Ideal) x (ix4 b h n z) = Cert.Spec.diag4 (Cert.Spec.arr4 x) b h n := by
  have e5 : idx_main_v5 (ix4 b h n z) = ix3 b h n := funext fun a => Fin.ext (by match a with | ⟨0, _⟩ => rfl | ⟨1, _⟩ => rfl | ⟨2, _⟩ => rfl)
  rw [val_main_v9_apply, val_main_v7_apply, val_main_v5_apply, e5, v4_at, val_main_v6_apply, val_main_v8_apply,
    val_main_cst_1_apply, val_main_cst_2_apply]
  rfl

/-- The per-row maximum %10 at (b, h, n) is the row's supremum of the projected logits. -/
theorem v10_eq (x : (⟨S4x16x4096x64, .f32⟩ : BufTy).Contents (Elt Ideal)) (p : (⟨S256x64, .f32⟩ : BufTy).Contents (Elt Ideal)) (b : Fin 4) (h : Fin 16) (n : Fin 4096) :
    val_main_v10 (F := Ideal) x p (ix3 b h n) = Cert.Spec.rowmax4 (Cert.Spec.arr4 x) (Cert.Spec.arr2 p) b h n := by
  rw [v10_at]
  unfold Cert.Spec.rowmax4
  exact congrArg (Finset.sup Finset.univ) (funext fun m => v2_at x p b h n m)

/-- The queries' feature map %20 at (b, h, n, m): (1/16) · (exp (logit − norm − row maximum) + ε). -/
theorem v20_at (x : (⟨S4x16x4096x64, .f32⟩ : BufTy).Contents (Elt Ideal)) (p : (⟨S256x64, .f32⟩ : BufTy).Contents (Elt Ideal)) (b : Fin 4) (h : Fin 16) (n : Fin 4096) (m : Fin 256) :
    val_main_v20 (F := Ideal) x p (ix4 b h n m)
      = Cert.Spec.feat4 (Cert.Spec.arr4 x) (Cert.Spec.arr2 p) (Cert.Spec.rowmax4 (Cert.Spec.arr4 x) (Cert.Spec.arr2 p) b h n) b h n m := by
  have e12 : idx_main_v12 (ix4 b h n m) = ix4 b h n (⟨0, Nat.one_pos⟩ : Fin 1) := funext fun a => Fin.ext (by match a with | ⟨0, _⟩ => rfl | ⟨1, _⟩ => rfl | ⟨2, _⟩ => rfl | ⟨3, _⟩ => rfl)
  have e14 : idx_main_v14 (ix4 b h n m) = ix4 b h n (⟨0, Nat.one_pos⟩ : Fin 1) := funext fun a => Fin.ext (by match a with | ⟨0, _⟩ => rfl | ⟨1, _⟩ => rfl | ⟨2, _⟩ => rfl | ⟨3, _⟩ => rfl)
  have e11 : idx_main_v11 (ix4 b h n (⟨0, Nat.one_pos⟩ : Fin 1)) = ix3 b h n := funext fun a => Fin.ext (by match a with | ⟨0, _⟩ => rfl | ⟨1, _⟩ => rfl | ⟨2, _⟩ => rfl)
  rw [val_main_v20_apply, val_main_v19_apply, val_main_cst_5_apply, val_main_v18_apply, val_main_v17_apply,
    val_main_cst_4_apply, val_main_v16_apply, val_main_v15_apply, val_main_v13_apply, v2_at, val_main_v12_apply, e12,
    v9_at, val_main_v14_apply, e14, val_main_v11_apply, e11, v10_eq]
  rfl

/-! ## The keys' side: stages %21 … %40 at their coordinates -/

/-- The logits %23 at (b, h, n, m): Σ_d (c · x b h n d) · p m d. -/
theorem v23_at (x : (⟨S4x16x4096x64, .f32⟩ : BufTy).Contents (Elt Ideal)) (p : (⟨S256x64, .f32⟩ : BufTy).Contents (Elt Ideal)) (b : Fin 4) (h : Fin 16) (n : Fin 4096) (m : Fin 256) :
    val_main_v23 (F := Ideal) x p (ix4 b h n m) = Cert.Spec.dd4 (Cert.Spec.arr4 x) (Cert.Spec.arr2 p) b h n m := by
  rw [val_main_v23_apply]
  unfold Cert.Spec.dd4
  refine Finset.sum_congr rfl fun d _ => ?_
  have el : lidx_main_v23 (ix4 b h n m) d = ix4 b h n d := funext fun a => Fin.ext (by match a with | ⟨0, _⟩ => rfl | ⟨1, _⟩ => rfl | ⟨2, _⟩ => rfl | ⟨3, _⟩ => rfl)
  have er : ridx_main_v23 (ix4 b h n m) d = ix2 m d := funext fun a => Fin.ext (by match a with | ⟨0, _⟩ => rfl | ⟨1, _⟩ => rfl)
  rw [el, er, val_main_v22_apply, val_main_v21_apply, val_main_cst_6_apply]
  rfl

/-- The squared norm %25 at (b, h, n): the sum from the zero word is Σ_d x b h n d · x b h n d. -/
theorem v25_at (x : (⟨S4x16x4096x64, .f32⟩ : BufTy).Contents (Elt Ideal)) (b : Fin 4) (h : Fin 16) (n : Fin 4096) :
    val_main_v25 (F := Ideal) x (ix3 b h n) = ∑ d : Fin 64, x (ix4 b h n d) * x (ix4 b h n d) := by
  rw [val_main_v25_apply, val_main_cst_7_apply]
  show Ideal.ofBits .f32 0x00000000#32 + _ = _
  rw [Ideal.ofBits_zero_f32, zero_add]
  refine Finset.sum_congr rfl fun d _ => ?_
  have e : idx_main_v25 (ix3 b h n) d = ix4 b h n d := funext fun a => Fin.ext (by match a with | ⟨0, _⟩ => rfl | ⟨1, _⟩ => rfl | ⟨2, _⟩ => rfl | ⟨3, _⟩ => rfl)
  rw [e]
  rfl

/-- The scaled squared norm %30 at (b, h, n, ·): (Σ_d x² · 1/2) · 1/8. -/
theorem v30_at (x : (⟨S4x16x4096x64, .f32⟩ : BufTy).Contents (Elt Ideal)) (b : Fin 4) (h : Fin 16) (n : Fin 4096) (z : Fin 1) :
    val_main_v30 (F := Ideal) x (ix4 b h n z) = Cert.Spec.diag4 (Cert.Spec.arr4 x) b h n := by
  have e26 : idx_main_v26 (ix4 b h n z) = ix3 b h n := funext fun a => Fin.ext (by match a with | ⟨0, _⟩ => rfl | ⟨1, _⟩ => rfl | ⟨2, _⟩ => rfl)
  rw [val_main_v30_apply, val_main_v28_apply, val_main_v26_apply, e26, v25_at, val_main_v27_apply, val_main_v29_apply,
    val_main_cst_8_apply, val_main_cst_9_apply]
  rfl

/-- The global maximum %31 is the supremum of the keys' projected logits over every slice, row and feature. -/
theorem v31_eq (x : (⟨S4x16x4096x64, .f32⟩ : BufTy).Contents (Elt Ideal)) (p : (⟨S256x64, .f32⟩ : BufTy).Contents (Elt Ideal)) (i : S_.Idx) :
    val_main_v31 (F := Ideal) x p i = Cert.Spec.gmax4 (Cert.Spec.arr4 x) (Cert.Spec.arr2 p) := by
  rw [v31_at]
  unfold Cert.Spec.gmax4
  exact congrArg (Finset.sup Finset.univ) (funext fun t => v23_at x p t.1 t.2.1 t.2.2.1 t.2.2.2)

/-- The keys' feature map %40 at (b, h, n, m): (1/16) · (exp (logit − norm − global maximum) + ε). -/
theorem v40_at (x : (⟨S4x16x4096x64, .f32⟩ : BufTy).Contents (Elt Ideal)) (p : (⟨S256x64, .f32⟩ : BufTy).Contents (Elt Ideal)) (b : Fin 4) (h : Fin 16) (n : Fin 4096) (m : Fin 256) :
    val_main_v40 (F := Ideal) x p (ix4 b h n m)
      = Cert.Spec.feat4 (Cert.Spec.arr4 x) (Cert.Spec.arr2 p) (Cert.Spec.gmax4 (Cert.Spec.arr4 x) (Cert.Spec.arr2 p)) b h n m := by
  have e32 : idx_main_v32 (ix4 b h n m) = ix4 b h n (⟨0, Nat.one_pos⟩ : Fin 1) := funext fun a => Fin.ext (by match a with | ⟨0, _⟩ => rfl | ⟨1, _⟩ => rfl | ⟨2, _⟩ => rfl | ⟨3, _⟩ => rfl)
  rw [val_main_v40_apply, val_main_v39_apply, val_main_cst_12_apply, val_main_v38_apply, val_main_v37_apply,
    val_main_cst_11_apply, val_main_v36_apply, val_main_v35_apply, val_main_v33_apply, v23_at, val_main_v32_apply, e32,
    v30_at, val_main_v34_apply, v31_eq]
  rfl

/-! ## The two contractions -/

/-- The context %41 at (b, h, m, e): Σ_n featK b h n m · v b h n e. -/
theorem v41_at (x1 x2 : (⟨S4x16x4096x64, .f32⟩ : BufTy).Contents (Elt Ideal)) (p : (⟨S256x64, .f32⟩ : BufTy).Contents (Elt Ideal)) (b : Fin 4) (h : Fin 16) (m : Fin 256) (e : Fin 64) :
    val_main_v41 (F := Ideal) x1 x2 p (ix4 b h m e)
      = Cert.Spec.ctx4 (Cert.Spec.arr4 x1) (Cert.Spec.arr4 x2) (Cert.Spec.arr2 p) b h m e := by
  rw [val_main_v41_apply]
  unfold Cert.Spec.ctx4
  refine Finset.sum_congr rfl fun n _ => ?_
  have el : lidx_main_v41 (ix4 b h m e) n = ix4 b h n m := funext fun a => Fin.ext (by match a with | ⟨0, _⟩ => rfl | ⟨1, _⟩ => rfl | ⟨2, _⟩ => rfl | ⟨3, _⟩ => rfl)
  have er : ridx_main_v41 (ix4 b h m e) n = ix4 b h n e := funext fun a => Fin.ext (by match a with | ⟨0, _⟩ => rfl | ⟨1, _⟩ => rfl | ⟨2, _⟩ => rfl | ⟨3, _⟩ => rfl)
  rw [el, er, v40_at]

/-- The reference's result at index (b, h, n, e) is the 4 × 16-slice formula of the four arguments. -/
theorem val_eq_spec (x0 x1 x2 : (⟨S4x16x4096x64, .f32⟩ : BufTy).Contents (Elt Ideal)) (x3 : (⟨S256x64, .f32⟩ : BufTy).Contents (Elt Ideal))
    (b : Fin 4) (h : Fin 16) (n : Fin 4096) (e : Fin 64) :
    val_main_v42 (F := Ideal) x0 x1 x2 x3 (ix4 b h n e)
      = Cert.Spec.refOut (Cert.Spec.arr4 x0) (Cert.Spec.arr4 x1) (Cert.Spec.arr4 x2) (Cert.Spec.arr2 x3) b h n e := by
  rw [val_main_v42_apply]
  unfold Cert.Spec.refOut
  refine Finset.sum_congr rfl fun m _ => ?_
  have el : lidx_main_v42 (ix4 b h n e) m = ix4 b h n m := funext fun a => Fin.ext (by match a with | ⟨0, _⟩ => rfl | ⟨1, _⟩ => rfl | ⟨2, _⟩ => rfl | ⟨3, _⟩ => rfl)
  have er : ridx_main_v42 (ix4 b h n e) m = ix4 b h m e := funext fun a => Fin.ext (by match a with | ⟨0, _⟩ => rfl | ⟨1, _⟩ => rfl | ⟨2, _⟩ => rfl | ⟨3, _⟩ => rfl)
  rw [el, er, v20_at, v41_at]

end Cert.ReferenceIdeal.RefValue

end
-- ==== Proof.Bridge.lean ====
/-
  The two formulas agree: the reference's result on the 4 × 16 grid of slices is the kernel's on the 64 flattened slices.

  Three laws of the extended reals join them: multiplication commutes (c · x against x · c); (s · 1/2) · 1/8 = s · 1/16 because
  multiplication is associative and the three constants are exact dyadics; and a maximum (a sum) over the grid of slices
  is the maximum (the sum) over the flattened slices, the flattening being a bijection.
-/
import proofs.«106060_j5274219839587_1_alg».proof.Proof.Spec
import Mathlib.Data.EReal.Basic
import Mathlib.Algebra.BigOperators.Fin
import Mathlib.Order.CompleteLattice.Finset

noncomputable section

open scoped BigOperators

namespace Cert.Spec

open Idealize.ShloMosaic

/-! ## The three dyadic constants -/

/-- The word 0x3F000000 denotes 1/2. -/
theorem cHalf_eq : cHalf = ((1 / 2 : ℝ) : EReal) := by
  unfold cHalf; simp [Ideal.ofBits, Ideal.ieee, -EReal.coe_mul]; norm_num

/-- The word 0x3E000000 denotes 1/8. -/
theorem c8_eq : c8 = ((1 / 8 : ℝ) : EReal) := by
  unfold c8; simp [Ideal.ofBits, Ideal.ieee, -EReal.coe_mul]; norm_num

/-- The word 0x3D800000 denotes 1/16. -/
theorem c16_eq : c16 = ((1 / 16 : ℝ) : EReal) := by
  unfold c16; simp [Ideal.ofBits, Ideal.ieee, -EReal.coe_mul]; norm_num

/-- 1/2 · 1/8 = 1/16, a product of reals. -/
theorem cHalf_mul_c8 : cHalf * c8 = c16 := by
  rw [cHalf_eq, c8_eq, c16_eq, ← EReal.coe_mul]; norm_num

/-! ## Flattening is a bijection of slices -/

/-- The grid row of a flattened slice. -/
def unB (a : Fin 64) : Fin 4 := ⟨a.val / 16, by have := a.isLt; omega⟩
/-- The grid column of a flattened slice. -/
def unH (a : Fin 64) : Fin 16 := ⟨a.val % 16, Nat.mod_lt _ (by decide)⟩

theorem flat_apply (x : U4) (a : Fin 64) : flat x a = x (unB a) (unH a) := rfl

theorem unB_fl (b : Fin 4) (h : Fin 16) : unB (fl b h) = b := by
  apply Fin.ext; show (16 * b.val + h.val) / 16 = b.val; have := h.isLt; omega

theorem unH_fl (b : Fin 4) (h : Fin 16) : unH (fl b h) = h := by
  apply Fin.ext; show (16 * b.val + h.val) % 16 = h.val; have := h.isLt; omega

theorem fl_un (a : Fin 64) : fl (unB a) (unH a) = a := by
  apply Fin.ext; show 16 * (a.val / 16) + a.val % 16 = a.val; omega

/-- Slice 16 b + h of the flattened array is slice (b, h) of the grid. -/
theorem flat_fl (x : U4) (b : Fin 4) (h : Fin 16) : flat x (fl b h) = x b h := by
  rw [flat_apply, unB_fl, unH_fl]

/-! ## The formulas, innermost first -/

/-- The projected logits: c · x = x · c. -/
theorem dd4_eq (x : U4) (p : T2) (b : Fin 4) (h : Fin 16) (n : Fin 4096) (m : Fin 256) :
    dd4 x p b h n m = dd (flat x) p (fl b h) n m := by
  unfold dd4 dd
  rw [flat_fl]
  exact Finset.sum_congr rfl fun d _ => by rw [mul_comm cN]

/-- The scaled squared norm: (s · 1/2) · 1/8 = s · (1/2 · 1/8) = s · 1/16. -/
theorem diag4_eq (x : U4) (b : Fin 4) (h : Fin 16) (n : Fin 4096) :
    diag4 x b h n = diag (flat x) (fl b h) n := by
  unfold diag4 diag
  rw [flat_fl, mul_assoc, cHalf_mul_c8]

/-- The row maximum: the same maximum over the features m. -/
theorem rowmax4_eq (q : U4) (p : T2) (b : Fin 4) (h : Fin 16) (n : Fin 4096) :
    rowmax4 q p b h n = rowmax (flat q) p (fl b h) n := by
  unfold rowmax4 rowmax
  exact Finset.sup_congr rfl fun m _ => dd4_eq q p b h n m

/-- The global maximum: every term over the grid is a term over the flattened slices, and conversely. -/
theorem gmax4_eq (k : U4) (p : T2) : gmax4 k p = gmax (flat k) p := by
  unfold gmax4 gmax
  apply le_antisymm
  · refine Finset.sup_le fun t _ => ?_
    rw [dd4_eq]
    exact Finset.le_sup (f := fun t : Fin 64 × Fin 4096 × Fin 256 => dd (flat k) p t.1 t.2.1 t.2.2)
      (Finset.mem_univ (fl t.1 t.2.1, t.2.2.1, t.2.2.2))
  · refine Finset.sup_le fun t _ => ?_
    have e : dd (flat k) p t.1 t.2.1 t.2.2 = dd4 k p (unB t.1) (unH t.1) t.2.1 t.2.2 := by
      rw [dd4_eq, fl_un]
    rw [e]
    exact Finset.le_sup (f := fun t : Fin 4 × Fin 16 × Fin 4096 × Fin 256 => dd4 k p t.1 t.2.1 t.2.2.1 t.2.2.2)
      (Finset.mem_univ (unB t.1, unH t.1, t.2.1, t.2.2))

/-- The feature map under any stabiliser. -/
theorem feat4_eq (x : U4) (p : T2) (mx : EReal) (b : Fin 4) (h : Fin 16) (n : Fin 4096) (m : Fin 256) :
    feat4 x p mx b h n m = feat (flat x) p mx (fl b h) n m := by
  unfold feat4 feat
  rw [dd4_eq, diag4_eq]

/-- The context: the same sum over the rows n. -/
theorem ctx4_eq (k v : U4) (p : T2) (b : Fin 4) (h : Fin 16) (m : Fin 256) (e : Fin 64) :
    ctx4 k v p b h m e = ctx (flat k) (flat v) p (gmax (flat k) p) (fl b h) m e := by
  unfold ctx4 ctx
  rw [gmax4_eq]
  refine Finset.sum_congr rfl fun n _ => ?_
  rw [feat4_eq, flat_fl]

/-- The reference's formula at slice (b, h) is the kernel's formula of the flattened arrays at slice 16 b + h. -/
theorem refOut_eq_kernelOut (q k v : U4) (p : T2) (b : Fin 4) (h : Fin 16) (n : Fin 4096) (e : Fin 64) :
    refOut q k v p b h n e = kernelOut (flat q) (flat k) (flat v) p (fl b h) n e := by
  unfold refOut kernelOut out
  refine Finset.sum_congr rfl fun m _ => ?_
  rw [feat4_eq, rowmax4_eq, ctx4_eq]

end Cert.Spec

end
-- ==== Proof.lean ====
/-
  The certificate's claim.

  Both printed kernel programs are one text read at two float instances, and every part of the frame proof is written
  once for any instance: three kernel regions (a running maximum kept in an output buffer, an accumulator kept in a
  scratch buffer and copied out at the last of every four points, a plain block-by-block product) chained between two
  stretches of reshapes. The run of the idealized kernel names every buffer at the end; read at the extended reals its
  result is the 64-slice formula of the flattened arguments (`Hand.kernel_value`). The reference's generated run, read
  index by index, is the 4 × 16-slice formula (`RefValue.val_eq_spec`), and the two formulas agree by commutativity and
  associativity of the product, three exact dyadic constants and a bijection of slices (`Spec.refOut_eq_kernelOut`).
-/
import proofs.«106060_j5274219839587_1_alg».proof.Defs
import proofs.«106060_j5274219839587_1_alg».proof.Proof.Gen.Kernel
import proofs.«106060_j5274219839587_1_alg».proof.Proof.Gen.KernelIdeal
import proofs.«106060_j5274219839587_1_alg».proof.Proof.Gen.ReferenceIdeal
import proofs.«106060_j5274219839587_1_alg».proof.Proof.Gen.Pre_finite_inputs
import proofs.«106060_j5274219839587_1_alg».proof.Proof.Gen.ReferenceIdeal.Run
import proofs.«106060_j5274219839587_1_alg».proof.Proof.Gen.ReferenceIdeal.Read
import proofs.«106060_j5274219839587_1_alg».proof.Proof.K.Args
import proofs.«106060_j5274219839587_1_alg».proof.Proof.KI.Args
import proofs.«106060_j5274219839587_1_alg».proof.Proof.KI.Compose
import proofs.«106060_j5274219839587_1_alg».proof.Proof.Ref
import proofs.«106060_j5274219839587_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel and the idealized reference, from memories agreeing on the arguments, end with equal results:
    index by index the kernel's is the 64-slice formula of the flattened arguments, the reference's the 4 × 16-slice
    formula, and the two agree. -/
theorem algebraic : Cert.algebraic_KernelIdeal_ReferenceIdeal := by
  intro m ρ m' ρ' _ hagree
  refine ⟨fun c => Cert.KernelIdeal.Hand.W5 m ρ c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c)⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq]
    funext j
    obtain ⟨b, hh, n, e, rfl⟩ : ∃ (b : Fin 4) (hh : Fin 16) (n : Fin 4096) (e : Fin 64), j = ix4 b hh n e :=
      ⟨j 0, j 1, j 2, j 3, eq_ix4 j⟩
    rw [Cert.ReferenceIdeal.RefValue.val_eq_spec, Cert.Spec.refOut_eq_kernelOut, (hagree c).1, (hagree c).2.1, (hagree c).2.2.1, (hagree c).2.2.2]
    exact (Cert.KernelIdeal.Hand.kernel_value m ρ c b hh n e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
